-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x64 : Shape := ⟨2, ![1600000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x21 : Shape := ⟨2, ![64, 21]⟩
abbrev S21 : Shape := ⟨1, ![21]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x21 : S_.BroadcastsInDim S64x21 (![] : Fin 0 → Fin S64x21.rank)
  reducesTo_S64x21_S_d0_1 : S64x21.ReducesTo [0, 1] S_
  bcast_S_S21 : S_.BroadcastsInDim S21 (![] : Fin 0 → Fin S21.rank)
  reducesTo_S21_S_d0 : S21.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_v78 : IVec S_ 1) (main_v82 : IVec S1600000 1) (main_v84 : IVec S1600000 32) (main_v85 : IVec S1600000 32) : IVec S_ 1 :=
  let main_v86 : IVec S1600000 1 := cmpi .sle main_v84 main_v85
  let main_v87 : IVec S1600000 1 := andi main_v82 main_v86
  let main_c_32 : IVec S_ 1 := constantI S_ 1 1#1
  let main_v88 : IVec S_ 1 := (fun x v => Host.reduce IntOp.andi x v reducesTo_S1600000_S_d0 h_S_) main_v87 main_c_32
  let main_v89 : IVec S_ 1 := andi main_v78 main_v88
  main_v89

def fn_part4 {F : FTy → Type} [FloatOps F] (main_arg2 : IVec S2x1600000 32) (main_arg15 : FVec F S64x21 .f32) (main_arg16 : FVec F S21 .f32) (main_v63 : IVec S_ 1) (main_v67 : IVec S_ 1) : IVec S_ 1 :=
  let main_v68 : IVec S_ 1 := andi main_v63 main_v67
  let main_v69 : FVec F S64x21 .f32 := Host.absf main_arg15
  let main_cst_26 : FVec F S_ .f32 := constant S_ .f32 0x7F800000#32
  let main_v70 : FVec F S64x21 .f32 := broadcastInDim S64x21 ![] bcast_S_S64x21 main_cst_26
  let main_v71 : IVec S64x21 1 := cmpf .olt main_v69 main_v70
  let main_c_27 : IVec S_ 1 := constantI S_ 1 1#1
  let main_v72 : IVec S_ 1 := (fun x v => Host.reduce IntOp.andi x v reducesTo_S64x21_S_d0_1 h_S_) main_v71 main_c_27
  let main_v73 : IVec S_ 1 := andi main_v68 main_v72
  let main_v74 : FVec F S21 .f32 := Host.absf main_arg16
  let main_cst_28 : FVec F S_ .f32 := constant S_ .f32 0x7F800000#32
  let main_v75 : FVec F S21 .f32 := broadcastInDim S21 ![] bcast_S_S21 main_cst_28
  let main_v76 : IVec S21 1 := cmpf .olt main_v74 main_v75
  let main_c_29 : IVec S_ 1 := constantI S_ 1 1#1
  let main_v77 : IVec S_ 1 := (fun x v => Host.reduce IntOp.andi x v reducesTo_S21_S_d0 h_S_) main_v76 main_c_29
  let main_v78 : IVec S_ 1 := andi main_v73 main_v77
  let main_v79 : IVec S1x1600000 32 := (extractStridedSlice S1x1600000 ![0, 0] · slices_S2x1600000_S1x1600000_0_0) main_arg2
  let main_v80 : IVec S1600000 32 := shapeCast S1600000 main_v79 shapeCasts_S1x1600000_S1600000
  let main_c_30 : IVec S_ 32 := constantI S_ 32 0#32
  let main_v81 : IVec S1600000 32 := broadcastInDim S1600000 ![] bcast_S_S1600000 main_c_30
  let main_v82 : IVec S1600000 1 := cmpi .sge main_v80 main_v81
  let main_v83 : IVec S1x1600000 32 := (extractStridedSlice S1x1600000 ![0, 0] · slices_S2x1600000_S1x1600000_0_0) main_arg2
  let main_v84 : IVec S1600000 32 := shapeCast S1600000 main_v83 shapeCasts_S1x1600000_S1600000
  let main_c_31 : IVec S_ 32 := constantI S_ 32 99999#32
  let main_v85 : IVec S1600000 32 := broadcastInDim S1600000 ![] bcast_S_S1600000 main_c_31
  fn_part5 (F := F) main_v78 main_v82 main_v84 main_v85

def fn_part3 {F : FTy → Type} [FloatOps F] (main_arg2 : IVec S2x1600000 32) (main_arg12 : FVec F S64 .f32) (main_arg13 : FVec F S64x64 .f32) (main_arg14 : FVec F S64 .f32) (main_arg15 : FVec F S64x21 .f32) (main_arg16 : FVec F S21 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg15 main_arg16 main_v63 main_v67

def fn_part2 {F : FTy → Type} [FloatOps F] (main_arg2 : IVec S2x1600000 32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x21 .f32) (main_arg16 : FVec F S21 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg2 main_arg12 main_arg13 main_arg14 main_arg15 main_arg16 main_v48 main_v49 main_v50

def fn_part1 {F : FTy → Type} [FloatOps F] (main_arg2 : IVec S2x1600000 32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x21 .f32) (main_arg16 : FVec F S21 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S100000x128 .f32) (main_arg1 : FVec F S1600000x64 .f32) (main_arg2 : IVec S2x1600000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x21 .f32) (main_arg16 : FVec F S21 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S1600000x64 : Shape := ⟨2, ![1600000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x21 : Shape := ⟨2, ![64, 21]⟩
abbrev S21 : Shape := ⟨1, ![21]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1x21 : Shape := ⟨2, ![1, 21]⟩
abbrev S100000x21 : Shape := ⟨2, ![100000, 21]⟩
abbrev S10000x21 : Shape := ⟨2, ![10000, 21]⟩

abbrev nBuf : Space → Nat
  | .hbm => 103
  | .vmem => 50
  | .smem => 0
  | _ => 0

abbrev bufTy : (tb : Table) → Fin (tcTables nBuf tb) → BufTy
  | .hbm, ⟨0, _⟩ => ⟨S100000x128, .f32⟩
  | .hbm, ⟨1, _⟩ => ⟨S1600000x64, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x21, .f32⟩
  | .hbm, ⟨16, _⟩ => ⟨S21, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S1x64, .f32⟩
  | .hbm, ⟨22, _⟩ => ⟨S100000x64, .f32⟩
  | .hbm, ⟨23, _⟩ => ⟨S1x64, .f32⟩
  | .hbm, ⟨24, _⟩ => ⟨S1600000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1, .i32⟩
  | .hbm, ⟨34, _⟩ => ⟨S_, .i32⟩
  | .hbm, ⟨35, _⟩ => ⟨S1600000x1, .i32⟩
  | .hbm, ⟨36, _⟩ => ⟨S1600000x1, .i1⟩
  | .hbm, ⟨37, _⟩ => ⟨S1x1, .i32⟩
  | .hbm, ⟨38, _⟩ => ⟨S1600000x1, .i32⟩
  | .hbm, ⟨39, _⟩ => ⟨S1600000x1, .i1⟩
  | .hbm, ⟨40, _⟩ => ⟨S1600000x1, .i1⟩
  | .hbm, ⟨41, _⟩ => ⟨S_, .i1⟩
  | .hbm, ⟨42, _⟩ => ⟨S1600000, .i1⟩
  | .hbm, ⟨43, _⟩ => ⟨S1600000x64, .f32⟩
  | .hbm, ⟨44, _⟩ => ⟨S1600000x64, .i1⟩
  | .hbm, ⟨45, _⟩ => ⟨S_, .f32⟩
  | .hbm, ⟨46, _⟩ => ⟨S1600000x64, .f32⟩
  | .hbm, ⟨47, _⟩ => ⟨S1600000x64, .f32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S1x64, .f32⟩
  | .hbm, ⟨54, _⟩ => ⟨S1x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .i1⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1, .i32⟩
  | .hbm, ⟨72, _⟩ => ⟨S_, .i32⟩
  | .hbm, ⟨73, _⟩ => ⟨S1600000x1, .i32⟩
  | .hbm, ⟨74, _⟩ => ⟨S1600000x1, .i1⟩
  | .hbm, ⟨75, _⟩ => ⟨S1x1, .i32⟩
  | .hbm, ⟨76, _⟩ => ⟨S1600000x1, .i32⟩
  | .hbm, ⟨77, _⟩ => ⟨S1600000x1, .i1⟩
  | .hbm, ⟨78, _⟩ => ⟨S1600000x1, .i1⟩
  | .hbm, ⟨79, _⟩ => ⟨S_, .i1⟩
  | .hbm, ⟨80, _⟩ => ⟨S1600000, .i1⟩
  | .hbm, ⟨81, _⟩ => ⟨S1600000x64, .f32⟩
  | .hbm, ⟨82, _⟩ => ⟨S1600000x64, .i1⟩
  | .hbm, ⟨83, _⟩ => ⟨S_, .f32⟩
  | .hbm, ⟨84, _⟩ => ⟨S1600000x64, .f32⟩
  | .hbm, ⟨85, _⟩ => ⟨S1600000x64, .f32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S1x64, .f32⟩
  | .hbm, ⟨92, _⟩ => ⟨S1x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .i1⟩
  | .hbm, ⟨97, _⟩ => ⟨S_, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S1x21, .f32⟩
  | .hbm, ⟨102, _⟩ => ⟨S100000x21, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S64x21, .f32⟩
  | .local _ .vmem, ⟨47, _⟩ => ⟨S1x21, .f32⟩
  | .local _ .vmem, ⟨48, _⟩ => ⟨S10000x21, .f32⟩
  | .local _ .vmem, ⟨49, _⟩ => ⟨S10000x21, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v8 : Ref sig .tc := ⟨.hbm, 47, rfl⟩
abbrev main_v9 : Ref sig .tc := ⟨.hbm, 48, rfl⟩
abbrev main_cst : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_0 : Ref sig .tc := ⟨.hbm, 56, rfl⟩
abbrev main_v16 : Ref sig .tc := ⟨.hbm, 57, rfl⟩
abbrev main_v17 : Ref sig .tc := ⟨.hbm, 58, rfl⟩
abbrev main_cst_1 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v21 : Ref sig .tc := ⟨.hbm, 85, rfl⟩
abbrev main_v22 : Ref sig .tc := ⟨.hbm, 86, rfl⟩
abbrev main_cst_2 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_cst_3 : Ref sig .tc := ⟨.hbm, 94, rfl⟩
abbrev main_v29 : Ref sig .tc := ⟨.hbm, 95, rfl⟩
abbrev main_v30 : Ref sig .tc := ⟨.hbm, 96, rfl⟩
abbrev main_cst_4 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x21 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x21 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x21 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S10000x64_S10000x64 : S10000x64.ShapeCasts S10000x64
  bcast_S_S100000x64 : S_.BroadcastsInDim S100000x64 (![] : Fin 0 → Fin S100000x64.rank)
  shapeCasts_S21_S1x21 : S21.ShapeCasts S1x21
  inb_S64x21_S64x21_0_0 : ∀ a, (![0, 0] : Fin 2 → Nat) a + S64x21.size a ≤ S64x21.size a
  h_S64x21 : 0 < S64x21.numel
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S10000x21 : S1x21.Broadcasts S10000x21
  inb_S10000x21_S10000x21_0_0 : ∀ a, (![0, 0] : Fin 2 → Nat) a + S10000x21.size a ≤ S10000x21.size a
  h_S10000x21 : 0 < S10000x21.numel
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x21_S10000x21_1_0_0_1_n_n_wf : DotDims.WF S10000x64 S64x21 S10000x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1600000x64.size a
  hwx1_0 : ∀ i : grid1.Coords, EltTy.bits .f32 = 32 ∨ (Rect.block (s := S1600000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S1600000x64.size a
  hwx1_3 : ∀ i : grid1.Coords, EltTy.bits .f32 = 32 ∨ (Rect.block (s := S1600000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1600000x64.size a
  hwx2_0 : ∀ i : grid2.Coords, EltTy.bits .f32 = 32 ∨ (Rect.block (s := S1600000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S1600000x64.size a
  hwx2_1 : ∀ i : grid2.Coords, EltTy.bits .f32 = 32 ∨ (Rect.block (s := S1600000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1600000x64.size a
  hwx2_2 : ∀ i : grid2.Coords, EltTy.bits .f32 = 32 ∨ (Rect.block (s := S1600000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1600000x64.size a
  hwx4_0 : ∀ i : grid4.Coords, EltTy.bits .f32 = 32 ∨ (Rect.block (s := S1600000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S1600000x64.size a
  hwx4_1 : ∀ i : grid4.Coords, EltTy.bits .f32 = 32 ∨ (Rect.block (s := S1600000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1600000x64.size a
  hwx4_2 : ∀ i : grid4.Coords, EltTy.bits .f32 = 32 ∨ (Rect.block (s := S1600000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x21.size a ≤ S64x21.size a
  hwx6_1 : ∀ i : grid6.Coords, EltTy.bits .f32 = 32 ∨ (Rect.block (s := S64x21) S64x21.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x21.size a ≤ S1x21.size a
  hwx6_2 : ∀ i : grid6.Coords, EltTy.bits .f32 = 32 ∨ (Rect.block (s := S1x21) S1x21.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x21.size a ≤ S100000x21.size a
  hwx6_3 : ∀ i : grid6.Coords, EltTy.bits .f32 = 32 ∨ (Rect.block (s := S100000x21) S10000x21.size (cc6_transform_3 i) (hinb6_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x21_S10000x21_1_0_0_1_n_n : DotDims S10000x64 S64x21 S10000x21 where
  lhsContracting := [1]
  rhsContracting := [0]
  lhsNonContracting := [0]
  rhsNonContracting := [1]
  lhsBatch := []
  rhsBatch := []
  wf := dot_S10000x64_S64x21_S10000x21_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v14) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v15) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v21) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v22) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v20) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg11) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v26) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg13) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v27) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v28) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v33) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S64x21.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v34) S1x21.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v35) S10000x21.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S1600000x64 : Shape := ⟨2, ![1600000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x21 : Shape := ⟨2, ![64, 21]⟩
abbrev S21 : Shape := ⟨1, ![21]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S100000x21 : Shape := ⟨2, ![100000, 21]⟩
abbrev S1x21 : Shape := ⟨2, ![1, 21]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x64, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x21, .f32⟩
  | .hbm, ⟨16, _⟩ => ⟨S21, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .i1⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1600000x64, .f32⟩
  | .hbm, ⟨33, _⟩ => ⟨S1x64, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S1600000x64, .f32⟩
  | .hbm, ⟨38, _⟩ => ⟨S1600000x64, .i1⟩
  | .hbm, ⟨39, _⟩ => ⟨S_, .f32⟩
  | .hbm, ⟨40, _⟩ => ⟨S1600000x64, .f32⟩
  | .hbm, ⟨41, _⟩ => ⟨S1600000x64, .f32⟩
  | .hbm, ⟨42, _⟩ => ⟨S1600000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .i1⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .i1⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S1600000x64, .f32⟩
  | .hbm, ⟨93, _⟩ => ⟨S_, .f32⟩
  | .hbm, ⟨94, _⟩ => ⟨S1600000x64, .f32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000x64, .f32⟩
  | .hbm, ⟨107, _⟩ => ⟨S100000x64, .i1⟩
  | .hbm, ⟨108, _⟩ => ⟨S_, .f32⟩
  | .hbm, ⟨109, _⟩ => ⟨S100000x64, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .i1⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S100000x64, .f32⟩
  | .hbm, ⟨123, _⟩ => ⟨S100000x21, .f32⟩
  | .hbm, ⟨124, _⟩ => ⟨S1x21, .f32⟩
  | .hbm, ⟨125, _⟩ => ⟨S100000x21, .f32⟩
  | .hbm, ⟨126, _⟩ => ⟨S100000x21, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_cst : Ref sig .tc := ⟨.hbm, 53, rfl⟩
abbrev main_call2_v0 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_9 : Ref sig .tc := ⟨.hbm, 83, rfl⟩
abbrev main_v53 : Ref sig .tc := ⟨.hbm, 84, rfl⟩
abbrev main_v54 : Ref sig .tc := ⟨.hbm, 85, rfl⟩
abbrev main_c_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call5_cst : Ref sig .tc := ⟨.hbm, 93, rfl⟩
abbrev main_call5_v0 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_14 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S21_S1x21_1 : S21.BroadcastsInDim S1x21 (![1] : Fin 1 → Fin S1x21.rank)
  bcast_S1x21_S100000x21_0_1 : S1x21.BroadcastsInDim S100000x21 (![0, 1] : Fin 2 → Fin S100000x21.rank)
  dot_S100000x128_S128x64_S100000x64_1_0_0_1_n_n_wf : DotDims.WF S100000x128 S128x64 S100000x64 [1] [0] [0] [1] [] []
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x21_S100000x21_1_0_0_1_n_n_wf : DotDims.WF S100000x64 S64x21 S100000x21 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x21_S100000x21_1_0_0_1_n_n : DotDims S100000x64 S64x21 S100000x21 where
  lhsContracting := [1]
  rhsContracting := [0]
  lhsNonContracting := [0]
  rhsNonContracting := [1]
  lhsBatch := []
  rhsBatch := []
  wf := dot_S100000x64_S64x21_S100000x21_1_0_0_1_n_n_wf

class Facts : Prop extends Facts₀ where

variable [Facts]
-- ==== Proof.RegLin.lean ====
import proofs.«420455_j26972394618971_2_alg».proof.Proof.Gen.KernelIdeal.Frame
import proofs.«420455_j26972394618971_2_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Idealize.ShloMosaic Idealize.ShloMosaic.TcCoe Idealize.SL.Sem
open Cert.KernelIdeal Cert.KernelIdeal.Gen
open Cert.ReferenceIdeal.ReadP (val_main_v1 val_main_v3 val_main_v12 val_main_v21 val_main_v26 val_main_v27 val_main_v28 val_main_v30 val_main_v33 val_main_v47 val_main_v52 val_main_v57 val_main_v58 val_main_v59 val_main_v61 val_main_v64 val_main_v78 val_main_v83 val_main_v87)

-- The TensorCore's buffers as a region finds them.
variable (V : (c : Dev nD) → (b : Ref sig .tc) → Buf (Elt Ideal) ((c : Thread nD τ).loc b))

private theorem hz2 : (![0, 0] : Fin 2 → Nat) = fun _ => 0 := funext fun a => by fin_cases a <;> rfl

/-- LeakyReLU with slope 0.2 of an extended real, as both programs spell it: z where z > 0, 0.2·z elsewhere. -/
private abbrev leaky (z : EReal) : EReal :=
  Scalar.select (FloatOps.cmpf (F := Ideal) .ogt z (FloatOps.ofBits .f32 0x00000000#32)) z (FloatOps.mulf (F := Ideal) (FloatOps.ofBits .f32 0x3E4CCCCD#32) z)

/-! ## Region 0 -/

private theorem klhs0_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
private theorem klhs0_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
private theorem krhs0_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
private theorem krhs0_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block product at an entry: the sum over the contracted axis. -/
private theorem mm0_apply (a : FVec Ideal S10000x128 .bf16) (w : FVec Ideal S128x64 .bf16) (p : Fin 10000) (q : Fin 64) :
    matmul dot_S10000x128_S128x64_S10000x64_1_0_0_1_n_n none a w (constant S10000x64 .f32 0x00000000#32) (ValueIdx.ix2 p q)
      = ∑ k : Fin 128, a (ValueIdx.ix2 p k) * w (ValueIdx.ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ValueIdx.ix2 p q) ((ValueIdx.contrEquiv1 dot_S10000x128_S128x64_S10000x64_1_0_0_1_n_n 128 rfl rfl).symm k) = ValueIdx.ix2 p k := funext fun a => Fin.ext (by
    match a with
    | ⟨0, _⟩ => exact klhs0_0 _ _
    | ⟨1, _⟩ => exact (klhs0_1 _ _).trans hk)
  have er : dot_S10000x128_S128x64_S10000x64_1_0_0_1_n_n.rhsIdx (ValueIdx.ix2 p q) ((ValueIdx.contrEquiv1 dot_S10000x128_S128x64_S10000x64_1_0_0_1_n_n 128 rfl rfl).symm k) = ValueIdx.ix2 k q := funext fun a => Fin.ext (by
    match a with
    | ⟨0, _⟩ => exact (krhs0_0 _ _).trans hk
    | ⟨1, _⟩ => exact krhs0_1 _ _)
  rw [el, er]

/-- The body's payload at an entry of the block: x·W + b then LeakyReLU of the loaded blocks. -/
private theorem pay0_apply (a : FVec Ideal S10000x128 .f32) (w : FVec Ideal S128x64 .f32) (b : FVec Ideal S1x64 .f32) (p : Fin 10000) (q : Fin 64) :
    k0_pay1 (F := Ideal) a w b (ValueIdx.ix2 p q)
      = leaky ((∑ k : Fin 128, a (ValueIdx.ix2 p k) * w (ValueIdx.ix2 k q)) + b (ValueIdx.ix2 0 q)) := by
  unfold k0_pay1
  have e : addf (matmul dot_S10000x128_S128x64_S10000x64_1_0_0_1_n_n none (truncf .bf16 a bitsLt_bf16_f32) (truncf .bf16 w bitsLt_bf16_f32) (constant S10000x64 .f32 0x00000000#32))
      (broadcastTo S10000x64 (shapeCast S1x64 b shapeCasts_S1x64_S1x64) broadcasts_S1x64_S10000x64) (ValueIdx.ix2 p q)
      = (∑ k : Fin 128, a (ValueIdx.ix2 p k) * w (ValueIdx.ix2 k q)) + b (ValueIdx.ix2 0 q) := by
    rw [ValueIdx.addf_apply, shapeCast_self, mm0_apply]
    refine congrArg₂ (· + ·) rfl ?_
    exact broadcastTo_apply b broadcasts_S1x64_S10000x64 (ValueIdx.ix2 p q) (ValueIdx.ix2 0 q) (fun a => match a with
      | ⟨0, _⟩ => by show 0 = if (1 : Nat) = 1 then 0 else _; rw [if_pos rfl]
      | ⟨1, _⟩ => by show q.val = if (64 : Nat) = 1 then 0 else _; rw [if_neg (by decide)]; rfl)
  show leaky (addf (matmul dot_S10000x128_S128x64_S10000x64_1_0_0_1_n_n none (truncf .bf16 a bitsLt_bf16_f32) (truncf .bf16 w bitsLt_bf16_f32) (constant S10000x64 .f32 0x00000000#32))
      (broadcastTo S10000x64 (shapeCast S1x64 b shapeCasts_S1x64_S1x64) broadcasts_S1x64_S10000x64) (ValueIdx.ix2 p q)) = _
  rw [e]

/-- x·W + b then LeakyReLU, entry by entry of the whole array. -/
private abbrev lin0 (xa : FVec Ideal S100000x128 .f32) (xw : FVec Ideal S128x64 .f32) (xb : FVec Ideal S64 .f32) : S100000x64.Idx → EReal := fun i =>
  leaky ((∑ k : Fin 128, xa (ValueIdx.ix2 (n0 := 100000) ⟨(i 0).val, (i 0).isLt⟩ k) * xw (ValueIdx.ix2 k (n1 := 64) ⟨(i 1).val, (i 1).isLt⟩))
    + xb (ValueIdx.ix1 (n := 64) ⟨(i 1).val, (i 1).isLt⟩))

/-- The index maps over the grid: the row block moves with the point, every other block index is 0. -/
private theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row block of the left operand at point t: rows t·10000 … t·10000 + 9999. -/
private theorem blk0_0_read (c : Dev nD) (t : Fin cfg0.N) (xa : FVec Ideal S100000x128 .f32) (ha : V c main_arg0 = xa)
    (y : S10000x128.Idx) (i : S100000x128.Idx) (e0 : (i 0).val = t.val * 10000 + (y 0).val) (e1 : (i 1).val = (y 1).val) :
    iblk0 V c 0 t y = xa i := by
  show V c main_arg0 (((cfg0.win 0).blk t).view.emb y) = xa i
  rw [ha]
  obtain ⟨f0, f1, -⟩ := idx_facts0 t
  refine congrArg xa (funext fun a => Fin.ext ?_)
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The weight block is the whole weight. -/
private theorem blk0_1_read (c : Dev nD) (t : Fin cfg0.N) (xw : FVec Ideal S128x64 .f32) (hw : V c main_arg3 = xw)
    (y : S128x64.Idx) : iblk0 V c 1 t y = xw y := by
  show V c main_arg3 (((cfg0.win 1).blk t).view.emb y) = xw y
  rw [hw]
  obtain ⟨-, -, f0, f1, -⟩ := idx_facts0 t
  refine congrArg xw (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The bias block is the bias as one row. -/
private theorem blk0_2_read (c : Dev nD) (t : Fin cfg0.N) (xb : FVec Ideal S64 .f32) (hb : V c main_v4 = shapeCast S1x64 xb shapeCasts_S64_S1x64)
    (q : Fin 64) : iblk0 V c 2 t (ValueIdx.ix2 (0 : Fin 1) q) = xb (ValueIdx.ix1 q) := by
  show V c main_v4 (((cfg0.win 2).blk t).view.emb (ValueIdx.ix2 (0 : Fin 1) q)) = xb (ValueIdx.ix1 q)
  rw [hb]
  obtain ⟨-, -, -, -, f0, f1, -⟩ := idx_facts0 t
  refine (congrArg (shapeCast S1x64 xb shapeCasts_S64_S1x64) (funext fun a => Fin.ext ?_)).trans (ValueIdx.shapeCast_a_1a_apply xb shapeCasts_S64_S1x64 (0 : Fin 1) q)
  match a with
  | ⟨0, _⟩ => show win0_2.index t (0 : Fin 2) * 1 + 1 * 0 = 0; omega
  | ⟨1, _⟩ => show win0_2.index t (1 : Fin 2) * 64 + 1 * q.val = q.val; omega

/-- What point t writes back is block t of the whole-array function. -/
private theorem flushed0_eq (c : Dev nD) (xa : FVec Ideal S100000x128 .f32) (xw : FVec Ideal S128x64 .f32) (xb : FVec Ideal S64 .f32)
    (ha : V c main_arg0 = xa) (hw : V c main_arg3 = xw) (hb : V c main_v4 = shapeCast S1x64 xb shapeCasts_S64_S1x64) (t : Fin cfg0.N) :
    (dat0 (F := Ideal) V c).flushed 3 t = ((cfg0.win 3).blk t).view.read (Elt Ideal) (lin0 xa xw xb) := by
  show (cfg0.win 3).cut (grid0.coords t) ((dat0 (F := Ideal) V c).after 3 t) = _
  rw [after0_3]
  unfold out0_3
  rw [View.canon_unit_zero hz2]
  simp only [View.ld_unit_zero (S := S10000x128) hz2, View.ld_unit_zero (S := S128x64) hz2, View.ld_unit_zero (S := S1x64) hz2]
  obtain ⟨-, -, -, -, -, -, f0, f1⟩ := idx_facts0 t
  funext y
  have hy : y = ValueIdx.ix2 (n0 := 10000) (n1 := 64) (y 0) (y 1) := ValueIdx.eq_ix2 y
  show k0_pay1 (F := Ideal) (iblk0 V c 0 t) (iblk0 V c 1 t) (iblk0 V c 2 t) y = lin0 xa xw xb (((cfg0.win 3).blk t).view.emb y)
  rw [hy]
  refine (pay0_apply (iblk0 V c 0 t) (iblk0 V c 1 t) (iblk0 V c 2 t) (y 0) (y 1)).trans ?_
  have e0 : ((((cfg0.win 3).blk t).view.emb (ValueIdx.ix2 (n0 := 10000) (n1 := 64) (y 0) (y 1))) 0).val = t.val * 10000 + (y 0).val := by
    show win0_3.index t (0 : Fin 2) * 10000 + 1 * (y 0).val = _; omega
  have e1 : ((((cfg0.win 3).blk t).view.emb (ValueIdx.ix2 (n0 := 10000) (n1 := 64) (y 0) (y 1))) 1).val = (y 1).val := by
    show win0_3.index t (1 : Fin 2) * 64 + 1 * (y 1).val = _; omega
  refine congrArg leaky (congrArg₂ (· + ·) (Finset.sum_congr rfl fun k _ => congrArg₂ (· * ·) ?_ ?_) ?_)
  · exact blk0_0_read V c t xa ha _ _ e0 rfl
  · exact (blk0_1_read V c t xw hw _).trans (congrArg xw (congrArg (ValueIdx.ix2 k) (Fin.ext e1.symm)))
  · exact (blk0_2_read V c t xb hb (y 1)).trans (congrArg xb (congrArg ValueIdx.ix1 (Fin.ext e1.symm)))

/-- An index of the array is in point t's block iff each coordinate is in the block's range on its axis. -/
private theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v5).slice (win0_3.rect t)).set ↔ _
  rw [View.set_slice_whole, Rect.mem_set_unit]
  exact Iff.rfl

/-- Row r of the array lies in the block of point r / 10000. -/
private theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  have ht : (i 0).val / 10000 < cfg0.N := by show (i 0).val / 10000 < grid0.N; omega
  obtain ⟨-, -, -, -, -, -, f0, f1⟩ := idx_facts0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    have e : win0_3.index ⟨(i 0).val / 10000, ht⟩ (0 : Fin 2) = (i 0).val / 10000 := f0
    omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    omega

/-- The array after the region: the whole-array function, since the blocks cover it. -/
private theorem final0 (c : Dev nD) (xa : FVec Ideal S100000x128 .f32) (xw : FVec Ideal S128x64 .f32) (xb : FVec Ideal S64 .f32)
    (ha : V c main_arg0 = xa) (hw : V c main_arg3 = xw) (hb : V c main_v4 = shapeCast S1x64 xb shapeCasts_S64_S1x64) :
    (dat0 (F := Ideal) V c).arrAt 3 cfg0.N = lin0 xa xw xb :=
  (dat0 (F := Ideal) V c).arrAt_eq_of_cover 3 (lin0 xa xw xb) (fun t _ => flushed0_eq V c xa xw xb ha hw hb t) cover0

/-- The reference's stage is the same function of the arguments, entry by entry. -/
private theorem ref0_eq (x0 : FVec Ideal S100000x128 .f32) (x3 : FVec Ideal S128x64 .f32) (x4 : FVec Ideal S64 .f32) :
    val_main_v12 (F := Ideal) x0 x3 x4 = lin0 x0 x3 x4 := by
  funext i
  rw [Cert.ReferenceIdeal.ReadP.val_main_v12_apply, Cert.ReferenceIdeal.ReadP.val_main_v9_apply, Cert.ReferenceIdeal.ReadP.val_main_v11_apply, Cert.ReferenceIdeal.ReadP.val_main_v7_apply, Cert.ReferenceIdeal.ReadP.val_main_v8_apply, Cert.ReferenceIdeal.ReadP.val_main_v10_apply,
    Cert.ReferenceIdeal.ReadP.val_main_cst_apply, Cert.ReferenceIdeal.ReadP.val_main_cst_0_apply, Cert.ReferenceIdeal.ReadP.val_main_v4_apply, Cert.ReferenceIdeal.ReadP.val_main_v6_apply, Cert.ReferenceIdeal.ReadP.val_main_v5_apply]
  refine congrArg leaky (congrArg₂ (· + ·) (Finset.sum_congr rfl fun k _ => congrArg₂ (· * ·) (congrArg x0 ?_) (congrArg x3 ?_)) (congrArg x4 ?_))
  · funext a; match a with
    | ⟨0, _⟩ => rfl
    | ⟨1, _⟩ => rfl
  · funext a; match a with
    | ⟨0, _⟩ => rfl
    | ⟨1, _⟩ => rfl
  · funext a; match a with
    | ⟨0, _⟩ => rfl

/-- Region 0 (node projection): the array the pipeline leaves in %5 is the reference's LeakyReLU(x·W + b), index by index. -/
theorem reg0_out (c : Dev nD) (x0 : FVec Ideal S100000x128 .f32) (x3 : FVec Ideal S128x64 .f32) (x4 : FVec Ideal S64 .f32)
    (h0 : V c main_arg0 = x0) (h3 : V c main_arg3 = x3) (h4 : V c main_v4 = shapeCast S1x64 x4 shapeCasts_S64_S1x64) :
    (dat0 (F := Ideal) V c).arrAt 3 cfg0.N = val_main_v12 (F := Ideal) x0 x3 x4 := by
  rw [ref0_eq]
  exact final0 V c x0 x3 x4 h0 h3 h4

/-! ## Region 1 -/

private theorem klhs1_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
private theorem klhs1_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
private theorem krhs1_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
private theorem krhs1_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product at an entry: the sum over the contracted axis. -/
private theorem mm1_apply (a : FVec Ideal S10000x64 .bf16) (w : FVec Ideal S64x64 .bf16) (p : Fin 10000) (q : Fin 64) :
    matmul dot_S10000x64_S64x64_S10000x64_1_0_0_1_n_n none a w (constant S10000x64 .f32 0x00000000#32) (ValueIdx.ix2 p q)
      = ∑ k : Fin 64, a (ValueIdx.ix2 p k) * w (ValueIdx.ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ValueIdx.ix2 p q) ((ValueIdx.contrEquiv1 dot_S10000x64_S64x64_S10000x64_1_0_0_1_n_n 64 rfl rfl).symm k) = ValueIdx.ix2 p k := funext fun a => Fin.ext (by
    match a with
    | ⟨0, _⟩ => exact klhs1_0 _ _
    | ⟨1, _⟩ => exact (klhs1_1 _ _).trans hk)
  have er : dot_S10000x64_S64x64_S10000x64_1_0_0_1_n_n.rhsIdx (ValueIdx.ix2 p q) ((ValueIdx.contrEquiv1 dot_S10000x64_S64x64_S10000x64_1_0_0_1_n_n 64 rfl rfl).symm k) = ValueIdx.ix2 k q := funext fun a => Fin.ext (by
    match a with
    | ⟨0, _⟩ => exact (krhs1_0 _ _).trans hk
    | ⟨1, _⟩ => exact krhs1_1 _ _)
  rw [el, er]

/-- The body's payload at an entry of the block: x·W + b then LeakyReLU of the loaded blocks. -/
private theorem pay1_apply (a : FVec Ideal S10000x64 .f32) (w : FVec Ideal S64x64 .f32) (b : FVec Ideal S1x64 .f32) (p : Fin 10000) (q : Fin 64) :
    k1_pay1 (F := Ideal) a w b (ValueIdx.ix2 p q)
      = leaky ((∑ k : Fin 64, a (ValueIdx.ix2 p k) * w (ValueIdx.ix2 k q)) + b (ValueIdx.ix2 0 q)) := by
  unfold k1_pay1
  have e : addf (matmul dot_S10000x64_S64x64_S10000x64_1_0_0_1_n_n none (truncf .bf16 a bitsLt_bf16_f32) (truncf .bf16 w bitsLt_bf16_f32) (constant S10000x64 .f32 0x00000000#32))
      (broadcastTo S10000x64 (shapeCast S1x64 b shapeCasts_S1x64_S1x64) broadcasts_S1x64_S10000x64) (ValueIdx.ix2 p q)
      = (∑ k : Fin 64, a (ValueIdx.ix2 p k) * w (ValueIdx.ix2 k q)) + b (ValueIdx.ix2 0 q) := by
    rw [ValueIdx.addf_apply, shapeCast_self, mm1_apply]
    refine congrArg₂ (· + ·) rfl ?_
    exact broadcastTo_apply b broadcasts_S1x64_S10000x64 (ValueIdx.ix2 p q) (ValueIdx.ix2 0 q) (fun a => match a with
      | ⟨0, _⟩ => by show 0 = if (1 : Nat) = 1 then 0 else _; rw [if_pos rfl]
      | ⟨1, _⟩ => by show q.val = if (64 : Nat) = 1 then 0 else _; rw [if_neg (by decide)]; rfl)
  show leaky (addf (matmul dot_S10000x64_S64x64_S10000x64_1_0_0_1_n_n none (truncf .bf16 a bitsLt_bf16_f32) (truncf .bf16 w bitsLt_bf16_f32) (constant S10000x64 .f32 0x00000000#32))
      (broadcastTo S10000x64 (shapeCast S1x64 b shapeCasts_S1x64_S1x64) broadcasts_S1x64_S10000x64) (ValueIdx.ix2 p q)) = _
  rw [e]

/-- x·W + b then LeakyReLU, entry by entry of the whole array. -/
private abbrev lin1 (xa : FVec Ideal S1600000x64 .f32) (xw : FVec Ideal S64x64 .f32) (xb : FVec Ideal S64 .f32) : S1600000x64.Idx → EReal := fun i =>
  leaky ((∑ k : Fin 64, xa (ValueIdx.ix2 (n0 := 1600000) ⟨(i 0).val, (i 0).isLt⟩ k) * xw (ValueIdx.ix2 k (n1 := 64) ⟨(i 1).val, (i 1).isLt⟩))
    + xb (ValueIdx.ix1 (n := 64) ⟨(i 1).val, (i 1).isLt⟩))

/-- The index maps over the grid: the row block moves with the point, every other block index is 0. -/
private theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row block of the left operand at point t: rows t·10000 … t·10000 + 9999. -/
private theorem blk1_0_read (c : Dev nD) (t : Fin cfg1.N) (xa : FVec Ideal S1600000x64 .f32) (ha : V c main_arg1 = xa)
    (y : S10000x64.Idx) (i : S1600000x64.Idx) (e0 : (i 0).val = t.val * 10000 + (y 0).val) (e1 : (i 1).val = (y 1).val) :
    iblk1 V c 0 t y = xa i := by
  show V c main_arg1 (((cfg1.win 0).blk t).view.emb y) = xa i
  rw [ha]
  obtain ⟨f0, f1, -⟩ := idx_facts1 t
  refine congrArg xa (funext fun a => Fin.ext ?_)
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The weight block is the whole weight. -/
private theorem blk1_1_read (c : Dev nD) (t : Fin cfg1.N) (xw : FVec Ideal S64x64 .f32) (hw : V c main_arg5 = xw)
    (y : S64x64.Idx) : iblk1 V c 1 t y = xw y := by
  show V c main_arg5 (((cfg1.win 1).blk t).view.emb y) = xw y
  rw [hw]
  obtain ⟨-, -, f0, f1, -⟩ := idx_facts1 t
  refine congrArg xw (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- The bias block is the bias as one row. -/
private theorem blk1_2_read (c : Dev nD) (t : Fin cfg1.N) (xb : FVec Ideal S64 .f32) (hb : V c main_v6 = shapeCast S1x64 xb shapeCasts_S64_S1x64)
    (q : Fin 64) : iblk1 V c 2 t (ValueIdx.ix2 (0 : Fin 1) q) = xb (ValueIdx.ix1 q) := by
  show V c main_v6 (((cfg1.win 2).blk t).view.emb (ValueIdx.ix2 (0 : Fin 1) q)) = xb (ValueIdx.ix1 q)
  rw [hb]
  obtain ⟨-, -, -, -, f0, f1, -⟩ := idx_facts1 t
  refine (congrArg (shapeCast S1x64 xb shapeCasts_S64_S1x64) (funext fun a => Fin.ext ?_)).trans (ValueIdx.shapeCast_a_1a_apply xb shapeCasts_S64_S1x64 (0 : Fin 1) q)
  match a with
  | ⟨0, _⟩ => show win1_2.index t (0 : Fin 2) * 1 + 1 * 0 = 0; omega
  | ⟨1, _⟩ => show win1_2.index t (1 : Fin 2) * 64 + 1 * q.val = q.val; omega

/-- What point t writes back is block t of the whole-array function. -/
private theorem flushed1_eq (c : Dev nD) (xa : FVec Ideal S1600000x64 .f32) (xw : FVec Ideal S64x64 .f32) (xb : FVec Ideal S64 .f32)
    (ha : V c main_arg1 = xa) (hw : V c main_arg5 = xw) (hb : V c main_v6 = shapeCast S1x64 xb shapeCasts_S64_S1x64) (t : Fin cfg1.N) :
    (dat1 (F := Ideal) V c).flushed 3 t = ((cfg1.win 3).blk t).view.read (Elt Ideal) (lin1 xa xw xb) := by
  show (cfg1.win 3).cut (grid1.coords t) ((dat1 (F := Ideal) V c).after 3 t) = _
  rw [after1_3]
  unfold out1_3
  rw [View.canon_unit_zero hz2]
  simp only [View.ld_unit_zero (S := S10000x64) hz2, View.ld_unit_zero (S := S64x64) hz2, View.ld_unit_zero (S := S1x64) hz2]
  obtain ⟨-, -, -, -, -, -, f0, f1⟩ := idx_facts1 t
  funext y
  have hy : y = ValueIdx.ix2 (n0 := 10000) (n1 := 64) (y 0) (y 1) := ValueIdx.eq_ix2 y
  show k1_pay1 (F := Ideal) (iblk1 V c 0 t) (iblk1 V c 1 t) (iblk1 V c 2 t) y = lin1 xa xw xb (((cfg1.win 3).blk t).view.emb y)
  rw [hy]
  refine (pay1_apply (iblk1 V c 0 t) (iblk1 V c 1 t) (iblk1 V c 2 t) (y 0) (y 1)).trans ?_
  have e0 : ((((cfg1.win 3).blk t).view.emb (ValueIdx.ix2 (n0 := 10000) (n1 := 64) (y 0) (y 1))) 0).val = t.val * 10000 + (y 0).val := by
    show win1_3.index t (0 : Fin 2) * 10000 + 1 * (y 0).val = _; omega
  have e1 : ((((cfg1.win 3).blk t).view.emb (ValueIdx.ix2 (n0 := 10000) (n1 := 64) (y 0) (y 1))) 1).val = (y 1).val := by
    show win1_3.index t (1 : Fin 2) * 64 + 1 * (y 1).val = _; omega
  refine congrArg leaky (congrArg₂ (· + ·) (Finset.sum_congr rfl fun k _ => congrArg₂ (· * ·) ?_ ?_) ?_)
  · exact blk1_0_read V c t xa ha _ _ e0 rfl
  · exact (blk1_1_read V c t xw hw _).trans (congrArg xw (congrArg (ValueIdx.ix2 k) (Fin.ext e1.symm)))
  · exact (blk1_2_read V c t xb hb (y 1)).trans (congrArg xb (congrArg ValueIdx.ix1 (Fin.ext e1.symm)))

/-- An index of the array is in point t's block iff each coordinate is in the block's range on its axis. -/
private theorem mem_blk1 (t : Fin cfg1.N) (i : S1600000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v7).slice (win1_3.rect t)).set ↔ _
  rw [View.set_slice_whole, Rect.mem_set_unit]
  exact Iff.rfl

/-- Row r of the array lies in the block of point r / 10000. -/
private theorem cover1 (i : S1600000x64.Idx) : ∃ t : Fin cfg1.N, (cfg1.win 3).flush t = true ∧ i ∈ ((cfg1.win 3).blk t).view.set := by
  have hi0 : (i 0).val < 1600000 := (i 0).isLt
  have hi1 : (i 1).val < 64 := (i 1).isLt
  have hN : grid1.N = 160 := N_1
  have ht : (i 0).val / 10000 < cfg1.N := by show (i 0).val / 10000 < grid1.N; omega
  obtain ⟨-, -, -, -, -, -, f0, f1⟩ := idx_facts1 ⟨(i 0).val / 10000, ht⟩
  refine ⟨⟨(i 0).val / 10000, ht⟩, flush1_3 _, ?_⟩
  rw [mem_blk1]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    have e : win1_3.index ⟨(i 0).val / 10000, ht⟩ (0 : Fin 2) = (i 0).val / 10000 := f0
    omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    omega

/-- The array after the region: the whole-array function, since the blocks cover it. -/
private theorem final1 (c : Dev nD) (xa : FVec Ideal S1600000x64 .f32) (xw : FVec Ideal S64x64 .f32) (xb : FVec Ideal S64 .f32)
    (ha : V c main_arg1 = xa) (hw : V c main_arg5 = xw) (hb : V c main_v6 = shapeCast S1x64 xb shapeCasts_S64_S1x64) :
    (dat1 (F := Ideal) V c).arrAt 3 cfg1.N = lin1 xa xw xb :=
  (dat1 (F := Ideal) V c).arrAt_eq_of_cover 3 (lin1 xa xw xb) (fun t _ => flushed1_eq V c xa xw xb ha hw hb t) cover1

/-- The reference's stage is the same function of the arguments, entry by entry. -/
private theorem ref1_eq (x1 : FVec Ideal S1600000x64 .f32) (x5 : FVec Ideal S64x64 .f32) (x6 : FVec Ideal S64 .f32) :
    val_main_v21 (F := Ideal) x1 x5 x6 = lin1 x1 x5 x6 := by
  funext i
  rw [Cert.ReferenceIdeal.ReadP.val_main_v21_apply, Cert.ReferenceIdeal.ReadP.val_main_v18_apply, Cert.ReferenceIdeal.ReadP.val_main_v20_apply, Cert.ReferenceIdeal.ReadP.val_main_v16_apply, Cert.ReferenceIdeal.ReadP.val_main_v17_apply, Cert.ReferenceIdeal.ReadP.val_main_v19_apply,
    Cert.ReferenceIdeal.ReadP.val_main_cst_1_apply, Cert.ReferenceIdeal.ReadP.val_main_cst_2_apply, Cert.ReferenceIdeal.ReadP.val_main_v13_apply, Cert.ReferenceIdeal.ReadP.val_main_v15_apply, Cert.ReferenceIdeal.ReadP.val_main_v14_apply]
  refine congrArg leaky (congrArg₂ (· + ·) (Finset.sum_congr rfl fun k _ => congrArg₂ (· * ·) (congrArg x1 ?_) (congrArg x5 ?_)) (congrArg x6 ?_))
  · funext a; match a with
    | ⟨0, _⟩ => rfl
    | ⟨1, _⟩ => rfl
  · funext a; match a with
    | ⟨0, _⟩ => rfl
    | ⟨1, _⟩ => rfl
  · funext a; match a with
    | ⟨0, _⟩ => rfl

/-- Region 1 (edge projection): %7 is LeakyReLU(edge_attr·W + b). -/
theorem reg1_out (c : Dev nD) (x1 : FVec Ideal S1600000x64 .f32) (x5 : FVec Ideal S64x64 .f32) (x6 : FVec Ideal S64 .f32)
    (h1 : V c main_arg1 = x1) (h5 : V c main_arg5 = x5) (h6 : V c main_v6 = shapeCast S1x64 x6 shapeCasts_S64_S1x64) :
    (dat1 (F := Ideal) V c).arrAt 3 cfg1.N = val_main_v21 (F := Ideal) x1 x5 x6 := by
  rw [ref1_eq]
  exact final1 V c x1 x5 x6 h1 h5 h6

/-! ## Region 6 -/

private theorem klhs6_0 (i : S10000x21.Idx) (q : dot_S10000x64_S64x21_S10000x21_1_0_0_1_n_n.contr.Idx) :
    (dot_S10000x64_S64x21_S10000x21_1_0_0_1_n_n.lhsIdx i q 0).val = (i 0).val := by
  unfold DotDims.lhsIdx
  rw [dif_neg (show ¬(0 : Fin S10000x64.rank) ∈ dot_S10000x64_S64x21_S10000x21_1_0_0_1_n_n.lhsBatch by decide), dif_pos (show (0 : Fin S10000x64.rank) ∈ dot_S10000x64_S64x21_S10000x21_1_0_0_1_n_n.lhsNonContracting by decide)]
  rfl
private theorem klhs6_1 (i : S10000x21.Idx) (q : dot_S10000x64_S64x21_S10000x21_1_0_0_1_n_n.contr.Idx) :
    (dot_S10000x64_S64x21_S10000x21_1_0_0_1_n_n.lhsIdx i q 1).val = (q ⟨0, by decide⟩).val :=
  dot_S10000x64_S64x21_S10000x21_1_0_0_1_n_n.lhsIdx_val_of_single rfl i q
private theorem krhs6_0 (i : S10000x21.Idx) (q : dot_S10000x64_S64x21_S10000x21_1_0_0_1_n_n.contr.Idx) :
    (dot_S10000x64_S64x21_S10000x21_1_0_0_1_n_n.rhsIdx i q 0).val = (q ⟨0, by decide⟩).val :=
  dot_S10000x64_S64x21_S10000x21_1_0_0_1_n_n.rhsIdx_val_of_single rfl i q
private theorem krhs6_1 (i : S10000x21.Idx) (q : dot_S10000x64_S64x21_S10000x21_1_0_0_1_n_n.contr.Idx) :
    (dot_S10000x64_S64x21_S10000x21_1_0_0_1_n_n.rhsIdx i q 1).val = (i 1).val := by
  unfold DotDims.rhsIdx
  rw [dif_neg (show ¬(1 : Fin S64x21.rank) ∈ dot_S10000x64_S64x21_S10000x21_1_0_0_1_n_n.rhsBatch by decide), dif_pos (show (1 : Fin S64x21.rank) ∈ dot_S10000x64_S64x21_S10000x21_1_0_0_1_n_n.rhsNonContracting by decide)]
  rfl

/-- The block product at an entry: the sum over the contracted axis. -/
private theorem mm6_apply (a : FVec Ideal S10000x64 .bf16) (w : FVec Ideal S64x21 .bf16) (p : Fin 10000) (q : Fin 21) :
    matmul dot_S10000x64_S64x21_S10000x21_1_0_0_1_n_n none a w (constant S10000x21 .f32 0x00000000#32) (ValueIdx.ix2 p q)
      = ∑ k : Fin 64, a (ValueIdx.ix2 p k) * w (ValueIdx.ix2 k q) := by
  simp only [matmul]
  rw [Ideal.matmul_constant_zero_apply, ← Equiv.sum_comp (ValueIdx.contrEquiv1 dot_S10000x64_S64x21_S10000x21_1_0_0_1_n_n 64 rfl rfl).symm]
  refine Finset.sum_congr rfl fun k _ => ?_
  have hk := ValueIdx.contrEquiv1_symm_val dot_S10000x64_S64x21_S10000x21_1_0_0_1_n_n 64 rfl rfl k
  have el : dot_S10000x64_S64x21_S10000x21_1_0_0_1_n_n.lhsIdx (ValueIdx.ix2 p q) ((ValueIdx.contrEquiv1 dot_S10000x64_S64x21_S10000x21_1_0_0_1_n_n 64 rfl rfl).symm k) = ValueIdx.ix2 p k := funext fun a => Fin.ext (by
    match a with
    | ⟨0, _⟩ => exact klhs6_0 _ _
    | ⟨1, _⟩ => exact (klhs6_1 _ _).trans hk)
  have er : dot_S10000x64_S64x21_S10000x21_1_0_0_1_n_n.rhsIdx (ValueIdx.ix2 p q) ((ValueIdx.contrEquiv1 dot_S10000x64_S64x21_S10000x21_1_0_0_1_n_n 64 rfl rfl).symm k) = ValueIdx.ix2 k q := funext fun a => Fin.ext (by
    match a with
    | ⟨0, _⟩ => exact (krhs6_0 _ _).trans hk
    | ⟨1, _⟩ => exact krhs6_1 _ _)
  rw [el, er]

/-- The body's payload at an entry of the block: x·W + b of the loaded blocks. -/
private theorem pay6_apply (a : FVec Ideal S10000x64 .f32) (w : FVec Ideal S64x21 .f32) (b : FVec Ideal S1x21 .f32) (p : Fin 10000) (q : Fin 21) :
    k6_pay1 (F := Ideal) a w b (ValueIdx.ix2 p q)
      = (∑ k : Fin 64, a (ValueIdx.ix2 p k) * w (ValueIdx.ix2 k q)) + b (ValueIdx.ix2 0 q) := by
  unfold k6_pay1
  have e : addf (matmul dot_S10000x64_S64x21_S10000x21_1_0_0_1_n_n none (truncf .bf16 (shapeCast S10000x64 a shapeCasts_S10000x64_S10000x64) bitsLt_bf16_f32) (truncf .bf16 w bitsLt_bf16_f32) (constant S10000x21 .f32 0x00000000#32))
      (broadcastTo S10000x21 (shapeCast S1x21 b shapeCasts_S1x21_S1x21) broadcasts_S1x21_S10000x21) (ValueIdx.ix2 p q)
      = (∑ k : Fin 64, a (ValueIdx.ix2 p k) * w (ValueIdx.ix2 k q)) + b (ValueIdx.ix2 0 q) := by
    rw [ValueIdx.addf_apply, shapeCast_self, shapeCast_self, mm6_apply]
    refine congrArg₂ (· + ·) rfl ?_
    exact broadcastTo_apply b broadcasts_S1x21_S10000x21 (ValueIdx.ix2 p q) (ValueIdx.ix2 0 q) (fun a => match a with
      | ⟨0, _⟩ => by show 0 = if (1 : Nat) = 1 then 0 else _; rw [if_pos rfl]
      | ⟨1, _⟩ => by show q.val = if (21 : Nat) = 1 then 0 else _; rw [if_neg (by decide)]; rfl)
  show addf (matmul dot_S10000x64_S64x21_S10000x21_1_0_0_1_n_n none (truncf .bf16 (shapeCast S10000x64 a shapeCasts_S10000x64_S10000x64) bitsLt_bf16_f32) (truncf .bf16 w bitsLt_bf16_f32) (constant S10000x21 .f32 0x00000000#32))
      (broadcastTo S10000x21 (shapeCast S1x21 b shapeCasts_S1x21_S1x21) broadcasts_S1x21_S10000x21) (ValueIdx.ix2 p q) = _
  rw [e]

/-- x·W + b, entry by entry of the whole array. -/
private abbrev lin6 (xa : FVec Ideal S100000x64 .f32) (xw : FVec Ideal S64x21 .f32) (xb : FVec Ideal S21 .f32) : S100000x21.Idx → EReal := fun i =>
  (∑ k : Fin 64, xa (ValueIdx.ix2 (n0 := 100000) ⟨(i 0).val, (i 0).isLt⟩ k) * xw (ValueIdx.ix2 k (n1 := 21) ⟨(i 1).val, (i 1).isLt⟩))
    + xb (ValueIdx.ix1 (n := 21) ⟨(i 1).val, (i 1).isLt⟩)

/-- The index maps over the grid: the row block moves with the point, every other block index is 0. -/
private theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The row block of the left operand at point t: rows t·10000 … t·10000 + 9999. -/
private theorem blk6_0_read (c : Dev nD) (t : Fin cfg6.N) (xa : FVec Ideal S100000x64 .f32) (ha : V c main_v33 = xa)
    (y : S10000x64.Idx) (i : S100000x64.Idx) (e0 : (i 0).val = t.val * 10000 + (y 0).val) (e1 : (i 1).val = (y 1).val) :
    iblk6 V c 0 t y = xa i := by
  show V c main_v33 (((cfg6.win 0).blk t).view.emb y) = xa i
  rw [ha]
  obtain ⟨f0, f1, -⟩ := idx_facts6 t
  refine congrArg xa (funext fun a => Fin.ext ?_)
  match a with
  | ⟨0, _⟩ => show win6_0.index t (0 : Fin 2) * 10000 + 1 * (y 0).val = (i 0).val; omega
  | ⟨1, _⟩ => show win6_0.index t (1 : Fin 2) * 64 + 1 * (y 1).val = (i 1).val; omega

/-- The weight block is the whole weight. -/
private theorem blk6_1_read (c : Dev nD) (t : Fin cfg6.N) (xw : FVec Ideal S64x21 .f32) (hw : V c main_arg15 = xw)
    (y : S64x21.Idx) : iblk6 V c 1 t y = xw y := by
  show V c main_arg15 (((cfg6.win 1).blk t).view.emb y) = xw y
  rw [hw]
  obtain ⟨-, -, f0, f1, -⟩ := idx_facts6 t
  refine congrArg xw (funext fun a => Fin.ext ?_)
  match a with
  | ⟨0, _⟩ => show win6_1.index t (0 : Fin 2) * 64 + 1 * (y 0).val = (y 0).val; omega
  | ⟨1, _⟩ => show win6_1.index t (1 : Fin 2) * 21 + 1 * (y 1).val = (y 1).val; omega

/-- The bias block is the bias as one row. -/
private theorem blk6_2_read (c : Dev nD) (t : Fin cfg6.N) (xb : FVec Ideal S21 .f32) (hb : V c main_v34 = shapeCast S1x21 xb shapeCasts_S21_S1x21)
    (q : Fin 21) : iblk6 V c 2 t (ValueIdx.ix2 (0 : Fin 1) q) = xb (ValueIdx.ix1 q) := by
  show V c main_v34 (((cfg6.win 2).blk t).view.emb (ValueIdx.ix2 (0 : Fin 1) q)) = xb (ValueIdx.ix1 q)
  rw [hb]
  obtain ⟨-, -, -, -, f0, f1, -⟩ := idx_facts6 t
  refine (congrArg (shapeCast S1x21 xb shapeCasts_S21_S1x21) (funext fun a => Fin.ext ?_)).trans (ValueIdx.shapeCast_a_1a_apply xb shapeCasts_S21_S1x21 (0 : Fin 1) q)
  match a with
  | ⟨0, _⟩ => show win6_2.index t (0 : Fin 2) * 1 + 1 * 0 = 0; omega
  | ⟨1, _⟩ => show win6_2.index t (1 : Fin 2) * 21 + 1 * q.val = q.val; omega

/-- What point t writes back is block t of the whole-array function. -/
private theorem flushed6_eq (c : Dev nD) (xa : FVec Ideal S100000x64 .f32) (xw : FVec Ideal S64x21 .f32) (xb : FVec Ideal S21 .f32)
    (ha : V c main_v33 = xa) (hw : V c main_arg15 = xw) (hb : V c main_v34 = shapeCast S1x21 xb shapeCasts_S21_S1x21) (t : Fin cfg6.N) :
    (dat6 (F := Ideal) V c).flushed 3 t = ((cfg6.win 3).blk t).view.read (Elt Ideal) (lin6 xa xw xb) := by
  show (cfg6.win 3).cut (grid6.coords t) ((dat6 (F := Ideal) V c).after 3 t) = _
  rw [after6_3]
  unfold out6_3
  rw [View.canon_unit_zero hz2]
  simp only [View.ld_unit_zero (S := S10000x64) hz2, View.ld_unit_zero (S := S64x21) hz2, View.ld_unit_zero (S := S1x21) hz2]
  obtain ⟨-, -, -, -, -, -, f0, f1⟩ := idx_facts6 t
  funext y
  have hy : y = ValueIdx.ix2 (n0 := 10000) (n1 := 21) (y 0) (y 1) := ValueIdx.eq_ix2 y
  show k6_pay1 (F := Ideal) (iblk6 V c 0 t) (iblk6 V c 1 t) (iblk6 V c 2 t) y = lin6 xa xw xb (((cfg6.win 3).blk t).view.emb y)
  rw [hy]
  refine (pay6_apply (iblk6 V c 0 t) (iblk6 V c 1 t) (iblk6 V c 2 t) (y 0) (y 1)).trans ?_
  have e0 : ((((cfg6.win 3).blk t).view.emb (ValueIdx.ix2 (n0 := 10000) (n1 := 21) (y 0) (y 1))) 0).val = t.val * 10000 + (y 0).val := by
    show win6_3.index t (0 : Fin 2) * 10000 + 1 * (y 0).val = _; omega
  have e1 : ((((cfg6.win 3).blk t).view.emb (ValueIdx.ix2 (n0 := 10000) (n1 := 21) (y 0) (y 1))) 1).val = (y 1).val := by
    show win6_3.index t (1 : Fin 2) * 21 + 1 * (y 1).val = _; omega
  refine congrArg₂ (· + ·) (Finset.sum_congr rfl fun k _ => congrArg₂ (· * ·) ?_ ?_) ?_
  · exact blk6_0_read V c t xa ha _ _ e0 rfl
  · exact (blk6_1_read V c t xw hw _).trans (congrArg xw (congrArg (ValueIdx.ix2 k) (Fin.ext e1.symm)))
  · exact (blk6_2_read V c t xb hb (y 1)).trans (congrArg xb (congrArg ValueIdx.ix1 (Fin.ext e1.symm)))

/-- An index of the array is in point t's block iff each coordinate is in the block's range on its axis. -/
private theorem mem_blk6 (t : Fin cfg6.N) (i : S100000x21.Idx) :
    i ∈ ((cfg6.win 3).blk t).view.set ↔ ∀ a : Fin 2, win6_3.index t a * S10000x21.size a ≤ (i a).val ∧ (i a).val < win6_3.index t a * S10000x21.size a + S10000x21.size a := by
  show i ∈ ((View.whole main_v35).slice (win6_3.rect t)).set ↔ _
  rw [View.set_slice_whole, Rect.mem_set_unit]
  exact Iff.rfl

/-- Row r of the array lies in the block of point r / 10000. -/
private theorem cover6 (i : S100000x21.Idx) : ∃ t : Fin cfg6.N, (cfg6.win 3).flush t = true ∧ i ∈ ((cfg6.win 3).blk t).view.set := by
  have hi0 : (i 0).val < 100000 := (i 0).isLt
  have hi1 : (i 1).val < 21 := (i 1).isLt
  have hN : grid6.N = 10 := N_6
  have ht : (i 0).val / 10000 < cfg6.N := by show (i 0).val / 10000 < grid6.N; omega
  obtain ⟨-, -, -, -, -, -, f0, f1⟩ := idx_facts6 ⟨(i 0).val / 10000, ht⟩
  refine ⟨⟨(i 0).val / 10000, ht⟩, flush6_3 _, ?_⟩
  rw [mem_blk6]
  intro a
  match a with
  | ⟨0, _⟩ =>
    show win6_3.index ⟨(i 0).val / 10000, ht⟩ (0 : Fin 2) * 10000 ≤ (i 0).val ∧ (i 0).val < win6_3.index ⟨(i 0).val / 10000, ht⟩ (0 : Fin 2) * 10000 + 10000
    have e : win6_3.index ⟨(i 0).val / 10000, ht⟩ (0 : Fin 2) = (i 0).val / 10000 := f0
    omega
  | ⟨1, _⟩ =>
    show win6_3.index ⟨(i 0).val / 10000, ht⟩ (1 : Fin 2) * 21 ≤ (i 1).val ∧ (i 1).val < win6_3.index ⟨(i 0).val / 10000, ht⟩ (1 : Fin 2) * 21 + 21
    omega

/-- The array after the region: the whole-array function, since the blocks cover it. -/
private theorem final6 (c : Dev nD) (xa : FVec Ideal S100000x64 .f32) (xw : FVec Ideal S64x21 .f32) (xb : FVec Ideal S21 .f32)
    (ha : V c main_v33 = xa) (hw : V c main_arg15 = xw) (hb : V c main_v34 = shapeCast S1x21 xb shapeCasts_S21_S1x21) :
    (dat6 (F := Ideal) V c).arrAt 3 cfg6.N = lin6 xa xw xb :=
  (dat6 (F := Ideal) V c).arrAt_eq_of_cover 3 (lin6 xa xw xb) (fun t _ => flushed6_eq V c xa xw xb ha hw hb t) cover6

/-- The reference's stage is the same function of the layer's output and the arguments, entry by entry. -/
private theorem ref6_eq (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32) (x11 : FVec Ideal S64x64 .f32) (x12 : FVec Ideal S64 .f32) (x13 : FVec Ideal S64x64 .f32) (x14 : FVec Ideal S64 .f32) (x15 : FVec Ideal S64x21 .f32) (x16 : FVec Ideal S21 .f32) :
    val_main_v87 (F := Ideal) x0 x1 x2 x3 x4 x5 x6 x7 x8 x9 x10 x11 x12 x13 x14 x15 x16 = lin6 (val_main_v83 (F := Ideal) x0 x1 x2 x3 x4 x5 x6 x7 x8 x9 x10 x11 x12 x13 x14) x15 x16 := by
  funext i
  rw [Cert.ReferenceIdeal.ReadP.val_main_v87_apply, Cert.ReferenceIdeal.ReadP.val_main_v84_apply, Cert.ReferenceIdeal.ReadP.val_main_v86_apply, Cert.ReferenceIdeal.ReadP.val_main_v85_apply]
  refine congrArg₂ (· + ·) (Finset.sum_congr rfl fun k _ => congrArg₂ (· * ·) (congrArg (val_main_v83 (F := Ideal) x0 x1 x2 x3 x4 x5 x6 x7 x8 x9 x10 x11 x12 x13 x14) ?_) (congrArg x15 ?_)) (congrArg x16 ?_)
  · funext a; match a with
    | ⟨0, _⟩ => rfl
    | ⟨1, _⟩ => rfl
  · funext a; match a with
    | ⟨0, _⟩ => rfl
    | ⟨1, _⟩ => rfl
  · funext a; match a with
    | ⟨0, _⟩ => rfl

/-- Region 6 (output projection): %35 is h·W + b. -/
theorem reg6_out (c : Dev nD) (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32) (x11 : FVec Ideal S64x64 .f32) (x12 : FVec Ideal S64 .f32) (x13 : FVec Ideal S64x64 .f32) (x14 : FVec Ideal S64 .f32) (x15 : FVec Ideal S64x21 .f32) (x16 : FVec Ideal S21 .f32)
    (h33 : V c main_v33 = val_main_v83 (F := Ideal) x0 x1 x2 x3 x4 x5 x6 x7 x8 x9 x10 x11 x12 x13 x14) (h15 : V c main_arg15 = x15)
    (h34 : V c main_v34 = shapeCast S1x21 x16 shapeCasts_S21_S1x21) :
    (dat6 (F := Ideal) V c).arrAt 3 cfg6.N = val_main_v87 (F := Ideal) x0 x1 x2 x3 x4 x5 x6 x7 x8 x9 x10 x11 x12 x13 x14 x15 x16 := by
  rw [ref6_eq]
  exact final6 V c (val_main_v83 (F := Ideal) x0 x1 x2 x3 x4 x5 x6 x7 x8 x9 x10 x11 x12 x13 x14) x15 x16 h33 h15 h34

end Cert.KernelIdeal.Bridge

end
-- ==== Proof.RegMsg.lean ====
import proofs.«420455_j26972394618971_2_alg».proof.Proof.Gen.KernelIdeal.Frame
import proofs.«420455_j26972394618971_2_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Idealize.ShloMosaic Idealize.ShloMosaic.TcCoe Idealize.SL.Sem
open Cert.KernelIdeal Cert.KernelIdeal.Gen
open Cert.ReferenceIdeal.ReadP (val_main_v1 val_main_v3 val_main_v12 val_main_v21 val_main_v26 val_main_v27 val_main_v28 val_main_v30 val_main_v33 val_main_v47 val_main_v52 val_main_v57 val_main_v58 val_main_v59 val_main_v61 val_main_v64 val_main_v78 val_main_v83 val_main_v87)

-- The TensorCore's buffers as a region finds them.
variable (V : (c : Dev nD) → (b : Ref sig .tc) → Buf (Elt Ideal) ((c : Thread nD τ).loc b))

/-! ## What both message regions compute

Each of the 160 grid points takes the 10000 × 64 block of rows `10000·t … 10000·t + 9999` of two edge arrays `a`, `b`
and leaves `max (a + b) 0` in the same block of the output. The blocks tile the 1600000 × 64 array, so the output
array ends as `max (a + b) 0` entry by entry. -/

/-- The block offsets, all zero, as the constant function. -/
private theorem off_zero : (![0, 0] : Fin 2 → Nat) = fun _ => 0 := funext fun a => by fin_cases a <;> rfl

/-- relu of a sum, entry by entry, over the whole edge array. -/
private def reluAdd (a b : S1600000x64.Idx → Elt Ideal .f32) : S1600000x64.Idx → Elt Ideal .f32 :=
  fun i => FloatOps.maximumf (F := Ideal) (φ := .f32) (FloatOps.addf (F := Ideal) (φ := .f32) (a i) (b i)) (FloatOps.ofBits (F := Ideal) .f32 0x00000000#32)

/-! ## Region 2 -/

/-- The body's payload at an entry: relu of the sum of its two loaded blocks there (a shape cast to the same shape
    reads where it is read, a broadcast scalar reads as the scalar). -/
private theorem pay2_apply (u v : Vec Ideal S10000x64 .f32) (y : S10000x64.Idx) :
    k2_pay1 u v y = FloatOps.maximumf (F := Ideal) (φ := .f32) (FloatOps.addf (F := Ideal) (φ := .f32) (u y) (v y)) (FloatOps.ofBits (F := Ideal) .f32 0x00000000#32) := by
  unfold k2_pay1
  rw [shapeCast_self, shapeCast_self]
  rfl

/-- The index maps over the grid: the two inputs' blocks sit where the output's does, and the output's block at
    point `t` is row block `t`, column block 0. -/
private theorem idx_facts2 : ∀ t : Fin cfg2.N,
    win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- What point `t` writes back is block `t` of relu of the sum of the two input arrays as the region finds them. -/
private theorem flushed2_eq (c : Dev nD) (t : Fin cfg2.N) :
    (dat2 (F := Ideal) V c).flushed 2 t = ((cfg2.win 2).blk t).view.read (Elt Ideal) (reluAdd (V c main_v8) (V c main_v7)) := by
  show (cfg2.win 2).cut (grid2.coords t) ((dat2 (F := Ideal) V c).after 2 t) = _
  rw [after2_2]
  unfold out2_2
  rw [View.canon_unit_zero off_zero]
  simp only [View.ld_unit_zero (S := S10000x64) off_zero]
  obtain ⟨e0, e1, e2, e3, e4, e5⟩ := idx_facts2 t
  funext y
  refine (pay2_apply (iblk2 V c 0 t) (iblk2 V c 1 t) y).trans ?_
  show FloatOps.maximumf (F := Ideal) (φ := .f32) (FloatOps.addf (F := Ideal) (φ := .f32) (V c main_v8 (((cfg2.win 0).blk t).view.emb y)) (V c main_v7 (((cfg2.win 1).blk t).view.emb y))) _
     = FloatOps.maximumf (F := Ideal) (φ := .f32) (FloatOps.addf (F := Ideal) (φ := .f32) (V c main_v8 (((cfg2.win 2).blk t).view.emb y)) (V c main_v7 (((cfg2.win 2).blk t).view.emb y))) _
  have h0 : ((cfg2.win 0).blk t).view.emb y = ((cfg2.win 2).blk t).view.emb y := by
    funext a; apply Fin.ext
    match a with
    | ⟨0, _⟩ => show win2_0.index t (0 : Fin 2) * 10000 + 1 * (y 0).val = win2_2.index t (0 : Fin 2) * 10000 + 1 * (y 0).val; omega
    | ⟨1, _⟩ => show win2_0.index t (1 : Fin 2) * 64 + 1 * (y 1).val = win2_2.index t (1 : Fin 2) * 64 + 1 * (y 1).val; omega
  have h1 : ((cfg2.win 1).blk t).view.emb y = ((cfg2.win 2).blk t).view.emb y := by
    funext a; apply Fin.ext
    match a with
    | ⟨0, _⟩ => show win2_1.index t (0 : Fin 2) * 10000 + 1 * (y 0).val = win2_2.index t (0 : Fin 2) * 10000 + 1 * (y 0).val; omega
    | ⟨1, _⟩ => show win2_1.index t (1 : Fin 2) * 64 + 1 * (y 1).val = win2_2.index t (1 : Fin 2) * 64 + 1 * (y 1).val; omega
  rw [h0, h1]

/-- An entry of the edge array is in point `t`'s output block iff each coordinate is in the block's range on its axis. -/
private theorem mem_blk2 (t : Fin cfg2.N) (i : S1600000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v9).slice (win2_2.rect t)).set ↔ _
  rw [View.set_slice_whole, Rect.mem_set_unit]
  exact Iff.rfl

/-- Every entry lies in the output block of the point its row's quotient by 10000 names. -/
private theorem cover2 (i : S1600000x64.Idx) :
    ∃ t : Fin cfg2.N, (cfg2.win 2).flush t = true ∧ i ∈ ((cfg2.win 2).blk t).view.set := by
  have hi0 : (i 0).val < 1600000 := (i 0).isLt
  have hi1 : (i 1).val < 64 := (i 1).isLt
  have hN : cfg2.N = 160 := N_2
  let t : Fin cfg2.N := ⟨(i 0).val / 10000, by rw [hN]; omega⟩
  obtain ⟨e0, e1, e2, e3, e4, e5⟩ := idx_facts2 t
  have e4' : win2_2.index t (0 : Fin 2) = (i 0).val / 10000 := e4
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The region leaves relu of the sum of its two input arrays in its output array. -/
private theorem arr2 (c : Dev nD) : (dat2 (F := Ideal) V c).arrAt 2 cfg2.N = reluAdd (V c main_v8) (V c main_v7) :=
  (dat2 (F := Ideal) V c).arrAt_eq_of_cover 2 (reluAdd (V c main_v8) (V c main_v7)) (fun t _ => flushed2_eq V c t) cover2

/-- Region 2 (first message): %9 is relu(h[src] + e). -/
theorem reg2_out (c : Dev nD) (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32)
    (h8 : V c main_v8 = val_main_v28 (F := Ideal) x0 x2 x3 x4) (h7 : V c main_v7 = val_main_v21 (F := Ideal) x1 x5 x6) :
    (dat2 (F := Ideal) V c).arrAt 2 cfg2.N = val_main_v30 (F := Ideal) x0 x1 x2 x3 x4 x5 x6 := by
  rw [arr2, h8, h7]
  funext i
  -- the reference's relu: the maximum of the sum with the scalar 0 broadcast to every entry
  rw [Cert.ReferenceIdeal.ReadP.val_main_v30_apply, Cert.ReferenceIdeal.ReadP.val_main_v29_apply,
    Cert.ReferenceIdeal.ReadP.val_main_call2_v0_apply, Cert.ReferenceIdeal.ReadP.val_main_call2_cst_apply]
  rfl

/-! ## Region 4 -/

/-- The body's payload at an entry: relu of the sum of its two loaded blocks there (a shape cast to the same shape
    reads where it is read, a broadcast scalar reads as the scalar). -/
private theorem pay4_apply (u v : Vec Ideal S10000x64 .f32) (y : S10000x64.Idx) :
    k4_pay1 u v y = FloatOps.maximumf (F := Ideal) (φ := .f32) (FloatOps.addf (F := Ideal) (φ := .f32) (u y) (v y)) (FloatOps.ofBits (F := Ideal) .f32 0x00000000#32) := by
  unfold k4_pay1
  rw [shapeCast_self, shapeCast_self]
  rfl

/-- The index maps over the grid: the two inputs' blocks sit where the output's does, and the output's block at
    point `t` is row block `t`, column block 0. -/
private theorem idx_facts4 : ∀ t : Fin cfg4.N,
    win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) = t.val ∧ win4_2.index t (1 : Fin 2) = 0 :=
  (by decide +kernel : ∀ t : Fin grid4.N, _)

/-- What point `t` writes back is block `t` of relu of the sum of the two input arrays as the region finds them. -/
private theorem flushed4_eq (c : Dev nD) (t : Fin cfg4.N) :
    (dat4 (F := Ideal) V c).flushed 2 t = ((cfg4.win 2).blk t).view.read (Elt Ideal) (reluAdd (V c main_v21) (V c main_v7)) := by
  show (cfg4.win 2).cut (grid4.coords t) ((dat4 (F := Ideal) V c).after 2 t) = _
  rw [after4_2]
  unfold out4_2
  rw [View.canon_unit_zero off_zero]
  simp only [View.ld_unit_zero (S := S10000x64) off_zero]
  obtain ⟨e0, e1, e2, e3, e4, e5⟩ := idx_facts4 t
  funext y
  refine (pay4_apply (iblk4 V c 0 t) (iblk4 V c 1 t) y).trans ?_
  show FloatOps.maximumf (F := Ideal) (φ := .f32) (FloatOps.addf (F := Ideal) (φ := .f32) (V c main_v21 (((cfg4.win 0).blk t).view.emb y)) (V c main_v7 (((cfg4.win 1).blk t).view.emb y))) _
     = FloatOps.maximumf (F := Ideal) (φ := .f32) (FloatOps.addf (F := Ideal) (φ := .f32) (V c main_v21 (((cfg4.win 2).blk t).view.emb y)) (V c main_v7 (((cfg4.win 2).blk t).view.emb y))) _
  have h0 : ((cfg4.win 0).blk t).view.emb y = ((cfg4.win 2).blk t).view.emb y := by
    funext a; apply Fin.ext
    match a with
    | ⟨0, _⟩ => show win4_0.index t (0 : Fin 2) * 10000 + 1 * (y 0).val = win4_2.index t (0 : Fin 2) * 10000 + 1 * (y 0).val; omega
    | ⟨1, _⟩ => show win4_0.index t (1 : Fin 2) * 64 + 1 * (y 1).val = win4_2.index t (1 : Fin 2) * 64 + 1 * (y 1).val; omega
  have h1 : ((cfg4.win 1).blk t).view.emb y = ((cfg4.win 2).blk t).view.emb y := by
    funext a; apply Fin.ext
    match a with
    | ⟨0, _⟩ => show win4_1.index t (0 : Fin 2) * 10000 + 1 * (y 0).val = win4_2.index t (0 : Fin 2) * 10000 + 1 * (y 0).val; omega
    | ⟨1, _⟩ => show win4_1.index t (1 : Fin 2) * 64 + 1 * (y 1).val = win4_2.index t (1 : Fin 2) * 64 + 1 * (y 1).val; omega
  rw [h0, h1]

/-- An entry of the edge array is in point `t`'s output block iff each coordinate is in the block's range on its axis. -/
private theorem mem_blk4 (t : Fin cfg4.N) (i : S1600000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v22).slice (win4_2.rect t)).set ↔ _
  rw [View.set_slice_whole, Rect.mem_set_unit]
  exact Iff.rfl

/-- Every entry lies in the output block of the point its row's quotient by 10000 names. -/
private theorem cover4 (i : S1600000x64.Idx) :
    ∃ t : Fin cfg4.N, (cfg4.win 2).flush t = true ∧ i ∈ ((cfg4.win 2).blk t).view.set := by
  have hi0 : (i 0).val < 1600000 := (i 0).isLt
  have hi1 : (i 1).val < 64 := (i 1).isLt
  have hN : cfg4.N = 160 := N_4
  let t : Fin cfg4.N := ⟨(i 0).val / 10000, by rw [hN]; omega⟩
  obtain ⟨e0, e1, e2, e3, e4, e5⟩ := idx_facts4 t
  have e4' : win4_2.index t (0 : Fin 2) = (i 0).val / 10000 := e4
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The region leaves relu of the sum of its two input arrays in its output array. -/
private theorem arr4 (c : Dev nD) : (dat4 (F := Ideal) V c).arrAt 2 cfg4.N = reluAdd (V c main_v21) (V c main_v7) :=
  (dat4 (F := Ideal) V c).arrAt_eq_of_cover 2 (reluAdd (V c main_v21) (V c main_v7)) (fun t _ => flushed4_eq V c t) cover4

/-- Region 4 (second message): %22 is relu(h'[src] + e). -/
theorem reg4_out (c : Dev nD) (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32)
    (h21 : V c main_v21 = val_main_v59 (F := Ideal) x0 x1 x2 x3 x4 x5 x6 x7 x8 x9 x10) (h7 : V c main_v7 = val_main_v21 (F := Ideal) x1 x5 x6) :
    (dat4 (F := Ideal) V c).arrAt 2 cfg4.N = val_main_v61 (F := Ideal) x0 x1 x2 x3 x4 x5 x6 x7 x8 x9 x10 := by
  rw [arr4, h21, h7]
  funext i
  -- the reference's relu: the maximum of the sum with the scalar 0 broadcast to every entry
  rw [Cert.ReferenceIdeal.ReadP.val_main_v61_apply, Cert.ReferenceIdeal.ReadP.val_main_v60_apply,
    Cert.ReferenceIdeal.ReadP.val_main_call5_v0_apply, Cert.ReferenceIdeal.ReadP.val_main_call5_cst_apply]
  rfl

end Cert.KernelIdeal.Bridge

end
-- ==== Proof.RegMlp.lean ====
import proofs.«420455_j26972394618971_2_alg».proof.Proof.Gen.KernelIdeal.Frame
import proofs.«420455_j26972394618971_2_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Idealize.ShloMosaic Idealize.ShloMosaic.TcCoe Idealize.SL.Sem
open Cert.KernelIdeal Cert.KernelIdeal.Gen
open Cert.ReferenceIdeal.ReadP (val_main_v1 val_main_v3 val_main_v12 val_main_v21 val_main_v26 val_main_v27 val_main_v28 val_main_v30 val_main_v33 val_main_v47 val_main_v52 val_main_v57 val_main_v58 val_main_v59 val_main_v61 val_main_v64 val_main_v78 val_main_v83 val_main_v87)

section MlpValue
open Idealize.ShloMosaic.ValueIdx

/-- LeakyReLU of slope 0.2 as both programs compute it: z where z > 0, else 0.2·z. -/
private def leaky (z : Ideal .f32) : Ideal .f32 :=
  Scalar.select (FloatOps.cmpf .ogt z (FloatOps.ofBits .f32 0x00000000#32)) z (FloatOps.mulf (FloatOps.ofBits .f32 0x3E4CCCCD#32) z)

/-- The GINE MLP at row r, column q of two node arrays A, B: LeakyReLU((A + B)·W1 + b1)·W2 + b2, the products as sums
    over the 64 inner positions. -/
private def mlpAt (A B : (⟨S100000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) (r : Fin 100000) (q : Fin 64) : Ideal .f32 :=
  (∑ k : Fin 64, leaky ((∑ j : Fin 64, (A (ix2 r j) + B (ix2 r j)) * W1 (ix2 j k)) + b1 (ix1 k)) * W2 (ix2 k q)) + b2 (ix1 q)

/-- The whole [100000, 64] array of it. -/
private def mlpArr (A B : (⟨S100000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) : (⟨S100000x64, .f32⟩ : BufTy).Contents (Elt Ideal) :=
  fun i => mlpAt A B W1 b1 W2 b2 (i 0) (i 1)

/-! ## The body's two block products and its stored value at an index -/

private theorem mm_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
private theorem mm_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
private theorem mm_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
private theorem mm_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block's matrix product into the zero accumulator, at row p and column q: the sum over the 64 inner positions. -/
private theorem mm_apply {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul dot_S10000x64_S64x64_S10000x64_1_0_0_1_n_n none l r (constant S10000x64 .f32 0x00000000#32) (ix2 p q) = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact mm_lhs_0 _ _
    | ⟨1, _⟩ => exact (mm_lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (mm_rhs_0 _ _).trans hk
    | ⟨1, _⟩ => exact mm_rhs_1 _ _)
  rw [el, er]

/-- The body's stored value at row p, column q of the block, from its six loaded blocks: h, agg, W1, b1, W2, b2. -/
private theorem pay3_apply (v0 v2 : Vec Ideal S10000x64 .f32) (v6 : Vec Ideal S64x64 .f32) (v9 : Vec Ideal S1x64 .f32) (v19 : Vec Ideal S64x64 .f32) (v22 : Vec Ideal S1x64 .f32) (p : Fin 10000) (q : Fin 64) :
    k3_pay1 v0 v2 v6 v9 v19 v22 (ix2 p q)
      = (∑ k : Fin 64, leaky ((∑ j : Fin 64, (v0 (ix2 p j) + v2 (ix2 p j)) * v6 (ix2 j k)) + v9 (ix2 (0 : Fin 1) k)) * v19 (ix2 k q)) + v22 (ix2 (0 : Fin 1) q) := by
  unfold k3_pay1
  simp only [shapeCast_self]
  rw [addf_apply, mm_apply, broadcastTo_1b_ab_apply]
  congr 1
  refine Finset.sum_congr rfl fun k _ => ?_
  rw [truncf_apply, truncf_apply, select_apply, cmpf_apply, addf_apply, mm_apply, broadcastTo_1b_ab_apply]
  rw [mulf_apply, addf_apply, mm_apply, broadcastTo_1b_ab_apply]
  rfl

/-- The same at any index y of the block. -/
private theorem pay3_at (v0 v2 : Vec Ideal S10000x64 .f32) (v6 : Vec Ideal S64x64 .f32) (v9 : Vec Ideal S1x64 .f32) (v19 : Vec Ideal S64x64 .f32) (v22 : Vec Ideal S1x64 .f32) (y : S10000x64.Idx) :
    k3_pay1 v0 v2 v6 v9 v19 v22 y
      = (∑ k : Fin 64, leaky ((∑ j : Fin 64, (v0 (ix2 (y 0) j) + v2 (ix2 (y 0) j)) * v6 (ix2 j k)) + v9 (ix2 (0 : Fin 1) k)) * v19 (ix2 k (y 1))) + v22 (ix2 (0 : Fin 1) (y 1)) := by
  obtain ⟨p, q, rfl⟩ : ∃ (p : Fin 10000) (q : Fin 64), y = ix2 p q := ⟨y 0, y 1, eq_ix2 y⟩
  exact pay3_apply v0 v2 v6 v9 v19 v22 p q

/-- The second MLP region's body is the first's, operation for operation. -/
private theorem pay5_eq (v0 v2 : Vec Ideal S10000x64 .f32) (v6 : Vec Ideal S64x64 .f32) (v9 : Vec Ideal S1x64 .f32) (v19 : Vec Ideal S64x64 .f32) (v22 : Vec Ideal S1x64 .f32) :
    k5_pay1 v0 v2 v6 v9 v19 v22 = k3_pay1 v0 v2 v6 v9 v19 v22 := rfl

private theorem hz2 : (![0, 0] : Fin 2 → Nat) = fun _ => 0 := funext fun a => by
  match a with
  | ⟨0, _⟩ => rfl
  | ⟨1, _⟩ => rfl

/-- Region 3's index maps over its ten points: the two node windows and the output move one block of 10000 rows per
    point, the weights and biases stay. -/
private theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- An index of the output array is in point t's block iff each coordinate is in the block's range on its axis. -/
private theorem mem_blk3 (t : Fin cfg3.N) (i : S100000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole main_v15).slice (win3_6.rect t)).set ↔ _
  rw [View.set_slice_whole, Rect.mem_set_unit]
  exact Iff.rfl

/-- Row r of the output array is in the block of point r / 10000, and every point writes back. -/
private theorem cover3 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : (i 0).val / 10000 < cfg3.N := by rw [show cfg3.N = 10 from N_3]; omega
  obtain ⟨-, -, -, -, -, -, -, -, -, -, -, -, i60, i61⟩ := idx3 ⟨(i 0).val / 10000, hN⟩
  have i60' : win3_6.index ⟨(i 0).val / 10000, hN⟩ (0 : Fin 2) = (i 0).val / 10000 := i60
  refine ⟨⟨(i 0).val / 10000, hN⟩, flush3_6 _, ?_⟩
  rw [mem_blk3]
  intro a
  match a with
  | ⟨0, _⟩ =>
    show win3_6.index ⟨(i 0).val / 10000, hN⟩ (0 : Fin 2) * 10000 ≤ (i 0).val ∧ (i 0).val < win3_6.index ⟨(i 0).val / 10000, hN⟩ (0 : Fin 2) * 10000 + 10000
    rw [i60']; omega
  | ⟨1, _⟩ =>
    show win3_6.index ⟨(i 0).val / 10000, hN⟩ (1 : Fin 2) * 64 ≤ (i 1).val ∧ (i 1).val < win3_6.index ⟨(i 0).val / 10000, hN⟩ (1 : Fin 2) * 64 + 64
    rw [i61]; omega

/-- Region 5's index maps over its ten points: the two node windows and the output move one block of 10000 rows per
    point, the weights and biases stay. -/
private theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- An index of the output array is in point t's block iff each coordinate is in the block's range on its axis. -/
private theorem mem_blk5 (t : Fin cfg5.N) (i : S100000x64.Idx) :
    i ∈ ((cfg5.win 6).blk t).view.set ↔ ∀ a : Fin 2, win5_6.index t a * S10000x64.size a ≤ (i a).val ∧ (i a).val < win5_6.index t a * S10000x64.size a + S10000x64.size a := by
  show i ∈ ((View.whole main_v28).slice (win5_6.rect t)).set ↔ _
  rw [View.set_slice_whole, Rect.mem_set_unit]
  exact Iff.rfl

/-- Row r of the output array is in the block of point r / 10000, and every point writes back. -/
private theorem cover5 (i : S100000x64.Idx) : ∃ t : Fin cfg5.N, (cfg5.win 6).flush t = true ∧ i ∈ ((cfg5.win 6).blk t).view.set := by
  have hi0 : (i 0).val < 100000 := (i 0).isLt
  have hi1 : (i 1).val < 64 := (i 1).isLt
  have hN : (i 0).val / 10000 < cfg5.N := by rw [show cfg5.N = 10 from N_5]; omega
  obtain ⟨-, -, -, -, -, -, -, -, -, -, -, -, i60, i61⟩ := idx5 ⟨(i 0).val / 10000, hN⟩
  have i60' : win5_6.index ⟨(i 0).val / 10000, hN⟩ (0 : Fin 2) = (i 0).val / 10000 := i60
  refine ⟨⟨(i 0).val / 10000, hN⟩, flush5_6 _, ?_⟩
  rw [mem_blk5]
  intro a
  match a with
  | ⟨0, _⟩ =>
    show win5_6.index ⟨(i 0).val / 10000, hN⟩ (0 : Fin 2) * 10000 ≤ (i 0).val ∧ (i 0).val < win5_6.index ⟨(i 0).val / 10000, hN⟩ (0 : Fin 2) * 10000 + 10000
    rw [i60']; omega
  | ⟨1, _⟩ =>
    show win5_6.index ⟨(i 0).val / 10000, hN⟩ (1 : Fin 2) * 64 ≤ (i 1).val ∧ (i 1).val < win5_6.index ⟨(i 0).val / 10000, hN⟩ (1 : Fin 2) * 64 + 64
    rw [i61]; omega

section Reference
open Cert.ReferenceIdeal.ReadP

/-- The reference's first MLP before the activation, at row r and hidden position k. -/
private theorem ref3_pre (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (r : Fin 100000) (k : Fin 64) :
    val_main_v38 (F := Ideal) x0 x1 x2 x3 x4 x5 x6 x7 x8 (ix2 r k)
      = (∑ j : Fin 64, (val_main_v12 (F := Ideal) x0 x3 x4 (ix2 r j) + val_main_v33 (F := Ideal) x0 x1 x2 x3 x4 x5 x6 (ix2 r j)) * x7 (ix2 j k)) + x8 (ix1 k) := by
  rw [val_main_v38_apply, val_main_v35_apply, val_main_v37_apply, val_main_v36_apply]
  refine congrArg₂ (· + ·) (Finset.sum_congr rfl fun j _ => ?_) (congrArg x8 (funext fun a => by match a with | ⟨0, _⟩ => rfl))
  have hl : lidx_main_v35 (ix2 r k) j = ix2 r j := funext fun a => by match a with | ⟨0, _⟩ => rfl | ⟨1, _⟩ => rfl
  have hr : ridx_main_v35 (ix2 r k) j = ix2 j k := funext fun a => by match a with | ⟨0, _⟩ => rfl | ⟨1, _⟩ => rfl
  rw [hl, hr, val_main_v34_apply]
  rfl

/-- Its hidden layer: LeakyReLU of that. -/
private theorem ref3_hidden (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (r : Fin 100000) (k : Fin 64) :
    val_main_v43 (F := Ideal) x0 x1 x2 x3 x4 x5 x6 x7 x8 (ix2 r k)
      = leaky ((∑ j : Fin 64, (val_main_v12 (F := Ideal) x0 x3 x4 (ix2 r j) + val_main_v33 (F := Ideal) x0 x1 x2 x3 x4 x5 x6 (ix2 r j)) * x7 (ix2 j k)) + x8 (ix1 k)) := by
  rw [val_main_v43_apply, val_main_v40_apply, val_main_v42_apply, val_main_v39_apply, val_main_v41_apply, val_main_cst_5_apply, val_main_cst_6_apply, ref3_pre]
  rfl

/-- The reference's first GINE MLP is the MLP of its two node arrays. -/
private theorem ref3_eq (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32) :
    val_main_v47 (F := Ideal) x0 x1 x2 x3 x4 x5 x6 x7 x8 x9 x10 = mlpArr (val_main_v12 (F := Ideal) x0 x3 x4) (val_main_v33 (F := Ideal) x0 x1 x2 x3 x4 x5 x6) x7 x8 x9 x10 := by
  funext i
  obtain ⟨r, q, rfl⟩ : ∃ (r : Fin 100000) (q : Fin 64), i = ix2 r q := ⟨i 0, i 1, eq_ix2 i⟩
  show _ = mlpAt _ _ x7 x8 x9 x10 r q
  rw [val_main_v47_apply, val_main_v44_apply, val_main_v46_apply, val_main_v45_apply]
  unfold mlpAt
  refine congrArg₂ (· + ·) (Finset.sum_congr rfl fun k _ => ?_) (congrArg x10 (funext fun a => by match a with | ⟨0, _⟩ => rfl))
  have hl : lidx_main_v44 (ix2 r q) k = ix2 r k := funext fun a => by match a with | ⟨0, _⟩ => rfl | ⟨1, _⟩ => rfl
  have hr : ridx_main_v44 (ix2 r q) k = ix2 k q := funext fun a => by match a with | ⟨0, _⟩ => rfl | ⟨1, _⟩ => rfl
  rw [hl, hr, ref3_hidden]

/-- The reference's second MLP before the activation, at row r and hidden position k. -/
private theorem ref5_pre (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32) (x11 : FVec Ideal S64x64 .f32) (x12 : FVec Ideal S64 .f32) (r : Fin 100000) (k : Fin 64) :
    val_main_v69 (F := Ideal) x0 x1 x2 x3 x4 x5 x6 x7 x8 x9 x10 x11 x12 (ix2 r k)
      = (∑ j : Fin 64, (val_main_v52 (F := Ideal) x0 x1 x2 x3 x4 x5 x6 x7 x8 x9 x10 (ix2 r j) + val_main_v64 (F := Ideal) x0 x1 x2 x3 x4 x5 x6 x7 x8 x9 x10 (ix2 r j)) * x11 (ix2 j k)) + x12 (ix1 k) := by
  rw [val_main_v69_apply, val_main_v66_apply, val_main_v68_apply, val_main_v67_apply]
  refine congrArg₂ (· + ·) (Finset.sum_congr rfl fun j _ => ?_) (congrArg x12 (funext fun a => by match a with | ⟨0, _⟩ => rfl))
  have hl : lidx_main_v66 (ix2 r k) j = ix2 r j := funext fun a => by match a with | ⟨0, _⟩ => rfl | ⟨1, _⟩ => rfl
  have hr : ridx_main_v66 (ix2 r k) j = ix2 j k := funext fun a => by match a with | ⟨0, _⟩ => rfl | ⟨1, _⟩ => rfl
  rw [hl, hr, val_main_v65_apply]
  rfl

/-- Its hidden layer: LeakyReLU of that. -/
private theorem ref5_hidden (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32) (x11 : FVec Ideal S64x64 .f32) (x12 : FVec Ideal S64 .f32) (r : Fin 100000) (k : Fin 64) :
    val_main_v74 (F := Ideal) x0 x1 x2 x3 x4 x5 x6 x7 x8 x9 x10 x11 x12 (ix2 r k)
      = leaky ((∑ j : Fin 64, (val_main_v52 (F := Ideal) x0 x1 x2 x3 x4 x5 x6 x7 x8 x9 x10 (ix2 r j) + val_main_v64 (F := Ideal) x0 x1 x2 x3 x4 x5 x6 x7 x8 x9 x10 (ix2 r j)) * x11 (ix2 j k)) + x12 (ix1 k)) := by
  rw [val_main_v74_apply, val_main_v71_apply, val_main_v73_apply, val_main_v70_apply, val_main_v72_apply, val_main_cst_12_apply, val_main_cst_13_apply, ref5_pre]
  rfl

/-- The reference's second GINE MLP is the MLP of its two node arrays. -/
private theorem ref5_eq (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32) (x11 : FVec Ideal S64x64 .f32) (x12 : FVec Ideal S64 .f32) (x13 : FVec Ideal S64x64 .f32) (x14 : FVec Ideal S64 .f32) :
    val_main_v78 (F := Ideal) x0 x1 x2 x3 x4 x5 x6 x7 x8 x9 x10 x11 x12 x13 x14 = mlpArr (val_main_v52 (F := Ideal) x0 x1 x2 x3 x4 x5 x6 x7 x8 x9 x10) (val_main_v64 (F := Ideal) x0 x1 x2 x3 x4 x5 x6 x7 x8 x9 x10) x11 x12 x13 x14 := by
  funext i
  obtain ⟨r, q, rfl⟩ : ∃ (r : Fin 100000) (q : Fin 64), i = ix2 r q := ⟨i 0, i 1, eq_ix2 i⟩
  show _ = mlpAt _ _ x11 x12 x13 x14 r q
  rw [val_main_v78_apply, val_main_v75_apply, val_main_v77_apply, val_main_v76_apply]
  unfold mlpAt
  refine congrArg₂ (· + ·) (Finset.sum_congr rfl fun k _ => ?_) (congrArg x14 (funext fun a => by match a with | ⟨0, _⟩ => rfl))
  have hl : lidx_main_v75 (ix2 r q) k = ix2 r k := funext fun a => by match a with | ⟨0, _⟩ => rfl | ⟨1, _⟩ => rfl
  have hr : ridx_main_v75 (ix2 r q) k = ix2 k q := funext fun a => by match a with | ⟨0, _⟩ => rfl | ⟨1, _⟩ => rfl
  rw [hl, hr, ref5_hidden]

end Reference

end MlpValue

-- The TensorCore's buffers as a region finds them.
variable (V : (c : Dev nD) → (b : Ref sig .tc) → Buf (Elt Ideal) ((c : Thread nD τ).loc b))

section MlpBlocks
open Idealize.ShloMosaic.ValueIdx

/-- Region 3's input blocks at point t, read where the output's rows say: rows 10000·t + p of the two node arrays, the
    whole weights, the one row of each bias. -/
private theorem blkA3 (c : Dev nD) (A : (⟨S100000x64, .f32⟩ : BufTy).Contents (Elt Ideal)) (hA : V c main_v5 = A) (t : Fin cfg3.N) (p : Fin 10000) (j : Fin 64)
    (hp : t.val * 10000 + p.val < 100000) :
    (iblk3 V c 0 t : Vec Ideal S10000x64 .f32) (ix2 p j) = A (ix2 (⟨t.val * 10000 + p.val, hp⟩ : Fin 100000) j) := by
  obtain ⟨i00, i01, i10, i11, i20, i21, i30, i31, i40, i41, i50, i51, i60, i61⟩ := idx3 t
  show V c main_v5 (((cfg3.win 0).blk t).view.emb (ix2 p j)) = _
  rw [hA]
  refine congrArg A (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * j.val = j.val; omega
private theorem blkB3 (c : Dev nD) (B : (⟨S100000x64, .f32⟩ : BufTy).Contents (Elt Ideal)) (hB : V c main_v12 = B) (t : Fin cfg3.N) (p : Fin 10000) (j : Fin 64)
    (hp : t.val * 10000 + p.val < 100000) :
    (iblk3 V c 1 t : Vec Ideal S10000x64 .f32) (ix2 p j) = B (ix2 (⟨t.val * 10000 + p.val, hp⟩ : Fin 100000) j) := by
  obtain ⟨i00, i01, i10, i11, i20, i21, i30, i31, i40, i41, i50, i51, i60, i61⟩ := idx3 t
  show V c main_v12 (((cfg3.win 1).blk t).view.emb (ix2 p j)) = _
  rw [hB]
  refine congrArg B (funext fun a => Fin.ext ?_)
  match a with
  | ⟨0, _⟩ => show win3_1.index t (0 : Fin 2) * 10000 + 1 * p.val = t.val * 10000 + p.val; omega
  | ⟨1, _⟩ => show win3_1.index t (1 : Fin 2) * 64 + 1 * j.val = j.val; omega
private theorem blkW1_3 (c : Dev nD) (W1 : (⟨S64x64, .f32⟩ : BufTy).Contents (Elt Ideal)) (hW1 : V c main_arg7 = W1) (t : Fin cfg3.N) (j k : Fin 64) :
    (iblk3 V c 2 t : Vec Ideal S64x64 .f32) (ix2 j k) = W1 (ix2 j k) := by
  obtain ⟨i00, i01, i10, i11, i20, i21, i30, i31, i40, i41, i50, i51, i60, i61⟩ := idx3 t
  show V c main_arg7 (((cfg3.win 2).blk t).view.emb (ix2 j k)) = _
  rw [hW1]
  refine congrArg W1 (funext fun a => Fin.ext ?_)
  match a with
  | ⟨0, _⟩ => show win3_2.index t (0 : Fin 2) * 64 + 1 * j.val = j.val; omega
  | ⟨1, _⟩ => show win3_2.index t (1 : Fin 2) * 64 + 1 * k.val = k.val; omega
private theorem blkb1_3 (c : Dev nD) (b1 : (⟨S64, .f32⟩ : BufTy).Contents (Elt Ideal)) (hb1 : V c main_v13 = shapeCast S1x64 b1 shapeCasts_S64_S1x64) (t : Fin cfg3.N) (k : Fin 64) :
    (iblk3 V c 3 t : Vec Ideal S1x64 .f32) (ix2 (0 : Fin 1) k) = b1 (ix1 k) := by
  obtain ⟨i00, i01, i10, i11, i20, i21, i30, i31, i40, i41, i50, i51, i60, i61⟩ := idx3 t
  show V c main_v13 (((cfg3.win 3).blk t).view.emb (ix2 (0 : Fin 1) k)) = _
  rw [hb1]
  refine (congrArg (shapeCast S1x64 b1 shapeCasts_S64_S1x64) (funext fun a => Fin.ext ?_)).trans (shapeCast_a_1a_apply b1 shapeCasts_S64_S1x64 (0 : Fin 1) k)
  match a with
  | ⟨0, _⟩ => show win3_3.index t (0 : Fin 2) * 1 + 1 * 0 = 0; omega
  | ⟨1, _⟩ => show win3_3.index t (1 : Fin 2) * 64 + 1 * k.val = k.val; omega
private theorem blkW2_3 (c : Dev nD) (W2 : (⟨S64x64, .f32⟩ : BufTy).Contents (Elt Ideal)) (hW2 : V c main_arg9 = W2) (t : Fin cfg3.N) (j k : Fin 64) :
    (iblk3 V c 4 t : Vec Ideal S64x64 .f32) (ix2 j k) = W2 (ix2 j k) := by
  obtain ⟨i00, i01, i10, i11, i20, i21, i30, i31, i40, i41, i50, i51, i60, i61⟩ := idx3 t
  show V c main_arg9 (((cfg3.win 4).blk t).view.emb (ix2 j k)) = _
  rw [hW2]
  refine congrArg W2 (funext fun a => Fin.ext ?_)
  match a with
  | ⟨0, _⟩ => show win3_4.index t (0 : Fin 2) * 64 + 1 * j.val = j.val; omega
  | ⟨1, _⟩ => show win3_4.index t (1 : Fin 2) * 64 + 1 * k.val = k.val; omega
private theorem blkb2_3 (c : Dev nD) (b2 : (⟨S64, .f32⟩ : BufTy).Contents (Elt Ideal)) (hb2 : V c main_v14 = shapeCast S1x64 b2 shapeCasts_S64_S1x64) (t : Fin cfg3.N) (k : Fin 64) :
    (iblk3 V c 5 t : Vec Ideal S1x64 .f32) (ix2 (0 : Fin 1) k) = b2 (ix1 k) := by
  obtain ⟨i00, i01, i10, i11, i20, i21, i30, i31, i40, i41, i50, i51, i60, i61⟩ := idx3 t
  show V c main_v14 (((cfg3.win 5).blk t).view.emb (ix2 (0 : Fin 1) k)) = _
  rw [hb2]
  refine (congrArg (shapeCast S1x64 b2 shapeCasts_S64_S1x64) (funext fun a => Fin.ext ?_)).trans (shapeCast_a_1a_apply b2 shapeCasts_S64_S1x64 (0 : Fin 1) k)
  match a with
  | ⟨0, _⟩ => show win3_5.index t (0 : Fin 2) * 1 + 1 * 0 = 0; omega
  | ⟨1, _⟩ => show win3_5.index t (1 : Fin 2) * 64 + 1 * k.val = k.val; omega

/-- What point t of region 3 writes back is block t of the MLP of the arrays the region finds in its six input buffers. -/
private theorem flushed3 (c : Dev nD) (A B : (⟨S100000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (hA : V c main_v5 = A) (hB : V c main_v12 = B)
    (hW1 : V c main_arg7 = W1) (hb1 : V c main_v13 = shapeCast S1x64 b1 shapeCasts_S64_S1x64)
    (hW2 : V c main_arg9 = W2) (hb2 : V c main_v14 = shapeCast S1x64 b2 shapeCasts_S64_S1x64) (t : Fin cfg3.N) :
    (dat3 (F := Ideal) V c).flushed 6 t = ((cfg3.win 6).blk t).view.read (Elt Ideal) (mlpArr A B W1 b1 W2 b2) := by
  show (cfg3.win 6).cut (grid3.coords t) ((dat3 V c).after 6 t) = _
  rw [after3_6]
  unfold out3_6
  rw [View.canon_unit_zero hz2]
  simp only [View.ld_unit_zero (S := S10000x64) hz2, View.ld_unit_zero (S := S64x64) hz2, View.ld_unit_zero (S := S1x64) hz2]
  funext y
  obtain ⟨-, -, -, -, -, -, -, -, -, -, -, -, i60, i61⟩ := idx3 t
  have ht : t.val < 10 := t.isLt.trans_eq N_3
  have hy0 : (y 0).val < 10000 := (y 0).isLt
  have hy1 : (y 1).val < 64 := (y 1).isLt
  have hrow : t.val * 10000 + (y 0).val < 100000 := by omega
  refine (pay3_at (iblk3 V c 0 t) (iblk3 V c 1 t) (iblk3 V c 2 t) (iblk3 V c 3 t) (iblk3 V c 4 t) (iblk3 V c 5 t) y).trans ?_
  have hr : (((cfg3.win 6).blk t).view.emb y) 0 = (⟨t.val * 10000 + (y 0).val, hrow⟩ : Fin 100000) :=
    Fin.ext (by show win3_6.index t (0 : Fin 2) * 10000 + 1 * (y 0).val = t.val * 10000 + (y 0).val; omega)
  have hq : (((cfg3.win 6).blk t).view.emb y) 1 = (⟨(y 1).val, hy1⟩ : Fin 64) :=
    Fin.ext (by show win3_6.index t (1 : Fin 2) * 64 + 1 * (y 1).val = (y 1).val; omega)
  show _ = mlpAt A B W1 b1 W2 b2 ((((cfg3.win 6).blk t).view.emb y) 0) ((((cfg3.win 6).blk t).view.emb y) 1)
  rw [hr, hq]
  unfold mlpAt
  refine congrArg₂ (· + ·) (Finset.sum_congr rfl fun k _ => ?_) (blkb2_3 V c b2 hb2 t ⟨(y 1).val, hy1⟩)
  refine congrArg₂ (fun s w => leaky s * w) (congrArg₂ (· + ·) (Finset.sum_congr rfl fun j _ => ?_) (blkb1_3 V c b1 hb1 t k)) (blkW2_3 V c W2 hW2 t k ⟨(y 1).val, hy1⟩)
  exact congrArg₂ (· * ·) (congrArg₂ (· + ·) (blkA3 V c A hA t ⟨(y 0).val, hy0⟩ j hrow) (blkB3 V c B hB t ⟨(y 0).val, hy0⟩ j hrow)) (blkW1_3 V c W1 hW1 t j k)

/-- Region 5's input blocks at point t, read where the output's rows say: rows 10000·t + p of the two node arrays, the
    whole weights, the one row of each bias. -/
private theorem blkA5 (c : Dev nD) (A : (⟨S100000x64, .f32⟩ : BufTy).Contents (Elt Ideal)) (hA : V c main_v20 = A) (t : Fin cfg5.N) (p : Fin 10000) (j : Fin 64)
    (hp : t.val * 10000 + p.val < 100000) :
    (iblk5 V c 0 t : Vec Ideal S10000x64 .f32) (ix2 p j) = A (ix2 (⟨t.val * 10000 + p.val, hp⟩ : Fin 100000) j) := by
  obtain ⟨i00, i01, i10, i11, i20, i21, i30, i31, i40, i41, i50, i51, i60, i61⟩ := idx5 t
  show V c main_v20 (((cfg5.win 0).blk t).view.emb (ix2 p j)) = _
  rw [hA]
  refine congrArg A (funext fun a => Fin.ext ?_)
  match a with
  | ⟨0, _⟩ => show win5_0.index t (0 : Fin 2) * 10000 + 1 * p.val = t.val * 10000 + p.val; omega
  | ⟨1, _⟩ => show win5_0.index t (1 : Fin 2) * 64 + 1 * j.val = j.val; omega
private theorem blkB5 (c : Dev nD) (B : (⟨S100000x64, .f32⟩ : BufTy).Contents (Elt Ideal)) (hB : V c main_v25 = B) (t : Fin cfg5.N) (p : Fin 10000) (j : Fin 64)
    (hp : t.val * 10000 + p.val < 100000) :
    (iblk5 V c 1 t : Vec Ideal S10000x64 .f32) (ix2 p j) = B (ix2 (⟨t.val * 10000 + p.val, hp⟩ : Fin 100000) j) := by
  obtain ⟨i00, i01, i10, i11, i20, i21, i30, i31, i40, i41, i50, i51, i60, i61⟩ := idx5 t
  show V c main_v25 (((cfg5.win 1).blk t).view.emb (ix2 p j)) = _
  rw [hB]
  refine congrArg B (funext fun a => Fin.ext ?_)
  match a with
  | ⟨0, _⟩ => show win5_1.index t (0 : Fin 2) * 10000 + 1 * p.val = t.val * 10000 + p.val; omega
  | ⟨1, _⟩ => show win5_1.index t (1 : Fin 2) * 64 + 1 * j.val = j.val; omega
private theorem blkW1_5 (c : Dev nD) (W1 : (⟨S64x64, .f32⟩ : BufTy).Contents (Elt Ideal)) (hW1 : V c main_arg11 = W1) (t : Fin cfg5.N) (j k : Fin 64) :
    (iblk5 V c 2 t : Vec Ideal S64x64 .f32) (ix2 j k) = W1 (ix2 j k) := by
  obtain ⟨i00, i01, i10, i11, i20, i21, i30, i31, i40, i41, i50, i51, i60, i61⟩ := idx5 t
  show V c main_arg11 (((cfg5.win 2).blk t).view.emb (ix2 j k)) = _
  rw [hW1]
  refine congrArg W1 (funext fun a => Fin.ext ?_)
  match a with
  | ⟨0, _⟩ => show win5_2.index t (0 : Fin 2) * 64 + 1 * j.val = j.val; omega
  | ⟨1, _⟩ => show win5_2.index t (1 : Fin 2) * 64 + 1 * k.val = k.val; omega
private theorem blkb1_5 (c : Dev nD) (b1 : (⟨S64, .f32⟩ : BufTy).Contents (Elt Ideal)) (hb1 : V c main_v26 = shapeCast S1x64 b1 shapeCasts_S64_S1x64) (t : Fin cfg5.N) (k : Fin 64) :
    (iblk5 V c 3 t : Vec Ideal S1x64 .f32) (ix2 (0 : Fin 1) k) = b1 (ix1 k) := by
  obtain ⟨i00, i01, i10, i11, i20, i21, i30, i31, i40, i41, i50, i51, i60, i61⟩ := idx5 t
  show V c main_v26 (((cfg5.win 3).blk t).view.emb (ix2 (0 : Fin 1) k)) = _
  rw [hb1]
  refine (congrArg (shapeCast S1x64 b1 shapeCasts_S64_S1x64) (funext fun a => Fin.ext ?_)).trans (shapeCast_a_1a_apply b1 shapeCasts_S64_S1x64 (0 : Fin 1) k)
  match a with
  | ⟨0, _⟩ => show win5_3.index t (0 : Fin 2) * 1 + 1 * 0 = 0; omega
  | ⟨1, _⟩ => show win5_3.index t (1 : Fin 2) * 64 + 1 * k.val = k.val; omega
private theorem blkW2_5 (c : Dev nD) (W2 : (⟨S64x64, .f32⟩ : BufTy).Contents (Elt Ideal)) (hW2 : V c main_arg13 = W2) (t : Fin cfg5.N) (j k : Fin 64) :
    (iblk5 V c 4 t : Vec Ideal S64x64 .f32) (ix2 j k) = W2 (ix2 j k) := by
  obtain ⟨i00, i01, i10, i11, i20, i21, i30, i31, i40, i41, i50, i51, i60, i61⟩ := idx5 t
  show V c main_arg13 (((cfg5.win 4).blk t).view.emb (ix2 j k)) = _
  rw [hW2]
  refine congrArg W2 (funext fun a => Fin.ext ?_)
  match a with
  | ⟨0, _⟩ => show win5_4.index t (0 : Fin 2) * 64 + 1 * j.val = j.val; omega
  | ⟨1, _⟩ => show win5_4.index t (1 : Fin 2) * 64 + 1 * k.val = k.val; omega
private theorem blkb2_5 (c : Dev nD) (b2 : (⟨S64, .f32⟩ : BufTy).Contents (Elt Ideal)) (hb2 : V c main_v27 = shapeCast S1x64 b2 shapeCasts_S64_S1x64) (t : Fin cfg5.N) (k : Fin 64) :
    (iblk5 V c 5 t : Vec Ideal S1x64 .f32) (ix2 (0 : Fin 1) k) = b2 (ix1 k) := by
  obtain ⟨i00, i01, i10, i11, i20, i21, i30, i31, i40, i41, i50, i51, i60, i61⟩ := idx5 t
  show V c main_v27 (((cfg5.win 5).blk t).view.emb (ix2 (0 : Fin 1) k)) = _
  rw [hb2]
  refine (congrArg (shapeCast S1x64 b2 shapeCasts_S64_S1x64) (funext fun a => Fin.ext ?_)).trans (shapeCast_a_1a_apply b2 shapeCasts_S64_S1x64 (0 : Fin 1) k)
  match a with
  | ⟨0, _⟩ => show win5_5.index t (0 : Fin 2) * 1 + 1 * 0 = 0; omega
  | ⟨1, _⟩ => show win5_5.index t (1 : Fin 2) * 64 + 1 * k.val = k.val; omega

/-- What point t of region 5 writes back is block t of the MLP of the arrays the region finds in its six input buffers. -/
private theorem flushed5 (c : Dev nD) (A B : (⟨S100000x64, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (hA : V c main_v20 = A) (hB : V c main_v25 = B)
    (hW1 : V c main_arg11 = W1) (hb1 : V c main_v26 = shapeCast S1x64 b1 shapeCasts_S64_S1x64)
    (hW2 : V c main_arg13 = W2) (hb2 : V c main_v27 = shapeCast S1x64 b2 shapeCasts_S64_S1x64) (t : Fin cfg5.N) :
    (dat5 (F := Ideal) V c).flushed 6 t = ((cfg5.win 6).blk t).view.read (Elt Ideal) (mlpArr A B W1 b1 W2 b2) := by
  show (cfg5.win 6).cut (grid5.coords t) ((dat5 V c).after 6 t) = _
  rw [after5_6]
  unfold out5_6
  rw [View.canon_unit_zero hz2]
  simp only [View.ld_unit_zero (S := S10000x64) hz2, View.ld_unit_zero (S := S64x64) hz2, View.ld_unit_zero (S := S1x64) hz2]
  funext y
  obtain ⟨-, -, -, -, -, -, -, -, -, -, -, -, i60, i61⟩ := idx5 t
  have ht : t.val < 10 := t.isLt.trans_eq N_5
  have hy0 : (y 0).val < 10000 := (y 0).isLt
  have hy1 : (y 1).val < 64 := (y 1).isLt
  have hrow : t.val * 10000 + (y 0).val < 100000 := by omega
  refine ((congrFun (pay5_eq (iblk5 V c 0 t) (iblk5 V c 1 t) (iblk5 V c 2 t) (iblk5 V c 3 t) (iblk5 V c 4 t) (iblk5 V c 5 t)) y).trans
    (pay3_at (iblk5 V c 0 t) (iblk5 V c 1 t) (iblk5 V c 2 t) (iblk5 V c 3 t) (iblk5 V c 4 t) (iblk5 V c 5 t) y)).trans ?_
  have hr : (((cfg5.win 6).blk t).view.emb y) 0 = (⟨t.val * 10000 + (y 0).val, hrow⟩ : Fin 100000) :=
    Fin.ext (by show win5_6.index t (0 : Fin 2) * 10000 + 1 * (y 0).val = t.val * 10000 + (y 0).val; omega)
  have hq : (((cfg5.win 6).blk t).view.emb y) 1 = (⟨(y 1).val, hy1⟩ : Fin 64) :=
    Fin.ext (by show win5_6.index t (1 : Fin 2) * 64 + 1 * (y 1).val = (y 1).val; omega)
  show _ = mlpAt A B W1 b1 W2 b2 ((((cfg5.win 6).blk t).view.emb y) 0) ((((cfg5.win 6).blk t).view.emb y) 1)
  rw [hr, hq]
  unfold mlpAt
  refine congrArg₂ (· + ·) (Finset.sum_congr rfl fun k _ => ?_) (blkb2_5 V c b2 hb2 t ⟨(y 1).val, hy1⟩)
  refine congrArg₂ (fun s w => leaky s * w) (congrArg₂ (· + ·) (Finset.sum_congr rfl fun j _ => ?_) (blkb1_5 V c b1 hb1 t k)) (blkW2_5 V c W2 hW2 t k ⟨(y 1).val, hy1⟩)
  exact congrArg₂ (· * ·) (congrArg₂ (· + ·) (blkA5 V c A hA t ⟨(y 0).val, hy0⟩ j hrow) (blkB5 V c B hB t ⟨(y 0).val, hy0⟩ j hrow)) (blkW1_5 V c W1 hW1 t j k)

end MlpBlocks

/-- Region 3 (first GINE MLP): %15 is LeakyReLU((h + agg)·W1 + b1)·W2 + b2. -/
theorem reg3_out (c : Dev nD) (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32)
    (h5 : V c main_v5 = val_main_v12 (F := Ideal) x0 x3 x4) (h12 : V c main_v12 = val_main_v33 (F := Ideal) x0 x1 x2 x3 x4 x5 x6)
    (h7 : V c main_arg7 = x7) (h13 : V c main_v13 = shapeCast S1x64 x8 shapeCasts_S64_S1x64)
    (h9 : V c main_arg9 = x9) (h14 : V c main_v14 = shapeCast S1x64 x10 shapeCasts_S64_S1x64) :
    (dat3 (F := Ideal) V c).arrAt 6 cfg3.N = val_main_v47 (F := Ideal) x0 x1 x2 x3 x4 x5 x6 x7 x8 x9 x10 := by
  exact ((dat3 (F := Ideal) V c).arrAt_eq_of_cover 6 (mlpArr (val_main_v12 (F := Ideal) x0 x3 x4) (val_main_v33 (F := Ideal) x0 x1 x2 x3 x4 x5 x6) x7 x8 x9 x10)
    (fun t _ => flushed3 V c _ _ x7 x8 x9 x10 h5 h12 h7 h13 h9 h14 t) cover3).trans (ref3_eq x0 x1 x2 x3 x4 x5 x6 x7 x8 x9 x10).symm

/-- Region 5 (second GINE MLP): %28. -/
theorem reg5_out (c : Dev nD) (x0 : FVec Ideal S100000x128 .f32) (x1 : FVec Ideal S1600000x64 .f32) (x2 : IVec S2x1600000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32) (x11 : FVec Ideal S64x64 .f32) (x12 : FVec Ideal S64 .f32) (x13 : FVec Ideal S64x64 .f32) (x14 : FVec Ideal S64 .f32)
    (h20 : V c main_v20 = val_main_v52 (F := Ideal) x0 x1 x2 x3 x4 x5 x6 x7 x8 x9 x10) (h25 : V c main_v25 = val_main_v64 (F := Ideal) x0 x1 x2 x3 x4 x5 x6 x7 x8 x9 x10)
    (h11 : V c main_arg11 = x11) (h26 : V c main_v26 = shapeCast S1x64 x12 shapeCasts_S64_S1x64)
    (h13 : V c main_arg13 = x13) (h27 : V c main_v27 = shapeCast S1x64 x14 shapeCasts_S64_S1x64) :
    (dat5 (F := Ideal) V c).arrAt 6 cfg5.N = val_main_v78 (F := Ideal) x0 x1 x2 x3 x4 x5 x6 x7 x8 x9 x10 x11 x12 x13 x14 := by
  exact ((dat5 (F := Ideal) V c).arrAt_eq_of_cover 6 (mlpArr (val_main_v52 (F := Ideal) x0 x1 x2 x3 x4 x5 x6 x7 x8 x9 x10) (val_main_v64 (F := Ideal) x0 x1 x2 x3 x4 x5 x6 x7 x8 x9 x10) x11 x12 x13 x14)
    (fun t _ => flushed5 V c _ _ x11 x12 x13 x14 h20 h25 h11 h26 h13 h27 t) cover5).trans (ref5_eq x0 x1 x2 x3 x4 x5 x6 x7 x8 x9 x10 x11 x12 x13 x14).symm

end Cert.KernelIdeal.Bridge

end
-- ==== Proof.PreDecode.lean ====
import proofs.«420455_j26972394618971_2_alg».proof.Proof.Gen.KernelIdeal.Frame
import proofs.«420455_j26972394618971_2_alg».proof.Proof.RefRead
import Idealize.ShloMosaic.Lib.Pipeline.Value
import Idealize.ShloMosaic.Lib.ValueIdx
import Idealize.ShloMosaic.Lib.ValueLayout
import Idealize.ShloMosaic.PureOps.Ideal.Laws
import proofs.«420455_j26972394618971_2_alg».proof.Defs
import proofs.«420455_j26972394618971_2_alg».proof.Proof.Gen.Pre_finite_inputs
import Idealize.ShloMosaic.Lib.ReduceAll
import Idealize.ShloMosaic.Lib.StableHlo.Predicate
set_option maxRecDepth 16384

noncomputable section

namespace Cert.KernelIdeal.Bridge

open Idealize.ShloMosaic Idealize.ShloMosaic.TcCoe Idealize.SL.Sem
open Cert.KernelIdeal Cert.KernelIdeal.Gen
open Cert.ReferenceIdeal.ReadP (val_main_v1 val_main_v3 val_main_v12 val_main_v21 val_main_v26 val_main_v27 val_main_v28 val_main_v30 val_main_v33 val_main_v47 val_main_v52 val_main_v57 val_main_v58 val_main_v59 val_main_v61 val_main_v64 val_main_v78 val_main_v83 val_main_v87)

-- The TensorCore's buffers as a region finds them.
variable (V : (c : Dev nD) → (b : Ref sig .tc) → Buf (Elt Ideal) ((c : Thread nD τ).loc b))

/-- Every source node id names a row of the node table: 0 ≤ src ≤ 99999 as signed words (the added conjunct of the precondition, element by element). -/
def SrcInRange (x2 : IVec S2x1600000 32) : Prop :=
  ∀ p : S1600000.Idx, IntOp.cmpi .sge (val_main_v1 (F := Ideal) x2 p) 0#32 = 1#1 ∧ IntOp.cmpi .sle (val_main_v1 (F := Ideal) x2 p) 99999#32 = 1#1

/-- A signed word that is at least 0 is not below 0. -/
private theorem slt_zero_of_sge (w : BitVec 32) (h : IntOp.cmpi .sge w 0#32 = 1#1) : IntOp.cmpi .slt w 0#32 = 0#1 := by
  have h' : BitVec.ofBool ((0#32).sle w) = 1#1 := h
  rw [StableHlo.Predicate.ofBool_eq_one_iff] at h'
  show BitVec.ofBool (w.slt 0#32) = 0#1
  have e : w.slt 0#32 = false := by
    simp only [BitVec.sle, decide_eq_true_eq] at h'
    simp only [BitVec.slt, decide_eq_false_iff_not]
    omega
  rw [e]; rfl

/-- A reduce by and of an array of ones, from one, is one at every result index. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : ∀ j, init j = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a]
    exact ih

/-- The last part of the precondition at any arguments: its result 1 makes both conjuncts 1 at every element
    (the and of the two scalars splits, and an all that is 1 had a 1 at every element). -/
private theorem part5_all (v78 : IVec Cert.Pre_finite_inputs.S_ 1) (v82 : IVec Cert.Pre_finite_inputs.S1600000 1)
    (v84 v85 : IVec Cert.Pre_finite_inputs.S1600000 32)
    (h : Cert.Pre_finite_inputs.fn_part5 (F := Ideal) v78 v82 v84 v85 ValueIdx.ix0 = 1#1) (p : Cert.Pre_finite_inputs.S1600000.Idx) :
    v82 p = 1#1 ∧ IntOp.cmpi .sle (v84 p) (v85 p) = 1#1 := by
  haveI : Subsingleton Cert.Pre_finite_inputs.S_.Idx := ⟨fun a b => funext fun d => d.elim0⟩
  unfold Cert.Pre_finite_inputs.fn_part5 at h
  have h2 := (IntOp.andi_eq_one.1 h).2
  exact IntOp.andi_eq_one.1 (Host.reduce_andi_all _ _ _ _ _ h2 p)

/-- The precondition's last conjunct, decoded. -/
theorem srcInRange_of_pre (m : (ℓ : Loc nD τ sig) → Buf (Elt Ideal) ℓ) (h : Cert.Pre_KernelIdeal m) (c : Dev nD) :
    SrcInRange (m ((c.tc : Thread nD τ).loc main_arg2)) := by
  intro p
  -- the precondition at its one index; the printed function unfolds to its last part, whose v82 and v84 are the reference's %1 compared with 0 and read again
  have e := congrFun (h c) ValueIdx.ix0
  exact part5_all _ _ _ _ e p

/-- jnp.take with mode "fill" as one pure function of the table and the index vector: the operations of @_take in order
    (negative ids wrapped once, the gather at the clamped start index, rows whose wrapped id is outside 0..99999 replaced by the fill word). -/
def takeFill (h : FVec Ideal S100000x64 .f32) (s : IVec S1600000 32) : FVec Ideal S1600000x64 .f32 :=
  let c : IVec S_ 32 := constantI S_ 32 0#32
  let v0 : IVec S1600000 32 := broadcastInDim S1600000 ![] bcast_S_S1600000 c
  let v1 : IVec S1600000 1 := cmpi .slt s v0
  let c_0 : IVec S_ 32 := constantI S_ 32 100000#32
  let v2 : IVec S1600000 32 := broadcastInDim S1600000 ![] bcast_S_S1600000 c_0
  let v3 : IVec S1600000 32 := addi s v2
  let v4 : IVec S1600000 32 := select v1 v3 s
  let v5 : IVec S1600000x1 32 := broadcastInDim S1600000x1 ![0] bcast_S1600000_S1600000x1_0 v4
  let c_1 : IVec S1 32 := constantI S1 32 99999#32
  let c_2 : IVec S_ 32 := constantI S_ 32 0#32
  let v6 : IVec S1600000x1 32 := broadcastInDim S1600000x1 ![] bcast_S_S1600000x1 c_2
  let v7 : IVec S1600000x1 1 := cmpi .sge v5 v6
  let v8 : IVec S1x1 32 := broadcastInDim S1x1 ![1] bcast_S1_S1x1_1 c_1
  let v9 : IVec S1600000x1 32 := broadcastInDim S1600000x1 ![0, 1] bcast_S1x1_S1600000x1_0_1 v8
  let v10 : IVec S1600000x1 1 := cmpi .sle v5 v9
  let v11 : IVec S1600000x1 1 := andi v7 v10
  let c_3 : IVec S_ 1 := constantI S_ 1 1#1
  let v12 : IVec S1600000 1 := Host.reduce IntOp.andi v11 c_3 reducesTo_S1600000x1_S1600000_d1 h_S_
  let v13 : FVec Ideal S1600000x64 .f32 := Host.gather gather_S100000x64_S1600000x1_S1600000x64_1_0_n_n_0_1_164 h v5
  let v14 : IVec S1600000x64 1 := broadcastInDim S1600000x64 ![0] bcast_S1600000_S1600000x64_0 v12
  let cst : FVec Ideal S_ .f32 := constant S_ .f32 0x7FC00000#32
  let v15 : FVec Ideal S1600000x64 .f32 := broadcastInDim S1600000x64 ![] bcast_S_S1600000x64 cst
  select v14 v13 v15

/-- The wrapped id of an id in range is the id itself. -/
private theorem wrap_eq (w : BitVec 32) (h0 : IntOp.cmpi .sge w 0#32 = 1#1) :
    Scalar.select (IntOp.cmpi .slt w 0#32) (IntOp.addi w 100000#32) w = w := by
  rw [slt_zero_of_sge w h0, ValueIdx.select_zero]

/-- The take's index column: the ids, negative ones wrapped once, as a [1600000, 1] array. -/
private def idCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The take's row mask: row p is kept when its wrapped id lies in 0..99999 (an and over the one column). -/
private def inTable (v5 : IVec S1600000x1 32) : IVec S1600000 1 :=
  Host.reduce IntOp.andi
    (andi (cmpi .sge v5 (broadcastInDim S1600000x1 ![] bcast_S_S1600000x1 (constantI S_ 32 0#32)))
      (cmpi .sle v5 (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The take in terms of its index column and row mask. -/
private theorem takeFill_def (h : FVec Ideal S100000x64 .f32) (s : IVec S1600000 32) :
    takeFill h s = select (broadcastInDim S1600000x64 ![0] bcast_S1600000_S1600000x64_0 (inTable (idCol s)))
      (Host.gather gather_S100000x64_S1600000x1_S1600000x64_1_0_n_n_0_1_164 h (idCol s))
      (broadcastInDim S1600000x64 ![] bcast_S_S1600000x64 (constant S_ .f32 0x7FC00000#32)) := rfl

/-- Each entry of the index column of ids in range is one of the ids. -/
private theorem idCol_apply (s : IVec S1600000 32)
    (hs : ∀ p : S1600000.Idx, IntOp.cmpi .sge (s p) 0#32 = 1#1 ∧ IntOp.cmpi .sle (s p) 99999#32 = 1#1)
    (j : S1600000x1.Idx) : ∃ p : S1600000.Idx, idCol s j = s p :=
  ⟨_, wrap_eq _ (hs _).1⟩

/-- A column of ids in 0..99999 keeps every row. -/
private theorem inTable_eq (v5 : IVec S1600000x1 32)
    (hv : ∀ j : S1600000x1.Idx, IntOp.cmpi .sge (v5 j) 0#32 = 1#1 ∧ IntOp.cmpi .sle (v5 j) 99999#32 = 1#1) :
    inTable v5 = fun _ => 1#1 :=
  funext fun k => reduce_andi_ones _ _ _ _ (fun j => IntOp.andi_eq_one.2 (hv j)) (fun _ => rfl) k

private theorem takeFill_inRange (h : FVec Ideal S100000x64 .f32) (s : IVec S1600000 32)
    (hs : ∀ p : S1600000.Idx, IntOp.cmpi .sge (s p) 0#32 = 1#1 ∧ IntOp.cmpi .sle (s p) 99999#32 = 1#1) :
    takeFill h s = Host.gather gather_S100000x64_S1600000x1_S1600000x64_1_0_n_n_0_1_164 h (idCol s) := by
  have hcol : ∀ j : S1600000x1.Idx, IntOp.cmpi .sge (idCol s j) 0#32 = 1#1 ∧ IntOp.cmpi .sle (idCol s j) 99999#32 = 1#1 := by
    intro j
    obtain ⟨p, e⟩ := idCol_apply s hs j
    rw [e]
    exact hs p
  rw [takeFill_def, inTable_eq (idCol s) hcol]
  funext i
  exact ValueIdx.select_one _ _

/-- With every id in range no row is filled: the take is the reference's plain gather at the same wrapped ids. -/
theorem takeFill_eq (x2 : IVec S2x1600000 32) (hs : SrcInRange x2) (h : FVec Ideal S100000x64 .f32) :
    takeFill h (val_main_v1 (F := Ideal) x2)
      = Host.gather Cert.ReferenceIdeal.gather_S100000x64_S1600000x1_S1600000x64_1_0_n_n_0_1_164 h (val_main_v27 (F := Ideal) x2) :=
  -- the reference's %27 is the same wrapped index column, and the two programs' gather records are the same record
  (takeFill_inRange h _ hs).trans rfl

/-- The same for the second layer's take, whose wrapped ids the reference computes again (%58). -/
theorem takeFill_eq' (x2 : IVec S2x1600000 32) (hs : SrcInRange x2) (h : FVec Ideal S100000x64 .f32) :
    takeFill h (val_main_v1 (F := Ideal) x2)
      = Host.gather Cert.ReferenceIdeal.gather_S100000x64_S1600000x1_S1600000x64_1_0_n_n_0_1_164 h (val_main_v58 (F := Ideal) x2) :=
  -- %53 … %58 repeat %22 … %27 operation by operation
  (takeFill_inRange h _ hs).trans rfl

end Cert.KernelIdeal.Bridge

end
-- ==== Proof.KChain.lean ====
import proofs.«420455_j26972394618971_2_alg».proof.Proof.Gen.KernelIdeal.Frame
import proofs.«420455_j26972394618971_2_alg».proof.Proof.RefRead
import Idealize.ShloMosaic.Lib.Pipeline.Value
import Idealize.ShloMosaic.Lib.ValueIdx
import Idealize.ShloMosaic.Lib.ValueLayout
import Idealize.ShloMosaic.PureOps.Ideal.Laws
import proofs.«420455_j26972394618971_2_alg».proof.Proof.RegLin
import proofs.«420455_j26972394618971_2_alg».proof.Proof.RegMsg
import proofs.«420455_j26972394618971_2_alg».proof.Proof.RegMlp
import proofs.«420455_j26972394618971_2_alg».proof.Proof.PreDecode
import Idealize.ShloMosaic.Lib.StableHlo.Run
set_option maxRecDepth 16384

noncomputable section

namespace Cert.KernelIdeal.Bridge

open Idealize.ShloMosaic Idealize.ShloMosaic.TcCoe Idealize.SL.Sem
open Cert.KernelIdeal Cert.KernelIdeal.Gen
open Cert.ReferenceIdeal.ReadP (val_main_v1 val_main_v3 val_main_v12 val_main_v21 val_main_v26 val_main_v27 val_main_v28 val_main_v30 val_main_v33 val_main_v47 val_main_v52 val_main_v57 val_main_v58 val_main_v59 val_main_v61 val_main_v64 val_main_v78 val_main_v83 val_main_v87)

open Idealize.ShloMosaic.StableHlo

variable (m : (ℓ : Loc nD τ sig) → Buf (Elt Ideal) ℓ) (ρ : Dev nD → PrngReg) (c : Dev nD)

/-! ## The argument arrays at every segment boundary

No host operation and no region writes an argument array (a region reads it through an input window or not at all), so
every boundary's contents have each argument as launched. -/

/-- The contents `W` have the seventeen argument arrays as launched. -/
def ArgsKept (W : Valuation τ sig (Elt Ideal)) : Prop :=
  W (Proc.devRef .tc main_arg0) = m ((c : Thread nD τ).loc main_arg0)
  ∧ W (Proc.devRef .tc main_arg1) = m ((c : Thread nD τ).loc main_arg1)
  ∧ W (Proc.devRef .tc main_arg2) = m ((c : Thread nD τ).loc main_arg2)
  ∧ W (Proc.devRef .tc main_arg3) = m ((c : Thread nD τ).loc main_arg3)
  ∧ W (Proc.devRef .tc main_arg4) = m ((c : Thread nD τ).loc main_arg4)
  ∧ W (Proc.devRef .tc main_arg5) = m ((c : Thread nD τ).loc main_arg5)
  ∧ W (Proc.devRef .tc main_arg6) = m ((c : Thread nD τ).loc main_arg6)
  ∧ W (Proc.devRef .tc main_arg7) = m ((c : Thread nD τ).loc main_arg7)
  ∧ W (Proc.devRef .tc main_arg8) = m ((c : Thread nD τ).loc main_arg8)
  ∧ W (Proc.devRef .tc main_arg9) = m ((c : Thread nD τ).loc main_arg9)
  ∧ W (Proc.devRef .tc main_arg10) = m ((c : Thread nD τ).loc main_arg10)
  ∧ W (Proc.devRef .tc main_arg11) = m ((c : Thread nD τ).loc main_arg11)
  ∧ W (Proc.devRef .tc main_arg12) = m ((c : Thread nD τ).loc main_arg12)
  ∧ W (Proc.devRef .tc main_arg13) = m ((c : Thread nD τ).loc main_arg13)
  ∧ W (Proc.devRef .tc main_arg14) = m ((c : Thread nD τ).loc main_arg14)
  ∧ W (Proc.devRef .tc main_arg15) = m ((c : Thread nD τ).loc main_arg15)
  ∧ W (Proc.devRef .tc main_arg16) = m ((c : Thread nD τ).loc main_arg16)

/-- Across a stretch of host operations: no operation's result buffer is an argument. -/
macro "host_nw" : tactic => `(tactic|
  exact StableHlo.after_of_forall_not_mem _ _ (List.forall_iff_forall_mem.mp (by
    simp only [hostOps0, hostOps1, hostOps2, hostOps3, hostOps4, hostOps4_1, hostOps4_2, hostOps5, hostOps6, hostOps6_1, hostOps6_2,
      List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

theorem args0 : ArgsKept m c (W0 (F := Ideal) m ρ c) :=
  ⟨rfl, rfl, rfl, rfl, rfl, rfl, rfl, rfl, rfl, rfl, rfl, rfl, rfl, rfl, rfl, rfl, rfl⟩

theorem args1 : ArgsKept m c (W1 (F := Ideal) m ρ c) := by
  obtain ⟨h0, h1, h2, h3, h4, h5, h6, h7, h8, h9, h10, h11, h12, h13, h14, h15, h16⟩ := args0 m ρ c
  refine ⟨?_, ?_, ?_, ?_, ?_, ?_, ?_, ?_, ?_, ?_, ?_, ?_, ?_, ?_, ?_, ?_, ?_⟩
  · exact (show W1 (F := Ideal) m ρ c (Proc.devRef .tc main_arg0) = W0 (F := Ideal) m ρ c (Proc.devRef .tc main_arg0) from by host_nw).trans h0
  · exact (show W1 (F := Ideal) m ρ c (Proc.devRef .tc main_arg1) = W0 (F := Ideal) m ρ c (Proc.devRef .tc main_arg1) from by host_nw).trans h1
  · exact (show W1 (F := Ideal) m ρ c (Proc.devRef .tc main_arg2) = W0 (F := Ideal) m ρ c (Proc.devRef .tc main_arg2) from by host_nw).trans h2
  · exact (show W1 (F := Ideal) m ρ c (Proc.devRef .tc main_arg3) = W0 (F := Ideal) m ρ c (Proc.devRef .tc main_arg3) from by host_nw).trans h3
  · exact (show W1 (F := Ideal) m ρ c (Proc.devRef .tc main_arg4) = W0 (F := Ideal) m ρ c (Proc.devRef .tc main_arg4) from by host_nw).trans h4
  · exact (show W1 (F := Ideal) m ρ c (Proc.devRef .tc main_arg5) = W0 (F := Ideal) m ρ c (Proc.devRef .tc main_arg5) from by host_nw).trans h5
  · exact (show W1 (F := Ideal) m ρ c (Proc.devRef .tc main_arg6) = W0 (F := Ideal) m ρ c (Proc.devRef .tc main_arg6) from by host_nw).trans h6
  · exact (show W1 (F := Ideal) m ρ c (Proc.devRef .tc main_arg7) = W0 (F := Ideal) m ρ c (Proc.devRef .tc main_arg7) from by host_nw).trans h7
  · exact (show W1 (F := Ideal) m ρ c (Proc.devRef .tc main_arg8) = W0 (F := Ideal) m ρ c (Proc.devRef .tc main_arg8) from by host_nw).trans h8
  · exact (show W1 (F := Ideal) m ρ c (Proc.devRef .tc main_arg9) = W0 (F := Ideal) m ρ c (Proc.devRef .tc main_arg9) from by host_nw).trans h9
  · exact (show W1 (F := Ideal) m ρ c (Proc.devRef .tc main_arg10) = W0 (F := Ideal) m ρ c (Proc.devRef .tc main_arg10) from by host_nw).trans h10
  · exact (show W1 (F := Ideal) m ρ c (Proc.devRef .tc main_arg11) = W0 (F := Ideal) m ρ c (Proc.devRef .tc main_arg11) from by host_nw).trans h11
  · exact (show W1 (F := Ideal) m ρ c (Proc.devRef .tc main_arg12) = W0 (F := Ideal) m ρ c (Proc.devRef .tc main_arg12) from by host_nw).trans h12
  · exact (show W1 (F := Ideal) m ρ c (Proc.devRef .tc main_arg13) = W0 (F := Ideal) m ρ c (Proc.devRef .tc main_arg13) from by host_nw).trans h13
  · exact (show W1 (F := Ideal) m ρ c (Proc.devRef .tc main_arg14) = W0 (F := Ideal) m ρ c (Proc.devRef .tc main_arg14) from by host_nw).trans h14
  · exact (show W1 (F := Ideal) m ρ c (Proc.devRef .tc main_arg15) = W0 (F := Ideal) m ρ c (Proc.devRef .tc main_arg15) from by host_nw).trans h15
  · exact (show W1 (F := Ideal) m ρ c (Proc.devRef .tc main_arg16) = W0 (F := Ideal) m ρ c (Proc.devRef .tc main_arg16) from by host_nw).trans h16
theorem args2 : ArgsKept m c (W2 (F := Ideal) m ρ c) :=
  have h := args1 m ρ c
  ⟨((W2_arr (F := Ideal) m ρ c 0).trans (((dat0 (F := Ideal) (V1 m ρ) c).arrAt_in 0 rfl _).trans (A_eq0 (V1 m ρ) c 0))).trans h.1,
   (W2_of_ne (F := Ideal) m ρ c main_arg1 (by decide)).trans h.2.1,
   (W2_of_ne (F := Ideal) m ρ c main_arg2 (by decide)).trans h.2.2.1,
   ((W2_arr (F := Ideal) m ρ c 1).trans (((dat0 (F := Ideal) (V1 m ρ) c).arrAt_in 1 rfl _).trans (A_eq0 (V1 m ρ) c 1))).trans h.2.2.2.1,
   (W2_of_ne (F := Ideal) m ρ c main_arg4 (by decide)).trans h.2.2.2.2.1,
   (W2_of_ne (F := Ideal) m ρ c main_arg5 (by decide)).trans h.2.2.2.2.2.1,
   (W2_of_ne (F := Ideal) m ρ c main_arg6 (by decide)).trans h.2.2.2.2.2.2.1,
   (W2_of_ne (F := Ideal) m ρ c main_arg7 (by decide)).trans h.2.2.2.2.2.2.2.1,
   (W2_of_ne (F := Ideal) m ρ c main_arg8 (by decide)).trans h.2.2.2.2.2.2.2.2.1,
   (W2_of_ne (F := Ideal) m ρ c main_arg9 (by decide)).trans h.2.2.2.2.2.2.2.2.2.1,
   (W2_of_ne (F := Ideal) m ρ c main_arg10 (by decide)).trans h.2.2.2.2.2.2.2.2.2.2.1,
   (W2_of_ne (F := Ideal) m ρ c main_arg11 (by decide)).trans h.2.2.2.2.2.2.2.2.2.2.2.1,
   (W2_of_ne (F := Ideal) m ρ c main_arg12 (by decide)).trans h.2.2.2.2.2.2.2.2.2.2.2.2.1,
   (W2_of_ne (F := Ideal) m ρ c main_arg13 (by decide)).trans h.2.2.2.2.2.2.2.2.2.2.2.2.2.1,
   (W2_of_ne (F := Ideal) m ρ c main_arg14 (by decide)).trans h.2.2.2.2.2.2.2.2.2.2.2.2.2.2.1,
   (W2_of_ne (F := Ideal) m ρ c main_arg15 (by decide)).trans h.2.2.2.2.2.2.2.2.2.2.2.2.2.2.2.1,
   (W2_of_ne (F := Ideal) m ρ c main_arg16 (by decide)).trans h.2.2.2.2.2.2.2.2.2.2.2.2.2.2.2.2⟩
theorem args3 : ArgsKept m c (W3 (F := Ideal) m ρ c) := by
  obtain ⟨h0, h1, h2, h3, h4, h5, h6, h7, h8, h9, h10, h11, h12, h13, h14, h15, h16⟩ := args2 m ρ c
  refine ⟨?_, ?_, ?_, ?_, ?_, ?_, ?_, ?_, ?_, ?_, ?_, ?_, ?_, ?_, ?_, ?_, ?_⟩
  · exact (show W3 (F := Ideal) m ρ c (Proc.devRef .tc main_arg0) = W2 (F := Ideal) m ρ c (Proc.devRef .tc main_arg0) from by host_nw).trans h0
  · exact (show W3 (F := Ideal) m ρ c (Proc.devRef .tc main_arg1) = W2 (F := Ideal) m ρ c (Proc.devRef .tc main_arg1) from by host_nw).trans h1
  · exact (show W3 (F := Ideal) m ρ c (Proc.devRef .tc main_arg2) = W2 (F := Ideal) m ρ c (Proc.devRef .tc main_arg2) from by host_nw).trans h2
  · exact (show W3 (F := Ideal) m ρ c (Proc.devRef .tc main_arg3) = W2 (F := Ideal) m ρ c (Proc.devRef .tc main_arg3) from by host_nw).trans h3
  · exact (show W3 (F := Ideal) m ρ c (Proc.devRef .tc main_arg4) = W2 (F := Ideal) m ρ c (Proc.devRef .tc main_arg4) from by host_nw).trans h4
  · exact (show W3 (F := Ideal) m ρ c (Proc.devRef .tc main_arg5) = W2 (F := Ideal) m ρ c (Proc.devRef .tc main_arg5) from by host_nw).trans h5
  · exact (show W3 (F := Ideal) m ρ c (Proc.devRef .tc main_arg6) = W2 (F := Ideal) m ρ c (Proc.devRef .tc main_arg6) from by host_nw).trans h6
  · exact (show W3 (F := Ideal) m ρ c (Proc.devRef .tc main_arg7) = W2 (F := Ideal) m ρ c (Proc.devRef .tc main_arg7) from by host_nw).trans h7
  · exact (show W3 (F := Ideal) m ρ c (Proc.devRef .tc main_arg8) = W2 (F := Ideal) m ρ c (Proc.devRef .tc main_arg8) from by host_nw).trans h8
  · exact (show W3 (F := Ideal) m ρ c (Proc.devRef .tc main_arg9) = W2 (F := Ideal) m ρ c (Proc.devRef .tc main_arg9) from by host_nw).trans h9
  · exact (show W3 (F := Ideal) m ρ c (Proc.devRef .tc main_arg10) = W2 (F := Ideal) m ρ c (Proc.devRef .tc main_arg10) from by host_nw).trans h10
  · exact (show W3 (F := Ideal) m ρ c (Proc.devRef .tc main_arg11) = W2 (F := Ideal) m ρ c (Proc.devRef .tc main_arg11) from by host_nw).trans h11
  · exact (show W3 (F := Ideal) m ρ c (Proc.devRef .tc main_arg12) = W2 (F := Ideal) m ρ c (Proc.devRef .tc main_arg12) from by host_nw).trans h12
  · exact (show W3 (F := Ideal) m ρ c (Proc.devRef .tc main_arg13) = W2 (F := Ideal) m ρ c (Proc.devRef .tc main_arg13) from by host_nw).trans h13
  · exact (show W3 (F := Ideal) m ρ c (Proc.devRef .tc main_arg14) = W2 (F := Ideal) m ρ c (Proc.devRef .tc main_arg14) from by host_nw).trans h14
  · exact (show W3 (F := Ideal) m ρ c (Proc.devRef .tc main_arg15) = W2 (F := Ideal) m ρ c (Proc.devRef .tc main_arg15) from by host_nw).trans h15
  · exact (show W3 (F := Ideal) m ρ c (Proc.devRef .tc main_arg16) = W2 (F := Ideal) m ρ c (Proc.devRef .tc main_arg16) from by host_nw).trans h16
theorem args4 : ArgsKept m c (W4 (F := Ideal) m ρ c) :=
  have h := args3 m ρ c
  ⟨(W4_of_ne (F := Ideal) m ρ c main_arg0 (by decide)).trans h.1,
   ((W4_arr (F := Ideal) m ρ c 0).trans (((dat1 (F := Ideal) (V3 m ρ) c).arrAt_in 0 rfl _).trans (A_eq1 (V3 m ρ) c 0))).trans h.2.1,
   (W4_of_ne (F := Ideal) m ρ c main_arg2 (by decide)).trans h.2.2.1,
   (W4_of_ne (F := Ideal) m ρ c main_arg3 (by decide)).trans h.2.2.2.1,
   (W4_of_ne (F := Ideal) m ρ c main_arg4 (by decide)).trans h.2.2.2.2.1,
   ((W4_arr (F := Ideal) m ρ c 1).trans (((dat1 (F := Ideal) (V3 m ρ) c).arrAt_in 1 rfl _).trans (A_eq1 (V3 m ρ) c 1))).trans h.2.2.2.2.2.1,
   (W4_of_ne (F := Ideal) m ρ c main_arg6 (by decide)).trans h.2.2.2.2.2.2.1,
   (W4_of_ne (F := Ideal) m ρ c main_arg7 (by decide)).trans h.2.2.2.2.2.2.2.1,
   (W4_of_ne (F := Ideal) m ρ c main_arg8 (by decide)).trans h.2.2.2.2.2.2.2.2.1,
   (W4_of_ne (F := Ideal) m ρ c main_arg9 (by decide)).trans h.2.2.2.2.2.2.2.2.2.1,
   (W4_of_ne (F := Ideal) m ρ c main_arg10 (by decide)).trans h.2.2.2.2.2.2.2.2.2.2.1,
   (W4_of_ne (F := Ideal) m ρ c main_arg11 (by decide)).trans h.2.2.2.2.2.2.2.2.2.2.2.1,
   (W4_of_ne (F := Ideal) m ρ c main_arg12 (by decide)).trans h.2.2.2.2.2.2.2.2.2.2.2.2.1,
   (W4_of_ne (F := Ideal) m ρ c main_arg13 (by decide)).trans h.2.2.2.2.2.2.2.2.2.2.2.2.2.1,
   (W4_of_ne (F := Ideal) m ρ c main_arg14 (by decide)).trans h.2.2.2.2.2.2.2.2.2.2.2.2.2.2.1,
   (W4_of_ne (F := Ideal) m ρ c main_arg15 (by decide)).trans h.2.2.2.2.2.2.2.2.2.2.2.2.2.2.2.1,
   (W4_of_ne (F := Ideal) m ρ c main_arg16 (by decide)).trans h.2.2.2.2.2.2.2.2.2.2.2.2.2.2.2.2⟩
theorem args5 : ArgsKept m c (W5 (F := Ideal) m ρ c) := by
  obtain ⟨h0, h1, h2, h3, h4, h5, h6, h7, h8, h9, h10, h11, h12, h13, h14, h15, h16⟩ := args4 m ρ c
  refine ⟨?_, ?_, ?_, ?_, ?_, ?_, ?_, ?_, ?_, ?_, ?_, ?_, ?_, ?_, ?_, ?_, ?_⟩
  · exact (show W5 (F := Ideal) m ρ c (Proc.devRef .tc main_arg0) = W4 (F := Ideal) m ρ c (Proc.devRef .tc main_arg0) from by host_nw).trans h0
  · exact (show W5 (F := Ideal) m ρ c (Proc.devRef .tc main_arg1) = W4 (F := Ideal) m ρ c (Proc.devRef .tc main_arg1) from by host_nw).trans h1
  · exact (show W5 (F := Ideal) m ρ c (Proc.devRef .tc main_arg2) = W4 (F := Ideal) m ρ c (Proc.devRef .tc main_arg2) from by host_nw).trans h2
  · exact (show W5 (F := Ideal) m ρ c (Proc.devRef .tc main_arg3) = W4 (F := Ideal) m ρ c (Proc.devRef .tc main_arg3) from by host_nw).trans h3
  · exact (show W5 (F := Ideal) m ρ c (Proc.devRef .tc main_arg4) = W4 (F := Ideal) m ρ c (Proc.devRef .tc main_arg4) from by host_nw).trans h4
  · exact (show W5 (F := Ideal) m ρ c (Proc.devRef .tc main_arg5) = W4 (F := Ideal) m ρ c (Proc.devRef .tc main_arg5) from by host_nw).trans h5
  · exact (show W5 (F := Ideal) m ρ c (Proc.devRef .tc main_arg6) = W4 (F := Ideal) m ρ c (Proc.devRef .tc main_arg6) from by host_nw).trans h6
  · exact (show W5 (F := Ideal) m ρ c (Proc.devRef .tc main_arg7) = W4 (F := Ideal) m ρ c (Proc.devRef .tc main_arg7) from by host_nw).trans h7
  · exact (show W5 (F := Ideal) m ρ c (Proc.devRef .tc main_arg8) = W4 (F := Ideal) m ρ c (Proc.devRef .tc main_arg8) from by host_nw).trans h8
  · exact (show W5 (F := Ideal) m ρ c (Proc.devRef .tc main_arg9) = W4 (F := Ideal) m ρ c (Proc.devRef .tc main_arg9) from by host_nw).trans h9
  · exact (show W5 (F := Ideal) m ρ c (Proc.devRef .tc main_arg10) = W4 (F := Ideal) m ρ c (Proc.devRef .tc main_arg10) from by host_nw).trans h10
  · exact (show W5 (F := Ideal) m ρ c (Proc.devRef .tc main_arg11) = W4 (F := Ideal) m ρ c (Proc.devRef .tc main_arg11) from by host_nw).trans h11
  · exact (show W5 (F := Ideal) m ρ c (Proc.devRef .tc main_arg12) = W4 (F := Ideal) m ρ c (Proc.devRef .tc main_arg12) from by host_nw).trans h12
  · exact (show W5 (F := Ideal) m ρ c (Proc.devRef .tc main_arg13) = W4 (F := Ideal) m ρ c (Proc.devRef .tc main_arg13) from by host_nw).trans h13
  · exact (show W5 (F := Ideal) m ρ c (Proc.devRef .tc main_arg14) = W4 (F := Ideal) m ρ c (Proc.devRef .tc main_arg14) from by host_nw).trans h14
  · exact (show W5 (F := Ideal) m ρ c (Proc.devRef .tc main_arg15) = W4 (F := Ideal) m ρ c (Proc.devRef .tc main_arg15) from by host_nw).trans h15
  · exact (show W5 (F := Ideal) m ρ c (Proc.devRef .tc main_arg16) = W4 (F := Ideal) m ρ c (Proc.devRef .tc main_arg16) from by host_nw).trans h16
theorem args6 : ArgsKept m c (W6 (F := Ideal) m ρ c) :=
  have h := args5 m ρ c
  ⟨(W6_of_ne (F := Ideal) m ρ c main_arg0 (by decide)).trans h.1,
   (W6_of_ne (F := Ideal) m ρ c main_arg1 (by decide)).trans h.2.1,
   (W6_of_ne (F := Ideal) m ρ c main_arg2 (by decide)).trans h.2.2.1,
   (W6_of_ne (F := Ideal) m ρ c main_arg3 (by decide)).trans h.2.2.2.1,
   (W6_of_ne (F := Ideal) m ρ c main_arg4 (by decide)).trans h.2.2.2.2.1,
   (W6_of_ne (F := Ideal) m ρ c main_arg5 (by decide)).trans h.2.2.2.2.2.1,
   (W6_of_ne (F := Ideal) m ρ c main_arg6 (by decide)).trans h.2.2.2.2.2.2.1,
   (W6_of_ne (F := Ideal) m ρ c main_arg7 (by decide)).trans h.2.2.2.2.2.2.2.1,
   (W6_of_ne (F := Ideal) m ρ c main_arg8 (by decide)).trans h.2.2.2.2.2.2.2.2.1,
   (W6_of_ne (F := Ideal) m ρ c main_arg9 (by decide)).trans h.2.2.2.2.2.2.2.2.2.1,
   (W6_of_ne (F := Ideal) m ρ c main_arg10 (by decide)).trans h.2.2.2.2.2.2.2.2.2.2.1,
   (W6_of_ne (F := Ideal) m ρ c main_arg11 (by decide)).trans h.2.2.2.2.2.2.2.2.2.2.2.1,
   (W6_of_ne (F := Ideal) m ρ c main_arg12 (by decide)).trans h.2.2.2.2.2.2.2.2.2.2.2.2.1,
   (W6_of_ne (F := Ideal) m ρ c main_arg13 (by decide)).trans h.2.2.2.2.2.2.2.2.2.2.2.2.2.1,
   (W6_of_ne (F := Ideal) m ρ c main_arg14 (by decide)).trans h.2.2.2.2.2.2.2.2.2.2.2.2.2.2.1,
   (W6_of_ne (F := Ideal) m ρ c main_arg15 (by decide)).trans h.2.2.2.2.2.2.2.2.2.2.2.2.2.2.2.1,
   (W6_of_ne (F := Ideal) m ρ c main_arg16 (by decide)).trans h.2.2.2.2.2.2.2.2.2.2.2.2.2.2.2.2⟩
theorem args7 : ArgsKept m c (W7 (F := Ideal) m ρ c) := by
  obtain ⟨h0, h1, h2, h3, h4, h5, h6, h7, h8, h9, h10, h11, h12, h13, h14, h15, h16⟩ := args6 m ρ c
  refine ⟨?_, ?_, ?_, ?_, ?_, ?_, ?_, ?_, ?_, ?_, ?_, ?_, ?_, ?_, ?_, ?_, ?_⟩
  · exact (show W7 (F := Ideal) m ρ c (Proc.devRef .tc main_arg0) = W6 (F := Ideal) m ρ c (Proc.devRef .tc main_arg0) from by host_nw).trans h0
  · exact (show W7 (F := Ideal) m ρ c (Proc.devRef .tc main_arg1) = W6 (F := Ideal) m ρ c (Proc.devRef .tc main_arg1) from by host_nw).trans h1
  · exact (show W7 (F := Ideal) m ρ c (Proc.devRef .tc main_arg2) = W6 (F := Ideal) m ρ c (Proc.devRef .tc main_arg2) from by host_nw).trans h2
  · exact (show W7 (F := Ideal) m ρ c (Proc.devRef .tc main_arg3) = W6 (F := Ideal) m ρ c (Proc.devRef .tc main_arg3) from by host_nw).trans h3
  · exact (show W7 (F := Ideal) m ρ c (Proc.devRef .tc main_arg4) = W6 (F := Ideal) m ρ c (Proc.devRef .tc main_arg4) from by host_nw).trans h4
  · exact (show W7 (F := Ideal) m ρ c (Proc.devRef .tc main_arg5) = W6 (F := Ideal) m ρ c (Proc.devRef .tc main_arg5) from by host_nw).trans h5
  · exact (show W7 (F := Ideal) m ρ c (Proc.devRef .tc main_arg6) = W6 (F := Ideal) m ρ c (Proc.devRef .tc main_arg6) from by host_nw).trans h6
  · exact (show W7 (F := Ideal) m ρ c (Proc.devRef .tc main_arg7) = W6 (F := Ideal) m ρ c (Proc.devRef .tc main_arg7) from by host_nw).trans h7
  · exact (show W7 (F := Ideal) m ρ c (Proc.devRef .tc main_arg8) = W6 (F := Ideal) m ρ c (Proc.devRef .tc main_arg8) from by host_nw).trans h8
  · exact (show W7 (F := Ideal) m ρ c (Proc.devRef .tc main_arg9) = W6 (F := Ideal) m ρ c (Proc.devRef .tc main_arg9) from by host_nw).trans h9
  · exact (show W7 (F := Ideal) m ρ c (Proc.devRef .tc main_arg10) = W6 (F := Ideal) m ρ c (Proc.devRef .tc main_arg10) from by host_nw).trans h10
  · exact (show W7 (F := Ideal) m ρ c (Proc.devRef .tc main_arg11) = W6 (F := Ideal) m ρ c (Proc.devRef .tc main_arg11) from by host_nw).trans h11
  · exact (show W7 (F := Ideal) m ρ c (Proc.devRef .tc main_arg12) = W6 (F := Ideal) m ρ c (Proc.devRef .tc main_arg12) from by host_nw).trans h12
  · exact (show W7 (F := Ideal) m ρ c (Proc.devRef .tc main_arg13) = W6 (F := Ideal) m ρ c (Proc.devRef .tc main_arg13) from by host_nw).trans h13
  · exact (show W7 (F := Ideal) m ρ c (Proc.devRef .tc main_arg14) = W6 (F := Ideal) m ρ c (Proc.devRef .tc main_arg14) from by host_nw).trans h14
  · exact (show W7 (F := Ideal) m ρ c (Proc.devRef .tc main_arg15) = W6 (F := Ideal) m ρ c (Proc.devRef .tc main_arg15) from by host_nw).trans h15
  · exact (show W7 (F := Ideal) m ρ c (Proc.devRef .tc main_arg16) = W6 (F := Ideal) m ρ c (Proc.devRef .tc main_arg16) from by host_nw).trans h16
theorem args8 : ArgsKept m c (W8 (F := Ideal) m ρ c) :=
  have h := args7 m ρ c
  ⟨(W8_of_ne (F := Ideal) m ρ c main_arg0 (by decide)).trans h.1,
   (W8_of_ne (F := Ideal) m ρ c main_arg1 (by decide)).trans h.2.1,
   (W8_of_ne (F := Ideal) m ρ c main_arg2 (by decide)).trans h.2.2.1,
   (W8_of_ne (F := Ideal) m ρ c main_arg3 (by decide)).trans h.2.2.2.1,
   (W8_of_ne (F := Ideal) m ρ c main_arg4 (by decide)).trans h.2.2.2.2.1,
   (W8_of_ne (F := Ideal) m ρ c main_arg5 (by decide)).trans h.2.2.2.2.2.1,
   (W8_of_ne (F := Ideal) m ρ c main_arg6 (by decide)).trans h.2.2.2.2.2.2.1,
   ((W8_arr (F := Ideal) m ρ c 2).trans (((dat3 (F := Ideal) (V7 m ρ) c).arrAt_in 2 rfl _).trans (A_eq3 (V7 m ρ) c 2))).trans h.2.2.2.2.2.2.2.1,
   (W8_of_ne (F := Ideal) m ρ c main_arg8 (by decide)).trans h.2.2.2.2.2.2.2.2.1,
   ((W8_arr (F := Ideal) m ρ c 4).trans (((dat3 (F := Ideal) (V7 m ρ) c).arrAt_in 4 rfl _).trans (A_eq3 (V7 m ρ) c 4))).trans h.2.2.2.2.2.2.2.2.2.1,
   (W8_of_ne (F := Ideal) m ρ c main_arg10 (by decide)).trans h.2.2.2.2.2.2.2.2.2.2.1,
   (W8_of_ne (F := Ideal) m ρ c main_arg11 (by decide)).trans h.2.2.2.2.2.2.2.2.2.2.2.1,
   (W8_of_ne (F := Ideal) m ρ c main_arg12 (by decide)).trans h.2.2.2.2.2.2.2.2.2.2.2.2.1,
   (W8_of_ne (F := Ideal) m ρ c main_arg13 (by decide)).trans h.2.2.2.2.2.2.2.2.2.2.2.2.2.1,
   (W8_of_ne (F := Ideal) m ρ c main_arg14 (by decide)).trans h.2.2.2.2.2.2.2.2.2.2.2.2.2.2.1,
   (W8_of_ne (F := Ideal) m ρ c main_arg15 (by decide)).trans h.2.2.2.2.2.2.2.2.2.2.2.2.2.2.2.1,
   (W8_of_ne (F := Ideal) m ρ c main_arg16 (by decide)).trans h.2.2.2.2.2.2.2.2.2.2.2.2.2.2.2.2⟩
theorem args9 : ArgsKept m c (W9 (F := Ideal) m ρ c) := by
  obtain ⟨h0, h1, h2, h3, h4, h5, h6, h7, h8, h9, h10, h11, h12, h13, h14, h15, h16⟩ := args8 m ρ c
  refine ⟨?_, ?_, ?_, ?_, ?_, ?_, ?_, ?_, ?_, ?_, ?_, ?_, ?_, ?_, ?_, ?_, ?_⟩
  · exact (show W9 (F := Ideal) m ρ c (Proc.devRef .tc main_arg0) = W8 (F := Ideal) m ρ c (Proc.devRef .tc main_arg0) from by host_nw).trans h0
  · exact (show W9 (F := Ideal) m ρ c (Proc.devRef .tc main_arg1) = W8 (F := Ideal) m ρ c (Proc.devRef .tc main_arg1) from by host_nw).trans h1
  · exact (show W9 (F := Ideal) m ρ c (Proc.devRef .tc main_arg2) = W8 (F := Ideal) m ρ c (Proc.devRef .tc main_arg2) from by host_nw).trans h2
  · exact (show W9 (F := Ideal) m ρ c (Proc.devRef .tc main_arg3) = W8 (F := Ideal) m ρ c (Proc.devRef .tc main_arg3) from by host_nw).trans h3
  · exact (show W9 (F := Ideal) m ρ c (Proc.devRef .tc main_arg4) = W8 (F := Ideal) m ρ c (Proc.devRef .tc main_arg4) from by host_nw).trans h4
  · exact (show W9 (F := Ideal) m ρ c (Proc.devRef .tc main_arg5) = W8 (F := Ideal) m ρ c (Proc.devRef .tc main_arg5) from by host_nw).trans h5
  · exact (show W9 (F := Ideal) m ρ c (Proc.devRef .tc main_arg6) = W8 (F := Ideal) m ρ c (Proc.devRef .tc main_arg6) from by host_nw).trans h6
  · exact (show W9 (F := Ideal) m ρ c (Proc.devRef .tc main_arg7) = W8 (F := Ideal) m ρ c (Proc.devRef .tc main_arg7) from by host_nw).trans h7
  · exact (show W9 (F := Ideal) m ρ c (Proc.devRef .tc main_arg8) = W8 (F := Ideal) m ρ c (Proc.devRef .tc main_arg8) from by host_nw).trans h8
  · exact (show W9 (F := Ideal) m ρ c (Proc.devRef .tc main_arg9) = W8 (F := Ideal) m ρ c (Proc.devRef .tc main_arg9) from by host_nw).trans h9
  · exact (show W9 (F := Ideal) m ρ c (Proc.devRef .tc main_arg10) = W8 (F := Ideal) m ρ c (Proc.devRef .tc main_arg10) from by host_nw).trans h10
  · exact (show W9 (F := Ideal) m ρ c (Proc.devRef .tc main_arg11) = W8 (F := Ideal) m ρ c (Proc.devRef .tc main_arg11) from by host_nw).trans h11
  · exact (show W9 (F := Ideal) m ρ c (Proc.devRef .tc main_arg12) = W8 (F := Ideal) m ρ c (Proc.devRef .tc main_arg12) from by host_nw).trans h12
  · exact (show W9 (F := Ideal) m ρ c (Proc.devRef .tc main_arg13) = W8 (F := Ideal) m ρ c (Proc.devRef .tc main_arg13) from by host_nw).trans h13
  · exact (show W9 (F := Ideal) m ρ c (Proc.devRef .tc main_arg14) = W8 (F := Ideal) m ρ c (Proc.devRef .tc main_arg14) from by host_nw).trans h14
  · exact (show W9 (F := Ideal) m ρ c (Proc.devRef .tc main_arg15) = W8 (F := Ideal) m ρ c (Proc.devRef .tc main_arg15) from by host_nw).trans h15
  · exact (show W9 (F := Ideal) m ρ c (Proc.devRef .tc main_arg16) = W8 (F := Ideal) m ρ c (Proc.devRef .tc main_arg16) from by host_nw).trans h16
theorem args10 : ArgsKept m c (W10 (F := Ideal) m ρ c) := by
  obtain ⟨h0, h1, h2, h3, h4, h5, h6, h7, h8, h9, h10, h11, h12, h13, h14, h15, h16⟩ := args9 m ρ c
  refine ⟨?_, ?_, ?_, ?_, ?_, ?_, ?_, ?_, ?_, ?_, ?_, ?_, ?_, ?_, ?_, ?_, ?_⟩
  · exact (show W10 (F := Ideal) m ρ c (Proc.devRef .tc main_arg0) = W9 (F := Ideal) m ρ c (Proc.devRef .tc main_arg0) from by host_nw).trans h0
  · exact (show W10 (F := Ideal) m ρ c (Proc.devRef .tc main_arg1) = W9 (F := Ideal) m ρ c (Proc.devRef .tc main_arg1) from by host_nw).trans h1
  · exact (show W10 (F := Ideal) m ρ c (Proc.devRef .tc main_arg2) = W9 (F := Ideal) m ρ c (Proc.devRef .tc main_arg2) from by host_nw).trans h2
  · exact (show W10 (F := Ideal) m ρ c (Proc.devRef .tc main_arg3) = W9 (F := Ideal) m ρ c (Proc.devRef .tc main_arg3) from by host_nw).trans h3
  · exact (show W10 (F := Ideal) m ρ c (Proc.devRef .tc main_arg4) = W9 (F := Ideal) m ρ c (Proc.devRef .tc main_arg4) from by host_nw).trans h4
  · exact (show W10 (F := Ideal) m ρ c (Proc.devRef .tc main_arg5) = W9 (F := Ideal) m ρ c (Proc.devRef .tc main_arg5) from by host_nw).trans h5
  · exact (show W10 (F := Ideal) m ρ c (Proc.devRef .tc main_arg6) = W9 (F := Ideal) m ρ c (Proc.devRef .tc main_arg6) from by host_nw).trans h6
  · exact (show W10 (F := Ideal) m ρ c (Proc.devRef .tc main_arg7) = W9 (F := Ideal) m ρ c (Proc.devRef .tc main_arg7) from by host_nw).trans h7
  · exact (show W10 (F := Ideal) m ρ c (Proc.devRef .tc main_arg8) = W9 (F := Ideal) m ρ c (Proc.devRef .tc main_arg8) from by host_nw).trans h8
  · exact (show W10 (F := Ideal) m ρ c (Proc.devRef .tc main_arg9) = W9 (F := Ideal) m ρ c (Proc.devRef .tc main_arg9) from by host_nw).trans h9
  · exact (show W10 (F := Ideal) m ρ c (Proc.devRef .tc main_arg10) = W9 (F := Ideal) m ρ c (Proc.devRef .tc main_arg10) from by host_nw).trans h10
  · exact (show W10 (F := Ideal) m ρ c (Proc.devRef .tc main_arg11) = W9 (F := Ideal) m ρ c (Proc.devRef .tc main_arg11) from by host_nw).trans h11
  · exact (show W10 (F := Ideal) m ρ c (Proc.devRef .tc main_arg12) = W9 (F := Ideal) m ρ c (Proc.devRef .tc main_arg12) from by host_nw).trans h12
  · exact (show W10 (F := Ideal) m ρ c (Proc.devRef .tc main_arg13) = W9 (F := Ideal) m ρ c (Proc.devRef .tc main_arg13) from by host_nw).trans h13
  · exact (show W10 (F := Ideal) m ρ c (Proc.devRef .tc main_arg14) = W9 (F := Ideal) m ρ c (Proc.devRef .tc main_arg14) from by host_nw).trans h14
  · exact (show W10 (F := Ideal) m ρ c (Proc.devRef .tc main_arg15) = W9 (F := Ideal) m ρ c (Proc.devRef .tc main_arg15) from by host_nw).trans h15
  · exact (show W10 (F := Ideal) m ρ c (Proc.devRef .tc main_arg16) = W9 (F := Ideal) m ρ c (Proc.devRef .tc main_arg16) from by host_nw).trans h16
theorem args11 : ArgsKept m c (W11 (F := Ideal) m ρ c) := by
  obtain ⟨h0, h1, h2, h3, h4, h5, h6, h7, h8, h9, h10, h11, h12, h13, h14, h15, h16⟩ := args10 m ρ c
  refine ⟨?_, ?_, ?_, ?_, ?_, ?_, ?_, ?_, ?_, ?_, ?_, ?_, ?_, ?_, ?_, ?_, ?_⟩
  · exact (show W11 (F := Ideal) m ρ c (Proc.devRef .tc main_arg0) = W10 (F := Ideal) m ρ c (Proc.devRef .tc main_arg0) from by host_nw).trans h0
  · exact (show W11 (F := Ideal) m ρ c (Proc.devRef .tc main_arg1) = W10 (F := Ideal) m ρ c (Proc.devRef .tc main_arg1) from by host_nw).trans h1
  · exact (show W11 (F := Ideal) m ρ c (Proc.devRef .tc main_arg2) = W10 (F := Ideal) m ρ c (Proc.devRef .tc main_arg2) from by host_nw).trans h2
  · exact (show W11 (F := Ideal) m ρ c (Proc.devRef .tc main_arg3) = W10 (F := Ideal) m ρ c (Proc.devRef .tc main_arg3) from by host_nw).trans h3
  · exact (show W11 (F := Ideal) m ρ c (Proc.devRef .tc main_arg4) = W10 (F := Ideal) m ρ c (Proc.devRef .tc main_arg4) from by host_nw).trans h4
  · exact (show W11 (F := Ideal) m ρ c (Proc.devRef .tc main_arg5) = W10 (F := Ideal) m ρ c (Proc.devRef .tc main_arg5) from by host_nw).trans h5
  · exact (show W11 (F := Ideal) m ρ c (Proc.devRef .tc main_arg6) = W10 (F := Ideal) m ρ c (Proc.devRef .tc main_arg6) from by host_nw).trans h6
  · exact (show W11 (F := Ideal) m ρ c (Proc.devRef .tc main_arg7) = W10 (F := Ideal) m ρ c (Proc.devRef .tc main_arg7) from by host_nw).trans h7
  · exact (show W11 (F := Ideal) m ρ c (Proc.devRef .tc main_arg8) = W10 (F := Ideal) m ρ c (Proc.devRef .tc main_arg8) from by host_nw).trans h8
  · exact (show W11 (F := Ideal) m ρ c (Proc.devRef .tc main_arg9) = W10 (F := Ideal) m ρ c (Proc.devRef .tc main_arg9) from by host_nw).trans h9
  · exact (show W11 (F := Ideal) m ρ c (Proc.devRef .tc main_arg10) = W10 (F := Ideal) m ρ c (Proc.devRef .tc main_arg10) from by host_nw).trans h10
  · exact (show W11 (F := Ideal) m ρ c (Proc.devRef .tc main_arg11) = W10 (F := Ideal) m ρ c (Proc.devRef .tc main_arg11) from by host_nw).trans h11
  · exact (show W11 (F := Ideal) m ρ c (Proc.devRef .tc main_arg12) = W10 (F := Ideal) m ρ c (Proc.devRef .tc main_arg12) from by host_nw).trans h12
  · exact (show W11 (F := Ideal) m ρ c (Proc.devRef .tc main_arg13) = W10 (F := Ideal) m ρ c (Proc.devRef .tc main_arg13) from by host_nw).trans h13
  · exact (show W11 (F := Ideal) m ρ c (Proc.devRef .tc main_arg14) = W10 (F := Ideal) m ρ c (Proc.devRef .tc main_arg14) from by host_nw).trans h14
  · exact (show W11 (F := Ideal) m ρ c (Proc.devRef .tc main_arg15) = W10 (F := Ideal) m ρ c (Proc.devRef .tc main_arg15) from by host_nw).trans h15
  · exact (show W11 (F := Ideal) m ρ c (Proc.devRef .tc main_arg16) = W10 (F := Ideal) m ρ c (Proc.devRef .tc main_arg16) from by host_nw).trans h16
theorem args12 : ArgsKept m c (W12 (F := Ideal) m ρ c) :=
  have h := args11 m ρ c
  ⟨(W12_of_ne (F := Ideal) m ρ c main_arg0 (by decide)).trans h.1,
   (W12_of_ne (F := Ideal) m ρ c main_arg1 (by decide)).trans h.2.1,
   (W12_of_ne (F := Ideal) m ρ c main_arg2 (by decide)).trans h.2.2.1,
   (W12_of_ne (F := Ideal) m ρ c main_arg3 (by decide)).trans h.2.2.2.1,
   (W12_of_ne (F := Ideal) m ρ c main_arg4 (by decide)).trans h.2.2.2.2.1,
   (W12_of_ne (F := Ideal) m ρ c main_arg5 (by decide)).trans h.2.2.2.2.2.1,
   (W12_of_ne (F := Ideal) m ρ c main_arg6 (by decide)).trans h.2.2.2.2.2.2.1,
   (W12_of_ne (F := Ideal) m ρ c main_arg7 (by decide)).trans h.2.2.2.2.2.2.2.1,
   (W12_of_ne (F := Ideal) m ρ c main_arg8 (by decide)).trans h.2.2.2.2.2.2.2.2.1,
   (W12_of_ne (F := Ideal) m ρ c main_arg9 (by decide)).trans h.2.2.2.2.2.2.2.2.2.1,
   (W12_of_ne (F := Ideal) m ρ c main_arg10 (by decide)).trans h.2.2.2.2.2.2.2.2.2.2.1,
   (W12_of_ne (F := Ideal) m ρ c main_arg11 (by decide)).trans h.2.2.2.2.2.2.2.2.2.2.2.1,
   (W12_of_ne (F := Ideal) m ρ c main_arg12 (by decide)).trans h.2.2.2.2.2.2.2.2.2.2.2.2.1,
   (W12_of_ne (F := Ideal) m ρ c main_arg13 (by decide)).trans h.2.2.2.2.2.2.2.2.2.2.2.2.2.1,
   (W12_of_ne (F := Ideal) m ρ c main_arg14 (by decide)).trans h.2.2.2.2.2.2.2.2.2.2.2.2.2.2.1,
   (W12_of_ne (F := Ideal) m ρ c main_arg15 (by decide)).trans h.2.2.2.2.2.2.2.2.2.2.2.2.2.2.2.1,
   (W12_of_ne (F := Ideal) m ρ c main_arg16 (by decide)).trans h.2.2.2.2.2.2.2.2.2.2.2.2.2.2.2.2⟩
theorem args13 : ArgsKept m c (W13 (F := Ideal) m ρ c) := by
  obtain ⟨h0, h1, h2, h3, h4, h5, h6, h7, h8, h9, h10, h11, h12, h13, h14, h15, h16⟩ := args12 m ρ c
  refine ⟨?_, ?_, ?_, ?_, ?_, ?_, ?_, ?_, ?_, ?_, ?_, ?_, ?_, ?_, ?_, ?_, ?_⟩
  · exact (show W13 (F := Ideal) m ρ c (Proc.devRef .tc main_arg0) = W12 (F := Ideal) m ρ c (Proc.devRef .tc main_arg0) from by host_nw).trans h0
  · exact (show W13 (F := Ideal) m ρ c (Proc.devRef .tc main_arg1) = W12 (F := Ideal) m ρ c (Proc.devRef .tc main_arg1) from by host_nw).trans h1
  · exact (show W13 (F := Ideal) m ρ c (Proc.devRef .tc main_arg2) = W12 (F := Ideal) m ρ c (Proc.devRef .tc main_arg2) from by host_nw).trans h2
  · exact (show W13 (F := Ideal) m ρ c (Proc.devRef .tc main_arg3) = W12 (F := Ideal) m ρ c (Proc.devRef .tc main_arg3) from by host_nw).trans h3
  · exact (show W13 (F := Ideal) m ρ c (Proc.devRef .tc main_arg4) = W12 (F := Ideal) m ρ c (Proc.devRef .tc main_arg4) from by host_nw).trans h4
  · exact (show W13 (F := Ideal) m ρ c (Proc.devRef .tc main_arg5) = W12 (F := Ideal) m ρ c (Proc.devRef .tc main_arg5) from by host_nw).trans h5
  · exact (show W13 (F := Ideal) m ρ c (Proc.devRef .tc main_arg6) = W12 (F := Ideal) m ρ c (Proc.devRef .tc main_arg6) from by host_nw).trans h6
  · exact (show W13 (F := Ideal) m ρ c (Proc.devRef .tc main_arg7) = W12 (F := Ideal) m ρ c (Proc.devRef .tc main_arg7) from by host_nw).trans h7
  · exact (show W13 (F := Ideal) m ρ c (Proc.devRef .tc main_arg8) = W12 (F := Ideal) m ρ c (Proc.devRef .tc main_arg8) from by host_nw).trans h8
  · exact (show W13 (F := Ideal) m ρ c (Proc.devRef .tc main_arg9) = W12 (F := Ideal) m ρ c (Proc.devRef .tc main_arg9) from by host_nw).trans h9
  · exact (show W13 (F := Ideal) m ρ c (Proc.devRef .tc main_arg10) = W12 (F := Ideal) m ρ c (Proc.devRef .tc main_arg10) from by host_nw).trans h10
  · exact (show W13 (F := Ideal) m ρ c (Proc.devRef .tc main_arg11) = W12 (F := Ideal) m ρ c (Proc.devRef .tc main_arg11) from by host_nw).trans h11
  · exact (show W13 (F := Ideal) m ρ c (Proc.devRef .tc main_arg12) = W12 (F := Ideal) m ρ c (Proc.devRef .tc main_arg12) from by host_nw).trans h12
  · exact (show W13 (F := Ideal) m ρ c (Proc.devRef .tc main_arg13) = W12 (F := Ideal) m ρ c (Proc.devRef .tc main_arg13) from by host_nw).trans h13
  · exact (show W13 (F := Ideal) m ρ c (Proc.devRef .tc main_arg14) = W12 (F := Ideal) m ρ c (Proc.devRef .tc main_arg14) from by host_nw).trans h14
  · exact (show W13 (F := Ideal) m ρ c (Proc.devRef .tc main_arg15) = W12 (F := Ideal) m ρ c (Proc.devRef .tc main_arg15) from by host_nw).trans h15
  · exact (show W13 (F := Ideal) m ρ c (Proc.devRef .tc main_arg16) = W12 (F := Ideal) m ρ c (Proc.devRef .tc main_arg16) from by host_nw).trans h16
theorem args14 : ArgsKept m c (W14 (F := Ideal) m ρ c) :=
  have h := args13 m ρ c
  ⟨(W14_of_ne (F := Ideal) m ρ c main_arg0 (by decide)).trans h.1,
   (W14_of_ne (F := Ideal) m ρ c main_arg1 (by decide)).trans h.2.1,
   (W14_of_ne (F := Ideal) m ρ c main_arg2 (by decide)).trans h.2.2.1,
   (W14_of_ne (F := Ideal) m ρ c main_arg3 (by decide)).trans h.2.2.2.1,
   (W14_of_ne (F := Ideal) m ρ c main_arg4 (by decide)).trans h.2.2.2.2.1,
   (W14_of_ne (F := Ideal) m ρ c main_arg5 (by decide)).trans h.2.2.2.2.2.1,
   (W14_of_ne (F := Ideal) m ρ c main_arg6 (by decide)).trans h.2.2.2.2.2.2.1,
   (W14_of_ne (F := Ideal) m ρ c main_arg7 (by decide)).trans h.2.2.2.2.2.2.2.1,
   (W14_of_ne (F := Ideal) m ρ c main_arg8 (by decide)).trans h.2.2.2.2.2.2.2.2.1,
   (W14_of_ne (F := Ideal) m ρ c main_arg9 (by decide)).trans h.2.2.2.2.2.2.2.2.2.1,
   (W14_of_ne (F := Ideal) m ρ c main_arg10 (by decide)).trans h.2.2.2.2.2.2.2.2.2.2.1,
   ((W14_arr (F := Ideal) m ρ c 2).trans (((dat5 (F := Ideal) (V13 m ρ) c).arrAt_in 2 rfl _).trans (A_eq5 (V13 m ρ) c 2))).trans h.2.2.2.2.2.2.2.2.2.2.2.1,
   (W14_of_ne (F := Ideal) m ρ c main_arg12 (by decide)).trans h.2.2.2.2.2.2.2.2.2.2.2.2.1,
   ((W14_arr (F := Ideal) m ρ c 4).trans (((dat5 (F := Ideal) (V13 m ρ) c).arrAt_in 4 rfl _).trans (A_eq5 (V13 m ρ) c 4))).trans h.2.2.2.2.2.2.2.2.2.2.2.2.2.1,
   (W14_of_ne (F := Ideal) m ρ c main_arg14 (by decide)).trans h.2.2.2.2.2.2.2.2.2.2.2.2.2.2.1,
   (W14_of_ne (F := Ideal) m ρ c main_arg15 (by decide)).trans h.2.2.2.2.2.2.2.2.2.2.2.2.2.2.2.1,
   (W14_of_ne (F := Ideal) m ρ c main_arg16 (by decide)).trans h.2.2.2.2.2.2.2.2.2.2.2.2.2.2.2.2⟩
theorem args15 : ArgsKept m c (W15 (F := Ideal) m ρ c) := by
  obtain ⟨h0, h1, h2, h3, h4, h5, h6, h7, h8, h9, h10, h11, h12, h13, h14, h15, h16⟩ := args14 m ρ c
  refine ⟨?_, ?_, ?_, ?_, ?_, ?_, ?_, ?_, ?_, ?_, ?_, ?_, ?_, ?_, ?_, ?_, ?_⟩
  · exact (show W15 (F := Ideal) m ρ c (Proc.devRef .tc main_arg0) = W14 (F := Ideal) m ρ c (Proc.devRef .tc main_arg0) from by host_nw).trans h0
  · exact (show W15 (F := Ideal) m ρ c (Proc.devRef .tc main_arg1) = W14 (F := Ideal) m ρ c (Proc.devRef .tc main_arg1) from by host_nw).trans h1
  · exact (show W15 (F := Ideal) m ρ c (Proc.devRef .tc main_arg2) = W14 (F := Ideal) m ρ c (Proc.devRef .tc main_arg2) from by host_nw).trans h2
  · exact (show W15 (F := Ideal) m ρ c (Proc.devRef .tc main_arg3) = W14 (F := Ideal) m ρ c (Proc.devRef .tc main_arg3) from by host_nw).trans h3
  · exact (show W15 (F := Ideal) m ρ c (Proc.devRef .tc main_arg4) = W14 (F := Ideal) m ρ c (Proc.devRef .tc main_arg4) from by host_nw).trans h4
  · exact (show W15 (F := Ideal) m ρ c (Proc.devRef .tc main_arg5) = W14 (F := Ideal) m ρ c (Proc.devRef .tc main_arg5) from by host_nw).trans h5
  · exact (show W15 (F := Ideal) m ρ c (Proc.devRef .tc main_arg6) = W14 (F := Ideal) m ρ c (Proc.devRef .tc main_arg6) from by host_nw).trans h6
  · exact (show W15 (F := Ideal) m ρ c (Proc.devRef .tc main_arg7) = W14 (F := Ideal) m ρ c (Proc.devRef .tc main_arg7) from by host_nw).trans h7
  · exact (show W15 (F := Ideal) m ρ c (Proc.devRef .tc main_arg8) = W14 (F := Ideal) m ρ c (Proc.devRef .tc main_arg8) from by host_nw).trans h8
  · exact (show W15 (F := Ideal) m ρ c (Proc.devRef .tc main_arg9) = W14 (F := Ideal) m ρ c (Proc.devRef .tc main_arg9) from by host_nw).trans h9
  · exact (show W15 (F := Ideal) m ρ c (Proc.devRef .tc main_arg10) = W14 (F := Ideal) m ρ c (Proc.devRef .tc main_arg10) from by host_nw).trans h10
  · exact (show W15 (F := Ideal) m ρ c (Proc.devRef .tc main_arg11) = W14 (F := Ideal) m ρ c (Proc.devRef .tc main_arg11) from by host_nw).trans h11
  · exact (show W15 (F := Ideal) m ρ c (Proc.devRef .tc main_arg12) = W14 (F := Ideal) m ρ c (Proc.devRef .tc main_arg12) from by host_nw).trans h12
  · exact (show W15 (F := Ideal) m ρ c (Proc.devRef .tc main_arg13) = W14 (F := Ideal) m ρ c (Proc.devRef .tc main_arg13) from by host_nw).trans h13
  · exact (show W15 (F := Ideal) m ρ c (Proc.devRef .tc main_arg14) = W14 (F := Ideal) m ρ c (Proc.devRef .tc main_arg14) from by host_nw).trans h14
  · exact (show W15 (F := Ideal) m ρ c (Proc.devRef .tc main_arg15) = W14 (F := Ideal) m ρ c (Proc.devRef .tc main_arg15) from by host_nw).trans h15
  · exact (show W15 (F := Ideal) m ρ c (Proc.devRef .tc main_arg16) = W14 (F := Ideal) m ρ c (Proc.devRef .tc main_arg16) from by host_nw).trans h16
theorem args16 : ArgsKept m c (W16 (F := Ideal) m ρ c) := by
  obtain ⟨h0, h1, h2, h3, h4, h5, h6, h7, h8, h9, h10, h11, h12, h13, h14, h15, h16⟩ := args15 m ρ c
  refine ⟨?_, ?_, ?_, ?_, ?_, ?_, ?_, ?_, ?_, ?_, ?_, ?_, ?_, ?_, ?_, ?_, ?_⟩
  · exact (show W16 (F := Ideal) m ρ c (Proc.devRef .tc main_arg0) = W15 (F := Ideal) m ρ c (Proc.devRef .tc main_arg0) from by host_nw).trans h0
  · exact (show W16 (F := Ideal) m ρ c (Proc.devRef .tc main_arg1) = W15 (F := Ideal) m ρ c (Proc.devRef .tc main_arg1) from by host_nw).trans h1
  · exact (show W16 (F := Ideal) m ρ c (Proc.devRef .tc main_arg2) = W15 (F := Ideal) m ρ c (Proc.devRef .tc main_arg2) from by host_nw).trans h2
  · exact (show W16 (F := Ideal) m ρ c (Proc.devRef .tc main_arg3) = W15 (F := Ideal) m ρ c (Proc.devRef .tc main_arg3) from by host_nw).trans h3
  · exact (show W16 (F := Ideal) m ρ c (Proc.devRef .tc main_arg4) = W15 (F := Ideal) m ρ c (Proc.devRef .tc main_arg4) from by host_nw).trans h4
  · exact (show W16 (F := Ideal) m ρ c (Proc.devRef .tc main_arg5) = W15 (F := Ideal) m ρ c (Proc.devRef .tc main_arg5) from by host_nw).trans h5
  · exact (show W16 (F := Ideal) m ρ c (Proc.devRef .tc main_arg6) = W15 (F := Ideal) m ρ c (Proc.devRef .tc main_arg6) from by host_nw).trans h6
  · exact (show W16 (F := Ideal) m ρ c (Proc.devRef .tc main_arg7) = W15 (F := Ideal) m ρ c (Proc.devRef .tc main_arg7) from by host_nw).trans h7
  · exact (show W16 (F := Ideal) m ρ c (Proc.devRef .tc main_arg8) = W15 (F := Ideal) m ρ c (Proc.devRef .tc main_arg8) from by host_nw).trans h8
  · exact (show W16 (F := Ideal) m ρ c (Proc.devRef .tc main_arg9) = W15 (F := Ideal) m ρ c (Proc.devRef .tc main_arg9) from by host_nw).trans h9
  · exact (show W16 (F := Ideal) m ρ c (Proc.devRef .tc main_arg10) = W15 (F := Ideal) m ρ c (Proc.devRef .tc main_arg10) from by host_nw).trans h10
  · exact (show W16 (F := Ideal) m ρ c (Proc.devRef .tc main_arg11) = W15 (F := Ideal) m ρ c (Proc.devRef .tc main_arg11) from by host_nw).trans h11
  · exact (show W16 (F := Ideal) m ρ c (Proc.devRef .tc main_arg12) = W15 (F := Ideal) m ρ c (Proc.devRef .tc main_arg12) from by host_nw).trans h12
  · exact (show W16 (F := Ideal) m ρ c (Proc.devRef .tc main_arg13) = W15 (F := Ideal) m ρ c (Proc.devRef .tc main_arg13) from by host_nw).trans h13
  · exact (show W16 (F := Ideal) m ρ c (Proc.devRef .tc main_arg14) = W15 (F := Ideal) m ρ c (Proc.devRef .tc main_arg14) from by host_nw).trans h14
  · exact (show W16 (F := Ideal) m ρ c (Proc.devRef .tc main_arg15) = W15 (F := Ideal) m ρ c (Proc.devRef .tc main_arg15) from by host_nw).trans h15
  · exact (show W16 (F := Ideal) m ρ c (Proc.devRef .tc main_arg16) = W15 (F := Ideal) m ρ c (Proc.devRef .tc main_arg16) from by host_nw).trans h16
theorem args17 : ArgsKept m c (W17 (F := Ideal) m ρ c) := by
  obtain ⟨h0, h1, h2, h3, h4, h5, h6, h7, h8, h9, h10, h11, h12, h13, h14, h15, h16⟩ := args16 m ρ c
  refine ⟨?_, ?_, ?_, ?_, ?_, ?_, ?_, ?_, ?_, ?_, ?_, ?_, ?_, ?_, ?_, ?_, ?_⟩
  · exact (show W17 (F := Ideal) m ρ c (Proc.devRef .tc main_arg0) = W16 (F := Ideal) m ρ c (Proc.devRef .tc main_arg0) from by host_nw).trans h0
  · exact (show W17 (F := Ideal) m ρ c (Proc.devRef .tc main_arg1) = W16 (F := Ideal) m ρ c (Proc.devRef .tc main_arg1) from by host_nw).trans h1
  · exact (show W17 (F := Ideal) m ρ c (Proc.devRef .tc main_arg2) = W16 (F := Ideal) m ρ c (Proc.devRef .tc main_arg2) from by host_nw).trans h2
  · exact (show W17 (F := Ideal) m ρ c (Proc.devRef .tc main_arg3) = W16 (F := Ideal) m ρ c (Proc.devRef .tc main_arg3) from by host_nw).trans h3
  · exact (show W17 (F := Ideal) m ρ c (Proc.devRef .tc main_arg4) = W16 (F := Ideal) m ρ c (Proc.devRef .tc main_arg4) from by host_nw).trans h4
  · exact (show W17 (F := Ideal) m ρ c (Proc.devRef .tc main_arg5) = W16 (F := Ideal) m ρ c (Proc.devRef .tc main_arg5) from by host_nw).trans h5
  · exact (show W17 (F := Ideal) m ρ c (Proc.devRef .tc main_arg6) = W16 (F := Ideal) m ρ c (Proc.devRef .tc main_arg6) from by host_nw).trans h6
  · exact (show W17 (F := Ideal) m ρ c (Proc.devRef .tc main_arg7) = W16 (F := Ideal) m ρ c (Proc.devRef .tc main_arg7) from by host_nw).trans h7
  · exact (show W17 (F := Ideal) m ρ c (Proc.devRef .tc main_arg8) = W16 (F := Ideal) m ρ c (Proc.devRef .tc main_arg8) from by host_nw).trans h8
  · exact (show W17 (F := Ideal) m ρ c (Proc.devRef .tc main_arg9) = W16 (F := Ideal) m ρ c (Proc.devRef .tc main_arg9) from by host_nw).trans h9
  · exact (show W17 (F := Ideal) m ρ c (Proc.devRef .tc main_arg10) = W16 (F := Ideal) m ρ c (Proc.devRef .tc main_arg10) from by host_nw).trans h10
  · exact (show W17 (F := Ideal) m ρ c (Proc.devRef .tc main_arg11) = W16 (F := Ideal) m ρ c (Proc.devRef .tc main_arg11) from by host_nw).trans h11
  · exact (show W17 (F := Ideal) m ρ c (Proc.devRef .tc main_arg12) = W16 (F := Ideal) m ρ c (Proc.devRef .tc main_arg12) from by host_nw).trans h12
  · exact (show W17 (F := Ideal) m ρ c (Proc.devRef .tc main_arg13) = W16 (F := Ideal) m ρ c (Proc.devRef .tc main_arg13) from by host_nw).trans h13
  · exact (show W17 (F := Ideal) m ρ c (Proc.devRef .tc main_arg14) = W16 (F := Ideal) m ρ c (Proc.devRef .tc main_arg14) from by host_nw).trans h14
  · exact (show W17 (F := Ideal) m ρ c (Proc.devRef .tc main_arg15) = W16 (F := Ideal) m ρ c (Proc.devRef .tc main_arg15) from by host_nw).trans h15
  · exact (show W17 (F := Ideal) m ρ c (Proc.devRef .tc main_arg16) = W16 (F := Ideal) m ρ c (Proc.devRef .tc main_arg16) from by host_nw).trans h16

/-! ## Typed references of an outlined function

Inside an outlined function a buffer is read and written through its typed reference; the transport along the type
equation is the identity. -/

theorem ofBuf_toBuf' {T : BufTy} (x : StableHlo.TRef sig T) (v : T.Contents (Elt Ideal)) : x.ofBuf (x.toBuf v) = v := by
  obtain ⟨r, rfl, a, b⟩ := x
  rfl
theorem toBuf_v8 (X : (⟨S1600000x64, .f32⟩ : BufTy).Contents (Elt Ideal)) :
    (StableHlo.TRef.of main_v8 : StableHlo.TRef sig ⟨S1600000x64, .f32⟩).toBuf (Val := Elt Ideal) X = X := rfl
theorem toBuf_v21 (X : (⟨S1600000x64, .f32⟩ : BufTy).Contents (Elt Ideal)) :
    (StableHlo.TRef.of main_v21 : StableHlo.TRef sig ⟨S1600000x64, .f32⟩).toBuf (Val := Elt Ideal) X = X := rfl
theorem ofBuf_v1 (b : (⟨S1600000, .i32⟩ : BufTy).Contents (Elt Ideal)) :
    (StableHlo.TRef.of main_v1 : StableHlo.TRef sig ⟨S1600000, .i32⟩).ofBuf (Val := Elt Ideal) b = b := rfl
theorem ofBuf_v5 (b : (⟨S100000x64, .f32⟩ : BufTy).Contents (Elt Ideal)) :
    (StableHlo.TRef.of main_v5 : StableHlo.TRef sig ⟨S100000x64, .f32⟩).ofBuf (Val := Elt Ideal) b = b := rfl
theorem ofBuf_v20 (b : (⟨S100000x64, .f32⟩ : BufTy).Contents (Elt Ideal)) :
    (StableHlo.TRef.of main_v20 : StableHlo.TRef sig ⟨S100000x64, .f32⟩).ofBuf (Val := Elt Ideal) b = b := rfl

/-! ## The values at the boundaries

Each boundary's contents at the buffers a later item reads, as the reference's stage of the ARGUMENTS: a host stretch
by its operations' composed term, a region by its array theorem, a buffer nobody writes in between carried along. -/

-- after the first host stretch: the id rows and the node bias as a row
theorem W1_v4 : W1 (F := Ideal) m ρ c (Proc.devRef .tc main_v4) = shapeCast S1x64 (m ((c : Thread nD τ).loc main_arg4)) shapeCasts_S64_S1x64 := by
  show StableHlo.after _ _ _ = _
  after_results
  rfl
theorem W1_v1 : W1 (F := Ideal) m ρ c (Proc.devRef .tc main_v1) = val_main_v1 (F := Ideal) (m ((c : Thread nD τ).loc main_arg2)) := by
  show StableHlo.after _ _ _ = _
  after_results
  rfl
theorem W1_v3 : W1 (F := Ideal) m ρ c (Proc.devRef .tc main_v3) = val_main_v3 (F := Ideal) (m ((c : Thread nD τ).loc main_arg2)) := by
  show StableHlo.after _ _ _ = _
  after_results
  rfl

-- region 0: the node projection
theorem W2_v5 : W2 (F := Ideal) m ρ c (Proc.devRef .tc main_v5) = val_main_v12 (F := Ideal) (m ((c : Thread nD τ).loc main_arg0)) (m ((c : Thread nD τ).loc main_arg3)) (m ((c : Thread nD τ).loc main_arg4)) :=
  (W2_arr (F := Ideal) m ρ c 3).trans (reg0_out (V1 m ρ) c _ _ _ (args1 m ρ c).1 (args1 m ρ c).2.2.2.1 (W1_v4 m ρ c))
theorem W2_v1 : W2 (F := Ideal) m ρ c (Proc.devRef .tc main_v1) = val_main_v1 (F := Ideal) (m ((c : Thread nD τ).loc main_arg2)) :=
  (W2_of_ne (F := Ideal) m ρ c main_v1 (by decide)).trans (W1_v1 m ρ c)
theorem W2_v3 : W2 (F := Ideal) m ρ c (Proc.devRef .tc main_v3) = val_main_v3 (F := Ideal) (m ((c : Thread nD τ).loc main_arg2)) :=
  (W2_of_ne (F := Ideal) m ρ c main_v3 (by decide)).trans (W1_v3 m ρ c)

-- the edge bias as a row
theorem W3_v6 : W3 (F := Ideal) m ρ c (Proc.devRef .tc main_v6) = shapeCast S1x64 (m ((c : Thread nD τ).loc main_arg6)) shapeCasts_S64_S1x64 := by
  show StableHlo.after _ _ _ = _
  after_results
  rw [(args2 m ρ c).2.2.2.2.2.2.1]
  rfl
theorem W3_v5 : W3 (F := Ideal) m ρ c (Proc.devRef .tc main_v5) = val_main_v12 (F := Ideal) (m ((c : Thread nD τ).loc main_arg0)) (m ((c : Thread nD τ).loc main_arg3)) (m ((c : Thread nD τ).loc main_arg4)) :=
  (show W3 (F := Ideal) m ρ c (Proc.devRef .tc main_v5) = W2 (F := Ideal) m ρ c (Proc.devRef .tc main_v5) from by host_nw).trans (W2_v5 m ρ c)
theorem W3_v1 : W3 (F := Ideal) m ρ c (Proc.devRef .tc main_v1) = val_main_v1 (F := Ideal) (m ((c : Thread nD τ).loc main_arg2)) :=
  (show W3 (F := Ideal) m ρ c (Proc.devRef .tc main_v1) = W2 (F := Ideal) m ρ c (Proc.devRef .tc main_v1) from by host_nw).trans (W2_v1 m ρ c)
theorem W3_v3 : W3 (F := Ideal) m ρ c (Proc.devRef .tc main_v3) = val_main_v3 (F := Ideal) (m ((c : Thread nD τ).loc main_arg2)) :=
  (show W3 (F := Ideal) m ρ c (Proc.devRef .tc main_v3) = W2 (F := Ideal) m ρ c (Proc.devRef .tc main_v3) from by host_nw).trans (W2_v3 m ρ c)

-- region 1: the edge projection
theorem W4_v7 : W4 (F := Ideal) m ρ c (Proc.devRef .tc main_v7) = val_main_v21 (F := Ideal) (m ((c : Thread nD τ).loc main_arg1)) (m ((c : Thread nD τ).loc main_arg5)) (m ((c : Thread nD τ).loc main_arg6)) :=
  (W4_arr (F := Ideal) m ρ c 3).trans (reg1_out (V3 m ρ) c _ _ _ (args3 m ρ c).2.1 (args3 m ρ c).2.2.2.2.2.1 (W3_v6 m ρ c))
theorem W4_v5 : W4 (F := Ideal) m ρ c (Proc.devRef .tc main_v5) = val_main_v12 (F := Ideal) (m ((c : Thread nD τ).loc main_arg0)) (m ((c : Thread nD τ).loc main_arg3)) (m ((c : Thread nD τ).loc main_arg4)) :=
  (W4_of_ne (F := Ideal) m ρ c main_v5 (by decide)).trans (W3_v5 m ρ c)
theorem W4_v1 : W4 (F := Ideal) m ρ c (Proc.devRef .tc main_v1) = val_main_v1 (F := Ideal) (m ((c : Thread nD τ).loc main_arg2)) :=
  (W4_of_ne (F := Ideal) m ρ c main_v1 (by decide)).trans (W3_v1 m ρ c)
theorem W4_v3 : W4 (F := Ideal) m ρ c (Proc.devRef .tc main_v3) = val_main_v3 (F := Ideal) (m ((c : Thread nD τ).loc main_arg2)) :=
  (W4_of_ne (F := Ideal) m ρ c main_v3 (by decide)).trans (W3_v3 m ρ c)

-- the first take: with every source id in range no row is filled
set_option maxHeartbeats 4000000 in
theorem W5_v8 (hs : SrcInRange (m ((c : Thread nD τ).loc main_arg2))) : W5 (F := Ideal) m ρ c (Proc.devRef .tc main_v8) = val_main_v28 (F := Ideal) (m ((c : Thread nD τ).loc main_arg0)) (m ((c : Thread nD τ).loc main_arg2)) (m ((c : Thread nD τ).loc main_arg3)) (m ((c : Thread nD τ).loc main_arg4)) := by
  have e : W5 (F := Ideal) m ρ c (Proc.devRef .tc main_v8) = takeFill (W4 (F := Ideal) m ρ c (Proc.devRef .tc main_v5)) (W4 (F := Ideal) m ρ c (Proc.devRef .tc main_v1)) := by
    show StableHlo.after _ _ _ = _
    after_results_simp
    simp only [ofBuf_toBuf', toBuf_v8, ofBuf_v1, ofBuf_v5]
    generalize W4 (F := Ideal) m ρ c (Proc.devRef .tc main_v5) = a
    generalize W4 (F := Ideal) m ρ c (Proc.devRef .tc main_v1) = b
    rfl
  rw [e, W4_v5, W4_v1, takeFill_eq _ hs]
  rfl
theorem W5_v7 : W5 (F := Ideal) m ρ c (Proc.devRef .tc main_v7) = val_main_v21 (F := Ideal) (m ((c : Thread nD τ).loc main_arg1)) (m ((c : Thread nD τ).loc main_arg5)) (m ((c : Thread nD τ).loc main_arg6)) :=
  (show W5 (F := Ideal) m ρ c (Proc.devRef .tc main_v7) = W4 (F := Ideal) m ρ c (Proc.devRef .tc main_v7) from by host_nw).trans (W4_v7 m ρ c)
theorem W5_v5 : W5 (F := Ideal) m ρ c (Proc.devRef .tc main_v5) = val_main_v12 (F := Ideal) (m ((c : Thread nD τ).loc main_arg0)) (m ((c : Thread nD τ).loc main_arg3)) (m ((c : Thread nD τ).loc main_arg4)) :=
  (show W5 (F := Ideal) m ρ c (Proc.devRef .tc main_v5) = W4 (F := Ideal) m ρ c (Proc.devRef .tc main_v5) from by host_nw).trans (W4_v5 m ρ c)
theorem W5_v1 : W5 (F := Ideal) m ρ c (Proc.devRef .tc main_v1) = val_main_v1 (F := Ideal) (m ((c : Thread nD τ).loc main_arg2)) :=
  (show W5 (F := Ideal) m ρ c (Proc.devRef .tc main_v1) = W4 (F := Ideal) m ρ c (Proc.devRef .tc main_v1) from by host_nw).trans (W4_v1 m ρ c)
theorem W5_v3 : W5 (F := Ideal) m ρ c (Proc.devRef .tc main_v3) = val_main_v3 (F := Ideal) (m ((c : Thread nD τ).loc main_arg2)) :=
  (show W5 (F := Ideal) m ρ c (Proc.devRef .tc main_v3) = W4 (F := Ideal) m ρ c (Proc.devRef .tc main_v3) from by host_nw).trans (W4_v3 m ρ c)

-- region 2: the first layer's messages
theorem W6_v9 (hs : SrcInRange (m ((c : Thread nD τ).loc main_arg2))) : W6 (F := Ideal) m ρ c (Proc.devRef .tc main_v9) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W6_arr (F := Ideal) m ρ c 2).trans (reg2_out (V5 m ρ) c _ _ _ _ _ _ _ (W5_v8 m ρ c hs) (W5_v7 m ρ c))
theorem W6_v7 : W6 (F := Ideal) m ρ c (Proc.devRef .tc main_v7) = val_main_v21 (F := Ideal) (m ((c : Thread nD τ).loc main_arg1)) (m ((c : Thread nD τ).loc main_arg5)) (m ((c : Thread nD τ).loc main_arg6)) :=
  ((W6_arr (F := Ideal) m ρ c 1).trans (((dat2 (F := Ideal) (V5 m ρ) c).arrAt_in 1 rfl _).trans (A_eq2 (V5 m ρ) c 1))).trans (W5_v7 m ρ c)
theorem W6_v5 : W6 (F := Ideal) m ρ c (Proc.devRef .tc main_v5) = val_main_v12 (F := Ideal) (m ((c : Thread nD τ).loc main_arg0)) (m ((c : Thread nD τ).loc main_arg3)) (m ((c : Thread nD τ).loc main_arg4)) :=
  (W6_of_ne (F := Ideal) m ρ c main_v5 (by decide)).trans (W5_v5 m ρ c)
theorem W6_v1 : W6 (F := Ideal) m ρ c (Proc.devRef .tc main_v1) = val_main_v1 (F := Ideal) (m ((c : Thread nD τ).loc main_arg2)) :=
  (W6_of_ne (F := Ideal) m ρ c main_v1 (by decide)).trans (W5_v1 m ρ c)
theorem W6_v3 : W6 (F := Ideal) m ρ c (Proc.devRef .tc main_v3) = val_main_v3 (F := Ideal) (m ((c : Thread nD τ).loc main_arg2)) :=
  (W6_of_ne (F := Ideal) m ρ c main_v3 (by decide)).trans (W5_v3 m ρ c)

-- the first scatter-add and the MLP's bias rows
theorem W7_v12 (hs : SrcInRange (m ((c : Thread nD τ).loc main_arg2))) : W7 (F := Ideal) m ρ c (Proc.devRef .tc main_v12) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after _ _ _ = _
  after_results
  rw [W6_v9 m ρ c hs, W6_v3]
  rfl
theorem W7_v13 : W7 (F := Ideal) m ρ c (Proc.devRef .tc main_v13) = shapeCast S1x64 (m ((c : Thread nD τ).loc main_arg8)) shapeCasts_S64_S1x64 := by
  show StableHlo.after _ _ _ = _
  after_results
  rw [(args6 m ρ c).2.2.2.2.2.2.2.2.1]
  rfl
theorem W7_v14 : W7 (F := Ideal) m ρ c (Proc.devRef .tc main_v14) = shapeCast S1x64 (m ((c : Thread nD τ).loc main_arg10)) shapeCasts_S64_S1x64 := by
  show StableHlo.after _ _ _ = _
  after_results
  rw [(args6 m ρ c).2.2.2.2.2.2.2.2.2.2.1]
  rfl
theorem W7_v5 : W7 (F := Ideal) m ρ c (Proc.devRef .tc main_v5) = val_main_v12 (F := Ideal) (m ((c : Thread nD τ).loc main_arg0)) (m ((c : Thread nD τ).loc main_arg3)) (m ((c : Thread nD τ).loc main_arg4)) :=
  (show W7 (F := Ideal) m ρ c (Proc.devRef .tc main_v5) = W6 (F := Ideal) m ρ c (Proc.devRef .tc main_v5) from by host_nw).trans (W6_v5 m ρ c)
theorem W7_v7 : W7 (F := Ideal) m ρ c (Proc.devRef .tc main_v7) = val_main_v21 (F := Ideal) (m ((c : Thread nD τ).loc main_arg1)) (m ((c : Thread nD τ).loc main_arg5)) (m ((c : Thread nD τ).loc main_arg6)) :=
  (show W7 (F := Ideal) m ρ c (Proc.devRef .tc main_v7) = W6 (F := Ideal) m ρ c (Proc.devRef .tc main_v7) from by host_nw).trans (W6_v7 m ρ c)
theorem W7_v1 : W7 (F := Ideal) m ρ c (Proc.devRef .tc main_v1) = val_main_v1 (F := Ideal) (m ((c : Thread nD τ).loc main_arg2)) :=
  (show W7 (F := Ideal) m ρ c (Proc.devRef .tc main_v1) = W6 (F := Ideal) m ρ c (Proc.devRef .tc main_v1) from by host_nw).trans (W6_v1 m ρ c)
theorem W7_v3 : W7 (F := Ideal) m ρ c (Proc.devRef .tc main_v3) = val_main_v3 (F := Ideal) (m ((c : Thread nD τ).loc main_arg2)) :=
  (show W7 (F := Ideal) m ρ c (Proc.devRef .tc main_v3) = W6 (F := Ideal) m ρ c (Proc.devRef .tc main_v3) from by host_nw).trans (W6_v3 m ρ c)

-- region 3: the first layer's MLP
theorem W8_v15 (hs : SrcInRange (m ((c : Thread nD τ).loc main_arg2))) : W8 (F := Ideal) m ρ c (Proc.devRef .tc main_v15) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr (F := Ideal) m ρ c 6).trans (reg3_out (V7 m ρ) c _ _ _ _ _ _ _ _ _ _ _ (W7_v5 m ρ c) (W7_v12 m ρ c hs) (args7 m ρ c).2.2.2.2.2.2.2.1 (W7_v13 m ρ c) (args7 m ρ c).2.2.2.2.2.2.2.2.2.1 (W7_v14 m ρ c))
theorem W8_v7 : W8 (F := Ideal) m ρ c (Proc.devRef .tc main_v7) = val_main_v21 (F := Ideal) (m ((c : Thread nD τ).loc main_arg1)) (m ((c : Thread nD τ).loc main_arg5)) (m ((c : Thread nD τ).loc main_arg6)) :=
  (W8_of_ne (F := Ideal) m ρ c main_v7 (by decide)).trans (W7_v7 m ρ c)
theorem W8_v1 : W8 (F := Ideal) m ρ c (Proc.devRef .tc main_v1) = val_main_v1 (F := Ideal) (m ((c : Thread nD τ).loc main_arg2)) :=
  (W8_of_ne (F := Ideal) m ρ c main_v1 (by decide)).trans (W7_v1 m ρ c)
theorem W8_v3 : W8 (F := Ideal) m ρ c (Proc.devRef .tc main_v3) = val_main_v3 (F := Ideal) (m ((c : Thread nD τ).loc main_arg2)) :=
  (W8_of_ne (F := Ideal) m ρ c main_v3 (by decide)).trans (W7_v3 m ρ c)

-- LeakyReLU on the host, in two stretches
theorem W10_v20 (hs : SrcInRange (m ((c : Thread nD τ).loc main_arg2))) : W10 (F := Ideal) m ρ c (Proc.devRef .tc main_v20) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after _ (StableHlo.after _ _) _ = _
  after_results
  rw [W8_v15 m ρ c hs]
  rfl
theorem W10_v7 : W10 (F := Ideal) m ρ c (Proc.devRef .tc main_v7) = val_main_v21 (F := Ideal) (m ((c : Thread nD τ).loc main_arg1)) (m ((c : Thread nD τ).loc main_arg5)) (m ((c : Thread nD τ).loc main_arg6)) :=
  (show W10 (F := Ideal) m ρ c (Proc.devRef .tc main_v7) = W9 (F := Ideal) m ρ c (Proc.devRef .tc main_v7) from by host_nw).trans
    ((show W9 (F := Ideal) m ρ c (Proc.devRef .tc main_v7) = W8 (F := Ideal) m ρ c (Proc.devRef .tc main_v7) from by host_nw).trans (W8_v7 m ρ c))
theorem W10_v1 : W10 (F := Ideal) m ρ c (Proc.devRef .tc main_v1) = val_main_v1 (F := Ideal) (m ((c : Thread nD τ).loc main_arg2)) :=
  (show W10 (F := Ideal) m ρ c (Proc.devRef .tc main_v1) = W9 (F := Ideal) m ρ c (Proc.devRef .tc main_v1) from by host_nw).trans
    ((show W9 (F := Ideal) m ρ c (Proc.devRef .tc main_v1) = W8 (F := Ideal) m ρ c (Proc.devRef .tc main_v1) from by host_nw).trans (W8_v1 m ρ c))
theorem W10_v3 : W10 (F := Ideal) m ρ c (Proc.devRef .tc main_v3) = val_main_v3 (F := Ideal) (m ((c : Thread nD τ).loc main_arg2)) :=
  (show W10 (F := Ideal) m ρ c (Proc.devRef .tc main_v3) = W9 (F := Ideal) m ρ c (Proc.devRef .tc main_v3) from by host_nw).trans
    ((show W9 (F := Ideal) m ρ c (Proc.devRef .tc main_v3) = W8 (F := Ideal) m ρ c (Proc.devRef .tc main_v3) from by host_nw).trans (W8_v3 m ρ c))
-- the second take
set_option maxHeartbeats 4000000 in
theorem W11_v21 (hs : SrcInRange (m ((c : Thread nD τ).loc main_arg2))) : W11 (F := Ideal) m ρ c (Proc.devRef .tc main_v21) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e : W11 (F := Ideal) m ρ c (Proc.devRef .tc main_v21) = takeFill (W10 (F := Ideal) m ρ c (Proc.devRef .tc main_v20)) (W10 (F := Ideal) m ρ c (Proc.devRef .tc main_v1)) := by
    show StableHlo.after _ _ _ = _
    after_results_simp
    simp only [ofBuf_toBuf', toBuf_v21, ofBuf_v1, ofBuf_v20]
    generalize W10 (F := Ideal) m ρ c (Proc.devRef .tc main_v20) = a
    generalize W10 (F := Ideal) m ρ c (Proc.devRef .tc main_v1) = b
    rfl
  rw [e, W10_v20 m ρ c hs, W10_v1, takeFill_eq' _ hs]
  rfl
theorem W11_v7 : W11 (F := Ideal) m ρ c (Proc.devRef .tc main_v7) = val_main_v21 (F := Ideal) (m ((c : Thread nD τ).loc main_arg1)) (m ((c : Thread nD τ).loc main_arg5)) (m ((c : Thread nD τ).loc main_arg6)) :=
  (show W11 (F := Ideal) m ρ c (Proc.devRef .tc main_v7) = W10 (F := Ideal) m ρ c (Proc.devRef .tc main_v7) from by host_nw).trans (W10_v7 m ρ c)
theorem W11_v3 : W11 (F := Ideal) m ρ c (Proc.devRef .tc main_v3) = val_main_v3 (F := Ideal) (m ((c : Thread nD τ).loc main_arg2)) :=
  (show W11 (F := Ideal) m ρ c (Proc.devRef .tc main_v3) = W10 (F := Ideal) m ρ c (Proc.devRef .tc main_v3) from by host_nw).trans (W10_v3 m ρ c)
theorem W11_v20 (hs : SrcInRange (m ((c : Thread nD τ).loc main_arg2))) : W11 (F := Ideal) m ρ c (Proc.devRef .tc main_v20) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (show W11 (F := Ideal) m ρ c (Proc.devRef .tc main_v20) = W10 (F := Ideal) m ρ c (Proc.devRef .tc main_v20) from by host_nw).trans (W10_v20 m ρ c hs)
-- region 4: the second layer's messages
theorem W12_v22 (hs : SrcInRange (m ((c : Thread nD τ).loc main_arg2))) : W12 (F := Ideal) m ρ c (Proc.devRef .tc main_v22) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_arr (F := Ideal) m ρ c 2).trans (reg4_out (V11 m ρ) c _ _ _ _ _ _ _ _ _ _ _ (W11_v21 m ρ c hs) (W11_v7 m ρ c))
theorem W12_v3 : W12 (F := Ideal) m ρ c (Proc.devRef .tc main_v3) = val_main_v3 (F := Ideal) (m ((c : Thread nD τ).loc main_arg2)) :=
  (W12_of_ne (F := Ideal) m ρ c main_v3 (by decide)).trans (W11_v3 m ρ c)
theorem W12_v20 (hs : SrcInRange (m ((c : Thread nD τ).loc main_arg2))) : W12 (F := Ideal) m ρ c (Proc.devRef .tc main_v20) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_of_ne (F := Ideal) m ρ c main_v20 (by decide)).trans (W11_v20 m ρ c hs)
-- the second scatter-add and bias rows
theorem W13_v25 (hs : SrcInRange (m ((c : Thread nD τ).loc main_arg2))) : W13 (F := Ideal) m ρ c (Proc.devRef .tc main_v25) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after _ _ _ = _
  after_results
  rw [W12_v22 m ρ c hs, W12_v3]
  rfl
theorem W13_v26 : W13 (F := Ideal) m ρ c (Proc.devRef .tc main_v26) = shapeCast S1x64 (m ((c : Thread nD τ).loc main_arg12)) shapeCasts_S64_S1x64 := by
  show StableHlo.after _ _ _ = _
  after_results
  rw [(args12 m ρ c).2.2.2.2.2.2.2.2.2.2.2.2.1]
  rfl
theorem W13_v27 : W13 (F := Ideal) m ρ c (Proc.devRef .tc main_v27) = shapeCast S1x64 (m ((c : Thread nD τ).loc main_arg14)) shapeCasts_S64_S1x64 := by
  show StableHlo.after _ _ _ = _
  after_results
  rw [(args12 m ρ c).2.2.2.2.2.2.2.2.2.2.2.2.2.2.1]
  rfl
theorem W13_v20 (hs : SrcInRange (m ((c : Thread nD τ).loc main_arg2))) : W13 (F := Ideal) m ρ c (Proc.devRef .tc main_v20) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (show W13 (F := Ideal) m ρ c (Proc.devRef .tc main_v20) = W12 (F := Ideal) m ρ c (Proc.devRef .tc main_v20) from by host_nw).trans (W12_v20 m ρ c hs)
-- region 5: the second layer's MLP
theorem W14_v28 (hs : SrcInRange (m ((c : Thread nD τ).loc main_arg2))) : W14 (F := Ideal) m ρ c (Proc.devRef .tc main_v28) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W14_arr (F := Ideal) m ρ c 6).trans (reg5_out (V13 m ρ) c _ _ _ _ _ _ _ _ _ _ _ _ _ _ _ (W13_v20 m ρ c hs) (W13_v25 m ρ c hs) (args13 m ρ c).2.2.2.2.2.2.2.2.2.2.2.1 (W13_v26 m ρ c) (args13 m ρ c).2.2.2.2.2.2.2.2.2.2.2.2.2.1 (W13_v27 m ρ c))
-- LeakyReLU on the host and the output bias as a row
set_option maxHeartbeats 4000000 in
theorem W17_v33 (hs : SrcInRange (m ((c : Thread nD τ).loc main_arg2))) : W17 (F := Ideal) m ρ c (Proc.devRef .tc main_v33) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after _ (StableHlo.after _ (StableHlo.after _ _)) _ = _
  after_results_simp
  rw [W14_v28 m ρ c hs]
  rfl
theorem W17_v34 : W17 (F := Ideal) m ρ c (Proc.devRef .tc main_v34) = shapeCast S1x21 (m ((c : Thread nD τ).loc main_arg16)) shapeCasts_S21_S1x21 := by
  show StableHlo.after _ _ _ = _
  after_results
  rw [(args14 m ρ c).2.2.2.2.2.2.2.2.2.2.2.2.2.2.2.2]
  rfl
-- region 6: the output projection
/-- The result buffer at the last boundary is the reference's result stage of the arguments. -/
theorem W18_v35 (hs : SrcInRange (m ((c : Thread nD τ).loc main_arg2))) : W18 (F := Ideal) m ρ c (Proc.devRef .tc main_v35) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (W18_arr (F := Ideal) m ρ c 3).trans (reg6_out (V17 m ρ) c _ _ _ _ _ _ _ _ _ _ _ _ _ _ _ _ _ (W17_v33 m ρ c hs) (args17 m ρ c).2.2.2.2.2.2.2.2.2.2.2.2.2.2.2.1 (W17_v34 m ρ c))

end Cert.KernelIdeal.Bridge

end
-- ==== Proof.lean ====
/- The certificate of a two-layer GINE graph network: seven pallas_calls (two input projections with LeakyReLU, and per
   layer a message kernel relu(h[src] + e) and an MLP kernel LeakyReLU((h + agg)·W1 + b1)·W2 + b2, then the output
   projection) with jnp.take and segment_sum on the host between them, against the plain jnp reference.
   At the ideal instance every operation is its exact extended-real one and a change of float format is the identity, so
   each kernel region computes, block of rows by block of rows, the reference's stage of the same arrays: a matmul into a
   zero accumulator and the host's dot_general are the same sum over the contracted axis, the bias row is read at the
   column, LeakyReLU and relu are pointwise. The two programs differ in one place: the kernel's jnp.take fills a gathered
   row with a NaN word when its (wrapped) source id is outside 0..99999, where the reference's h[src] clamps the id. The
   precondition's added conjunct (0 ≤ edge_index[0] ≤ 99999, the domain on which the reference indexes in range) makes
   the fill mask all ones, so both gathers read the same rows. No law beyond commutativity and associativity of the sums is
   used, so finiteness of the float inputs is never opened.
   The frames of the two kernel programs are generated; the kernel's value is read off the generated frame's boundary
   contents (Proof/KernelRun.lean re-posts the frame run with the result named, Proof/KChain.lean walks the boundaries,
   Proof/RegLin.lean, RegMsg.lean, RegMlp.lean read each region's array, Proof/PreDecode.lean decodes the precondition);
   the reference's run and its stages are the generated run and read modules (Proof/RefRun.lean, Proof/RefRead.lean), the run's result stated at the last stage. -/
import proofs.«420455_j26972394618971_2_alg».proof.Defs
import proofs.«420455_j26972394618971_2_alg».proof.Proof.Gen.Kernel
import proofs.«420455_j26972394618971_2_alg».proof.Proof.Gen.Kernel.Skeleton
import proofs.«420455_j26972394618971_2_alg».proof.Proof.Gen.Kernel.Launch
import proofs.«420455_j26972394618971_2_alg».proof.Proof.Gen.Kernel.Points
import proofs.«420455_j26972394618971_2_alg».proof.Proof.Gen.Kernel.Frame
import proofs.«420455_j26972394618971_2_alg».proof.Proof.Gen.KernelIdeal
import proofs.«420455_j26972394618971_2_alg».proof.Proof.Gen.KernelIdeal.Skeleton
import proofs.«420455_j26972394618971_2_alg».proof.Proof.Gen.KernelIdeal.Launch
import proofs.«420455_j26972394618971_2_alg».proof.Proof.Gen.KernelIdeal.Points
import proofs.«420455_j26972394618971_2_alg».proof.Proof.Gen.KernelIdeal.Frame
import proofs.«420455_j26972394618971_2_alg».proof.Proof.Gen.ReferenceIdeal
import proofs.«420455_j26972394618971_2_alg».proof.Proof.Gen.Pre_finite_inputs
import proofs.«420455_j26972394618971_2_alg».proof.Proof.RefRun
import proofs.«420455_j26972394618971_2_alg».proof.Proof.RefRead
import proofs.«420455_j26972394618971_2_alg».proof.Proof.KernelRun
import proofs.«420455_j26972394618971_2_alg».proof.Proof.KChain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its generated run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result at the reference's result stage of the (agreeing) arguments. -/
theorem algebraic : Cert.algebraic_KernelIdeal_ReferenceIdeal := by
  intro m ρ m' ρ' hpre hagree
  refine ⟨fun c => Cert.ReferenceIdeal.ReadP.val_main_v87 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)), ?_,
    Cert.ReferenceIdeal.ValueP.run (F := Ideal) m' ρ'⟩
  refine (θ_run Cert.KernelIdeal.defs _ _).mono (fun r h c => ⟨(h c).1.trans ?_, (h c).2⟩) (Cert.KernelIdeal.Gen.run_named (F := Ideal) m ρ)
  rw [Cert.KernelIdeal.Bridge.W18_v35 m ρ c (Cert.KernelIdeal.Bridge.srcInRange_of_pre m hpre c)]
  obtain ⟨a0, a1, a2, a3, a4, a5, a6, a7, a8, a9, a10, a11, a12, a13, a14, a15, a16⟩ := hagree c
  show _ = Cert.ReferenceIdeal.ReadP.val_main_v87 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
  rw [a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
